-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S4096x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg6 : FVec F S128x128 .f32) (main_arg7 : FVec F S128 .f32) (main_arg8 : FVec F S128x128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S102400x128 : Shape := ⟨2, ![102400, 128]⟩
abbrev S102400 : Shape := ⟨1, ![102400]⟩
abbrev S102400x1 : Shape := ⟨2, ![102400, 1]⟩
abbrev S1600000x1 : Shape := ⟨2, ![1600000, 1]⟩
abbrev S1600000x128 : Shape := ⟨2, ![1600000, 128]⟩
abbrev S4096x128 : Shape := ⟨2, ![4096, 128]⟩
abbrev S1x128 : Shape := ⟨2, ![1, 128]⟩
abbrev S64x10 : Shape := ⟨2, ![64, 10]⟩
abbrev S4096x1 : Shape := ⟨2, ![4096, 1]⟩
abbrev S64x1 : Shape := ⟨2, ![64, 1]⟩
abbrev S4096x10 : Shape := ⟨2, ![4096, 10]⟩
abbrev S1x10 : Shape := ⟨2, ![1, 10]⟩
abbrev S4096x64 : Shape := ⟨2, ![4096, 64]⟩
abbrev S64 : Shape := ⟨1, ![64]⟩

abbrev nBuf : Space → Nat
  | .hbm => 75
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S_, .f32⟩
  | .hbm, ⟨17, _⟩ => ⟨S102400x128, .f32⟩
  | .hbm, ⟨18, _⟩ => ⟨S_, .i32⟩
  | .hbm, ⟨19, _⟩ => ⟨S_, .i32⟩
  | .hbm, ⟨20, _⟩ => ⟨S102400, .i32⟩
  | .hbm, ⟨21, _⟩ => ⟨S102400x1, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S102400x128, .f32⟩
  | .hbm, ⟨33, _⟩ => ⟨S1600000x1, .i32⟩
  | .hbm, ⟨34, _⟩ => ⟨S102400x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S102400, .f32⟩
  | .hbm, ⟨39, _⟩ => ⟨S1600000x1, .i32⟩
  | .hbm, ⟨40, _⟩ => ⟨S102400, .f32⟩
  | .hbm, ⟨41, _⟩ => ⟨S_, .f32⟩
  | .hbm, ⟨42, _⟩ => ⟨S102400, .f32⟩
  | .hbm, ⟨43, _⟩ => ⟨S102400, .f32⟩
  | .hbm, ⟨44, _⟩ => ⟨S102400x1, .f32⟩
  | .hbm, ⟨45, _⟩ => ⟨S102400x128, .f32⟩
  | .hbm, ⟨46, _⟩ => ⟨S102400x128, .f32⟩
  | .hbm, ⟨47, _⟩ => ⟨S102400x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S102400x128, .f32⟩
  | .hbm, ⟨59, _⟩ => ⟨S1600000x1, .i32⟩
  | .hbm, ⟨60, _⟩ => ⟨S102400x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S102400, .f32⟩
  | .hbm, ⟨65, _⟩ => ⟨S1600000x1, .i32⟩
  | .hbm, ⟨66, _⟩ => ⟨S102400, .f32⟩
  | .hbm, ⟨67, _⟩ => ⟨S_, .f32⟩
  | .hbm, ⟨68, _⟩ => ⟨S102400, .f32⟩
  | .hbm, ⟨69, _⟩ => ⟨S102400, .f32⟩
  | .hbm, ⟨70, _⟩ => ⟨S102400x1, .f32⟩
  | .hbm, ⟨71, _⟩ => ⟨S102400x128, .f32⟩
  | .hbm, ⟨72, _⟩ => ⟨S102400x128, .f32⟩
  | .hbm, ⟨73, _⟩ => ⟨S102400x128, .f32⟩
  | .hbm, ⟨74, _⟩ => ⟨S64x10, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x1, .i32⟩
  | .local _ .vmem, ⟨21, _⟩ => ⟨S4096x1, .i32⟩
  | .local _ .vmem, ⟨22, _⟩ => ⟨S128x10, .f32⟩
  | .local _ .vmem, ⟨23, _⟩ => ⟨S10, .f32⟩
  | .local _ .vmem, ⟨24, _⟩ => ⟨S64x10, .f32⟩
  | .local _ .vmem, ⟨25, _⟩ => ⟨S64x10, .f32⟩
  | .local _ .vmem, ⟨26, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_17 : BitVec 32 := 0#32
  let v38 : BitVec 1 := Scalar.cmpi .ne v37 c0_i32_17
  v38

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S100000x128_S102400x128_024000_000 : S100000x128.Pads (![0, 0] : Fin 2 → Nat) ![2400, 0] ![0, 0] S102400x128
  h_S_ : 0 < S_.numel
  pads_S100000_S102400_024000 : S100000.Pads (![0] : Fin 1 → Nat) ![2400] ![0] S102400
  bcast_S102400_S102400x1_0 : S102400.BroadcastsInDim S102400x1 (![0] : Fin 1 → Fin S102400x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S102400x128 : S_.BroadcastsInDim S102400x128 (![] : Fin 0 → Fin S102400x128.rank)
  bcast_S_S102400 : S_.BroadcastsInDim S102400 (![] : Fin 0 → Fin S102400.rank)
  bcast_S102400x1_S102400x128_0_1 : S102400x1.BroadcastsInDim S102400x128 (![0, 1] : Fin 2 → Fin S102400x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S4096x10 : S1x10.Broadcasts S4096x10
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x64_d1_w32 : S4096x64.Iotas .tc 32 [1]
  broadcasts_S4096x1_S4096x64 : S4096x1.Broadcasts S4096x64
  natLt_1_32 : 1 < 32
  reduces_S4096x64_S64 : S4096x64.Reduces [0] S64
  shapeCasts_S64_S64x1 : S64.ShapeCasts S64x1
  broadcasts_S64x1_S64x10 : S64x1.Broadcasts S64x10
  gather_S102400x128_S1600000x1_S1600000x128_1_0_n_n_0_1_1128_wf : GatherDims.WF S102400x128 S1600000x1 S1600000x128 [1] [0] [] [0] [] 1 ![1, 128]
  scatter_S102400x128_S1600000x1_S1600000x128_1_0_0_1_wf : ScatterDims.WF S102400x128 S1600000x1 S1600000x128 [1] [0] [0] 1
  scatter_S102400_S1600000x1_S1600000_n_0_0_1_wf : ScatterDims.WF S102400 S1600000x1 S1600000 [] [0] [0] 1
  dot_S4096x128_S128x128_S4096x128_1_0_0_1_n_n_wf : DotDims.WF S4096x128 S128x128 S4096x128 [1] [0] [0] [1] [] []
  dot_S4096x128_S128x10_S4096x10_1_0_0_1_n_n_wf : DotDims.WF S4096x128 S128x10 S4096x10 [1] [0] [0] [1] [] []
  dot_S4096x64_S4096x10_S64x10_0_0_1_1_n_n_wf : DotDims.WF S4096x64 S4096x10 S64x10 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S102400x128.size a
  hwx0_1 : ∀ i : grid0.Coords, EltTy.bits .f32 = 32 ∨ (Rect.block (s := S102400x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S102400x128.size a
  hwx0_5 : ∀ i : grid0.Coords, EltTy.bits .f32 = 32 ∨ (Rect.block (s := S102400x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .f32 = 32 ∨ (Rect.block (s := S102400x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S102400x128.size a
  hwx1_1 : ∀ i : grid1.Coords, EltTy.bits .f32 = 32 ∨ (Rect.block (s := S102400x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S102400x128.size a
  hwx1_5 : ∀ i : grid1.Coords, EltTy.bits .f32 = 32 ∨ (Rect.block (s := S102400x128) S4096x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S102400x128.size a
  hwx2_0 : ∀ i : grid2.Coords, EltTy.bits .f32 = 32 ∨ (Rect.block (s := S102400x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S102400x1.size a
  hwx2_1 : ∀ i : grid2.Coords, EltTy.bits .i32 = 32 ∨ (Rect.block (s := S102400x1) S4096x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x10.size a ≤ S128x10.size a
  hwx2_2 : ∀ i : grid2.Coords, EltTy.bits .f32 = 32 ∨ (Rect.block (s := S128x10) S128x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10.size a ≤ S10.size a
  hwx2_3 : ∀ i : grid2.Coords, EltTy.bits .f32 = 32 ∨ (Rect.block (s := S10) S10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x10.size a ≤ S64x10.size a
  hwx2_4 : ∀ i : grid2.Coords, EltTy.bits .f32 = 32 ∨ (Rect.block (s := S64x10) S64x10.size (cc2_transform_4 i) (hinb2_4 i)).WholeWords (EltTy.packing .f32)

variable [Facts₀]

def gather_S102400x128_S1600000x1_S1600000x128_1_0_n_n_0_1_1128 : GatherDims S102400x128 S1600000x1 S1600000x128 where
  offsetDims := [1]
  collapsedSliceDims := [0]
  operandBatchingDims := []
  startIndicesBatchingDims := []
  startIndexMap := [0]
  indexVectorDim := 1
  sliceSizes := ![1, 128]
  wf := gather_S102400x128_S1600000x1_S1600000x128_1_0_n_n_0_1_1128_wf
def scatter_S102400x128_S1600000x1_S1600000x128_1_0_0_1 : ScatterDims S102400x128 S1600000x1 S1600000x128 where
  updateWindowDims := [1]
  insertedWindowDims := [0]
  scatterDimsToOperandDims := [0]
  indexVectorDim := 1
  wf := scatter_S102400x128_S1600000x1_S1600000x128_1_0_0_1_wf
def scatter_S102400_S1600000x1_S1600000_n_0_0_1 : ScatterDims S102400 S1600000x1 S1600000 where
  updateWindowDims := []
  insertedWindowDims := [0]
  scatterDimsToOperandDims := [0]
  indexVectorDim := 1
  wf := scatter_S102400_S1600000x1_S1600000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x10_S4096x10_1_0_0_1_n_n : DotDims S4096x128 S128x10 S4096x10 where
  lhsContracting := [1]
  rhsContracting := [0]
  lhsNonContracting := [0]
  rhsNonContracting := [1]
  lhsBatch := []
  rhsBatch := []
  wf := dot_S4096x128_S128x10_S4096x10_1_0_0_1_n_n_wf
def dot_S4096x64_S4096x10_S64x10_0_0_1_1_n_n : DotDims S4096x64 S4096x10 S64x10 where
  lhsContracting := [0]
  rhsContracting := [0]
  lhsNonContracting := [1]
  rhsNonContracting := [1]
  lhsBatch := []
  rhsBatch := []
  wf := dot_S4096x64_S4096x10_S64x10_0_0_1_1_n_n_wf

abbrev win0_0 : Pipeline.Window sig grid0 :=
  Pipeline.Window.ofSpec (Memref.whole main_v25) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S64x10.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x10 : Shape := ⟨2, ![100000, 10]⟩
abbrev S1x10 : Shape := ⟨2, ![1, 10]⟩
abbrev S64x10 : Shape := ⟨2, ![64, 10]⟩
abbrev S64 : Shape := ⟨1, ![64]⟩
abbrev S64x1 : Shape := ⟨2, ![64, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x10, .f32⟩
  | .hbm, ⟨84, _⟩ => ⟨S1x10, .f32⟩
  | .hbm, ⟨85, _⟩ => ⟨S100000x10, .f32⟩
  | .hbm, ⟨86, _⟩ => ⟨S100000x10, .f32⟩
  | .hbm, ⟨87, _⟩ => ⟨S_, .f32⟩
  | .hbm, ⟨88, _⟩ => ⟨S64x10, .f32⟩
  | .hbm, ⟨89, _⟩ => ⟨S100000x1, .i32⟩
  | .hbm, ⟨90, _⟩ => ⟨S64x10, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S64, .f32⟩
  | .hbm, ⟨95, _⟩ => ⟨S100000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x10, .f32⟩
  | .hbm, ⟨102, _⟩ => ⟨S64x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S64x10 : S_.BroadcastsInDim S64x10 (![] : Fin 0 → Fin S64x10.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x10_S100000x10_1_0_0_1_n_n_wf : DotDims.WF S100000x128 S128x10 S100000x10 [1] [0] [0] [1] [] []
  scatter_S64x10_S100000x1_S100000x10_1_0_0_1_wf : ScatterDims.WF S64x10 S100000x1 S100000x10 [1] [0] [0] 1
  scatter_S64_S100000x1_S100000_n_0_0_1_wf : ScatterDims.WF S64 S100000x1 S100000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def scatter_S64x10_S100000x1_S100000x10_1_0_0_1 : ScatterDims S64x10 S100000x1 S100000x10 where
  updateWindowDims := [1]
  insertedWindowDims := [0]
  scatterDimsToOperandDims := [0]
  indexVectorDim := 1
  wf := scatter_S64x10_S100000x1_S100000x10_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KB.R0.lean ====
/-
  Pallas call 0 of the program (one graph-convolution layer's dense update): its half of the program's run, at a
  PARAMETER `V`, the buffer contents the call is entered with.

  The call walks 25 grid points; point `t` sees rows `4096 t … 4096 t + 4095` of the aggregated features (window 0)
  and of the node features (window 1), the two weight matrices and the bias whole (windows 2, 4 and 3: one block
  each, the same at every point), and writes rows `4096 t …` of the result (window 5). The body loads the five
  input blocks and stores ONE value over the whole output block: the layer's arithmetic `k0_pay1` of the five
  blocks. So after the body the output's staging buffer holds that value (`out0_5`), every input's staging buffer
  its block (`iblk0`), and nothing else of the machine's state is touched.
-/
import proofs.«421121_j36687610642889_1_alg».proof.Proof.Gen.Kernel.Launch
import proofs.«421121_j36687610642889_1_alg».proof.Proof.Gen.Kernel.Skeleton
import proofs.«421121_j36687610642889_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one rectangle the body stores through: the whole `[4096, 128]` block. -/
abbrev r0_out : Rect S4096x128 := Rect.unit (s := S4096x128) ![0, 0] S4096x128.size inb_S4096x128_S4096x128_0_0

/-- The output block after the body: its one store, the layer's arithmetic of the five input blocks. -/
def out0_5 (x0 : Vec F S4096x128 .f32) (x1 : Vec F S4096x128 .f32) (x2 : Vec F S128x128 .f32) (x3 : Vec F S128 .f32) (x4 : Vec F S128x128 .f32) : Vec F S4096x128 .f32 :=
  View.canon [⟨r0_out, k0_pay1 (View.ld x0 (Rect.unit (s := S4096x128) ![0, 0] S4096x128.size inb_S4096x128_S4096x128_0_0)) (View.ld x1 (Rect.unit (s := S4096x128) ![0, 0] S4096x128.size inb_S4096x128_S4096x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S128) ![0] S128.size inb_S128_S128_0))⟩]

/-- The store covers the block. -/
theorem cover0_5 (p0 : Vec F S4096x128 .f32) (y : S4096x128.Idx) :
    ∃ pc ∈ ([⟨r0_out, p0⟩] : List (View.Piece (Elt F) S4096x128 .f32)), y ∈ pc.1.set :=
  View.cover_of_tiled [⟨r0_out, p0⟩] S4096x128.size (by rfl) y

/-! ## The body's triple -/

set_option maxHeartbeats 1000000 in
/-- The body on whole staging memrefs, the inputs' at contents `xW` and the output's at anything, runs to the
    continuation with the inputs' as they were and the output's at `out0_5` of them. -/
theorem sound_kernel0 (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S4096x128 .f32) (harg6 : arg6.IsWhole)
    (x0 : Vec F S4096x128 .f32) (x1 : Vec F S4096x128 .f32) (x2 : Vec F S128x128 .f32) (x3 : Vec F S128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_layer_kernel i arg1 harg1 arg2 harg2 arg3 harg3 arg4 harg4 arg5 harg5 arg6 harg6) K := by
  simp only [cc0__sage_layer_kernel_eq_skeleton]; unfold cc0__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this call on core `c`: the arrays as the call finds them; after the body at point `t` each
    input's buffer at its block and the output's at `out0_5` of the input blocks; the invariant only the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
/-
  Pallas call 1 of the program (one graph-convolution layer's dense update): its half of the program's run, at a
  PARAMETER `V`, the buffer contents the call is entered with.

  The call walks 25 grid points; point `t` sees rows `4096 t … 4096 t + 4095` of the aggregated features (window 0)
  and of the node features (window 1), the two weight matrices and the bias whole (windows 2, 4 and 3: one block
  each, the same at every point), and writes rows `4096 t …` of the result (window 5). The body loads the five
  input blocks and stores ONE value over the whole output block: the layer's arithmetic `k1_pay1` of the five
  blocks. So after the body the output's staging buffer holds that value (`out1_5`), every input's staging buffer
  its block (`iblk1`), and nothing else of the machine's state is touched.
-/
import proofs.«421121_j36687610642889_1_alg».proof.Proof.Gen.Kernel.Launch
import proofs.«421121_j36687610642889_1_alg».proof.Proof.Gen.Kernel.Skeleton
import proofs.«421121_j36687610642889_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one rectangle the body stores through: the whole `[4096, 128]` block. -/
abbrev r1_out : Rect S4096x128 := Rect.unit (s := S4096x128) ![0, 0] S4096x128.size inb_S4096x128_S4096x128_0_0

/-- The output block after the body: its one store, the layer's arithmetic of the five input blocks. -/
def out1_5 (x0 : Vec F S4096x128 .f32) (x1 : Vec F S4096x128 .f32) (x2 : Vec F S128x128 .f32) (x3 : Vec F S128 .f32) (x4 : Vec F S128x128 .f32) : Vec F S4096x128 .f32 :=
  View.canon [⟨r1_out, k1_pay1 (View.ld x0 (Rect.unit (s := S4096x128) ![0, 0] S4096x128.size inb_S4096x128_S4096x128_0_0)) (View.ld x1 (Rect.unit (s := S4096x128) ![0, 0] S4096x128.size inb_S4096x128_S4096x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S128) ![0] S128.size inb_S128_S128_0))⟩]

/-- The store covers the block. -/
theorem cover1_5 (p0 : Vec F S4096x128 .f32) (y : S4096x128.Idx) :
    ∃ pc ∈ ([⟨r1_out, p0⟩] : List (View.Piece (Elt F) S4096x128 .f32)), y ∈ pc.1.set :=
  View.cover_of_tiled [⟨r1_out, p0⟩] S4096x128.size (by rfl) y

/-! ## The body's triple -/

set_option maxHeartbeats 1000000 in
/-- The body on whole staging memrefs, the inputs' at contents `xW` and the output's at anything, runs to the
    continuation with the inputs' as they were and the output's at `out1_5` of them. -/
theorem sound_kernel1 (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S4096x128 .f32) (harg6 : arg6.IsWhole)
    (x0 : Vec F S4096x128 .f32) (x1 : Vec F S4096x128 .f32) (x2 : Vec F S128x128 .f32) (x3 : Vec F S128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_layer_kernel i arg1 harg1 arg2 harg2 arg3 harg3 arg4 harg4 arg5 harg5 arg6 harg6) K := by
  simp only [cc1__sage_layer_kernel_eq_skeleton]; unfold cc1__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this call on core `c`: the arrays as the call finds them; after the body at point `t` each
    input's buffer at its block and the output's at `out1_5` of the input blocks; the invariant only the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
/- REGION 2 of the kernel's run (the pooling call), at a parameter `V` (the buffer contents when the region is entered):
   the body's triple in each of its three control cases (first point: the accumulators zeroed, then added to; a middle
   point: added to; last point: added to, then the output block stored), the two accumulators point by point, the proof
   data, the invariant that carries the accumulators between points, the body obligation, the invariant at the region's
   two ends, and the output array after the region. -/
import proofs.«421121_j36687610642889_1_alg».proof.Proof.Gen.Kernel.Launch
import proofs.«421121_j36687610642889_1_alg».proof.Proof.Gen.Kernel.Skeleton
import proofs.«421121_j36687610642889_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, from the grid coordinate -/

/-- The first conditional's condition (the two accumulators are zeroed under it). -/
abbrev cond2_0 (i : grid2.Coords) : Prop := (Scalar.cmpi .ne (Scalar.extui (Scalar.cmpi .eq (BitVec.ofNat 32 (i 0).val) 0#32)) 0#32) = 1#1
/-- The second conditional's condition (the output block is stored under it). -/
abbrev cond2_1 (i : grid2.Coords) : Prop := k2_cond2 i = 1#1

/-- The first holds at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last point only. -/
theorem hcond2_1 : ∀ t : Fin cfg2.N, cond2_1 (grid2.coords t) ↔ t.val = 24 :=
  (by decide +kernel : ∀ t : Fin grid2.N, cond2_1 (grid2.coords t) ↔ t.val = 24)

/-- The zero offsets of a whole-buffer access, at rank two and at rank one. -/
theorem hzero2_r2 : (![0, 0] : Fin 2 → ℕ) = fun _ => 0 := by funext a; fin_cases a <;> rfl
theorem hzero2_r1 : (![0] : Fin 1 → ℕ) = fun _ => 0 := by funext a; fin_cases a; rfl

/-! ## Whole-buffer reads and stores, stated once over an abstract shape -/

section Whole
variable {s : Shape} {e : EltTy}

/-- A load through the whole-shape rectangle at zero offsets of a whole memref owned at contents `X` reads `X`. -/
theorem readAt_whole2 (m : Memref sig .tc .vmem s e) (h : m.IsWhole) (X : s.Idx → Elt F e) {off : Fin s.rank → ℕ}
    (hz : off = fun _ => 0) (inb : ∀ a, off a + s.size a ≤ s.size a) :
    m.view.readAt (Elt F) (Rect.unit off s.size inb).toLoadRect (h.unread X) = X := by
  rw [View.readAt_eq_ld, h.read_unread, View.ld_unit_zero hz]

/-- What a buffer reads after a store through that rectangle made last, whatever was stored before. -/
theorem read_writes_whole2 (v : View sig .tc .vmem s e) (f : v.ty.Contents (Elt F)) {off : Fin s.rank → ℕ}
    (hz : off = fun _ => 0) (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons.mpr (Or.inl rfl), View.mem_set_unit_zero hz inb y⟩),
    View.canon_cons_unit_zero hz]

/-- A load through it after ONE such store reads what was stored. -/
theorem readCov_whole2 (v : View sig .tc .vmem s e) {off : Fin s.rank → ℕ}
    (hz : off = fun _ => 0) (inb : ∀ a, off a + s.size a ≤ s.size a) (w : s.Idx → Elt F e) :
    v.readCov [(⟨Rect.unit off s.size inb, w⟩ : View.Piece (Elt F) s e)] (Rect.unit off s.size inb).toLoadRect = w :=
  View.readCov_unit_zero v hz inb w

end Whole

/-! ## The two updates over what the body's loads read -/

/-- The sum update over the four inputs' loads is the update over their contents. -/
theorem pay5_loaded2 (arg1 : Memref sig .tc .vmem S4096x128 .f32) (harg1 : arg1.IsWhole) (arg2 : Memref sig .tc .vmem S4096x1 .i32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x10 .f32) (harg6 : arg6.IsWhole)
    (arg7 : Memref sig .tc .vmem S64x1 .f32) (harg7 : arg7.IsWhole) (x0 : Vec F S4096x128 .f32) (x1 : Vec F S4096x1 .i32) (x2 : Vec F S128x10 .f32) (x3 : Vec F S10 .f32) (prev' prev : Vec F S64x10 .f32) (hp : prev' = prev) :
    k2_pay5
      (View.readAt (Elt F) arg1.view (Rect.unit ![0, 0] S4096x128.size inb_S4096x128_S4096x128_0_0).toLoadRect (harg1.unread x0))
      (View.readAt (Elt F) arg3.view (Rect.unit ![0, 0] S128x10.size inb_S128x10_S128x10_0_0).toLoadRect (harg3.unread x2))
      (View.readAt (Elt F) arg4.view (Rect.unit ![0] S10.size inb_S10_S10_0).toLoadRect (harg4.unread x3))
      (View.readAt (Elt F) arg2.view (Rect.unit ![0, 0] S4096x1.size inb_S4096x1_S4096x1_0_0).toLoadRect (harg2.unread x1))
      prev' = k2_pay5 x0 x2 x3 x1 prev := by
  rw [readAt_whole2 (s := S4096x128) _ harg1 x0 hzero2_r2, readAt_whole2 (s := S128x10) _ harg3 x2 hzero2_r2,
    readAt_whole2 (s := S10) _ harg4 x3 hzero2_r1, readAt_whole2 (s := S4096x1) _ harg2 x1 hzero2_r2, hp]

/-- The count update likewise. -/
theorem pay6_loaded2 (arg2 : Memref sig .tc .vmem S4096x1 .i32) (harg2 : arg2.IsWhole) (x1 : Vec F S4096x1 .i32)
    (prev' prev : Vec F S64x1 .f32) (hp : prev' = prev) :
    k2_pay6
      (View.readAt (Elt F) arg2.view (Rect.unit ![0, 0] S4096x1.size inb_S4096x1_S4096x1_0_0).toLoadRect (harg2.unread x1))
      prev' = k2_pay6 x1 prev := by
  rw [readAt_whole2 (s := S4096x1) _ harg2 x1 hzero2_r2, hp]

/-! ## The body's triple, case by case

On whole memrefs, the four inputs at read contents `x0 … x3`. The sum accumulator ends at the update
`k2_pay5` of what it held when the point's additions began, the count accumulator at `k2_pay6` likewise. -/

set_option maxHeartbeats 1000000 in
/-- The first point (first conditional taken, second not): both accumulators, at anything, are zero-filled and then
    added to; the output block's buffer is handed back untouched. -/
theorem run2_A (c : Dev nD) (i : grid2.Coords)
    (arg1 : Memref sig .tc .vmem S4096x128 .f32) (harg1 : arg1.IsWhole) (arg2 : Memref sig .tc .vmem S4096x1 .i32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x10 .f32) (harg6 : arg6.IsWhole)
    (arg7 : Memref sig .tc .vmem S64x1 .f32) (harg7 : arg7.IsWhole) (hc0 : cond2_0 i) (hc1 : ¬cond2_1 i)
    (x0 : Vec F S4096x128 .f32) (x1 : Vec F S4096x1 .i32) (x2 : Vec F S128x10 .f32) (x3 : Vec F S10 .f32)
    (xi4 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k2_pay5 x0 x2 x3 x1 k2_pay2) ∗ owns (c : Thread nD τ) arg7 fullShare (k2_pay6 x1 k2_pay3)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists f4; isplitr; · ipureintro; exact hf4
    iexact H4
  isplitl [H6]
  · iexists _; isplitr
    swap; · iexact H6
    ipureintro
    sl_unfold_words
    exact (read_writes_whole2 (s := S64x10) _ _ hzero2_r2 _ _ _).trans
      (pay5_loaded2 arg1 harg1 arg2 harg2 arg3 harg3 arg4 harg4 arg5 harg5 arg6 harg6 arg7 harg7 x0 x1 x2 x3 _ _ (readCov_whole2 (s := S64x10) _ hzero2_r2 _ _))
  iexists _; isplitr
  swap; · iexact H7
  ipureintro
  sl_unfold_words
  exact (read_writes_whole2 (s := S64x1) _ _ hzero2_r2 _ _ _).trans
    (pay6_loaded2 arg2 harg2 x1 _ _ (readCov_whole2 (s := S64x1) _ hzero2_r2 _ _))

set_option maxHeartbeats 1000000 in
/-- A middle point (neither conditional taken): each accumulator, held at what the point before left, is added to;
    the output block's buffer is handed back untouched. -/
theorem run2_B (c : Dev nD) (i : grid2.Coords)
    (arg1 : Memref sig .tc .vmem S4096x128 .f32) (harg1 : arg1.IsWhole) (arg2 : Memref sig .tc .vmem S4096x1 .i32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x10 .f32) (harg6 : arg6.IsWhole)
    (arg7 : Memref sig .tc .vmem S64x1 .f32) (harg7 : arg7.IsWhole) (hc0 : ¬cond2_0 i) (hc1 : ¬cond2_1 i)
    (x0 : Vec F S4096x128 .f32) (x1 : Vec F S4096x1 .i32) (x2 : Vec F S128x10 .f32) (x3 : Vec F S10 .f32)
    (xi4 : Vec F S64x10 .f32) (xs6 : Vec F S64x10 .f32) (xs7 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ owns (c : Thread nD τ) arg6 fullShare xs6 ∗ owns (c : Thread nD τ) arg7 fullShare xs7
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k2_pay5 x0 x2 x3 x1 xs6) ∗ owns (c : Thread nD τ) arg7 fullShare (k2_pay6 x1 xs7)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg6.eq_unread hf6; obtain rfl := harg7.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists f4; isplitr; · ipureintro; exact hf4
    iexact H4
  isplitl [H6]
  · iexists _; isplitr
    swap; · iexact H6
    ipureintro
    sl_unfold_words
    exact (read_writes_whole2 (s := S64x10) _ _ hzero2_r2 _ _ _).trans
      (pay5_loaded2 arg1 harg1 arg2 harg2 arg3 harg3 arg4 harg4 arg5 harg5 arg6 harg6 arg7 harg7 x0 x1 x2 x3 _ _ (readAt_whole2 (s := S64x10) _ harg6 xs6 hzero2_r2 _))
  iexists _; isplitr
  swap; · iexact H7
  ipureintro
  sl_unfold_words
  exact (read_writes_whole2 (s := S64x1) _ _ hzero2_r2 _ _ _).trans
    (pay6_loaded2 arg2 harg2 x1 _ _ (readAt_whole2 (s := S64x1) _ harg7 xs7 hzero2_r2 _))

set_option maxHeartbeats 1000000 in
/-- The last point (second conditional taken, first not): each accumulator is added to, then both are read back and
    the output block's buffer, at anything, is stored whole at the quotient `k2_pay1` of the two. -/
theorem run2_C (c : Dev nD) (i : grid2.Coords)
    (arg1 : Memref sig .tc .vmem S4096x128 .f32) (harg1 : arg1.IsWhole) (arg2 : Memref sig .tc .vmem S4096x1 .i32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x10 .f32) (harg6 : arg6.IsWhole)
    (arg7 : Memref sig .tc .vmem S64x1 .f32) (harg7 : arg7.IsWhole) (hc0 : ¬cond2_0 i) (hc1 : cond2_1 i)
    (x0 : Vec F S4096x128 .f32) (x1 : Vec F S4096x1 .i32) (x2 : Vec F S128x10 .f32) (x3 : Vec F S10 .f32)
    (xs6 : Vec F S64x10 .f32) (xs7 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xs6 ∗ owns (c : Thread nD τ) arg7 fullShare xs7
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k2_pay1 (k2_pay5 x0 x2 x3 x1 xs6) (k2_pay6 x1 xs7))
            ∗ owns (c : Thread nD τ) arg6 fullShare (k2_pay5 x0 x2 x3 x1 xs6) ∗ owns (c : Thread nD τ) arg7 fullShare (k2_pay6 x1 xs7)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg6.eq_unread hf6; obtain rfl := harg7.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have e6 := pay5_loaded2 arg1 harg1 arg2 harg2 arg3 harg3 arg4 harg4 arg5 harg5 arg6 harg6 arg7 harg7 x0 x1 x2 x3 _ _ (readAt_whole2 (s := S64x10) _ harg6 xs6 hzero2_r2 inb_S64x10_S64x10_0_0)
  have e7 := pay6_loaded2 arg2 harg2 x1 _ _ (readAt_whole2 (s := S64x1) _ harg7 xs7 hzero2_r2 inb_S64x1_S64x1_0_0)
  isplitl [H4]
  · iexists _; isplitr
    swap; · iexact H4
    ipureintro
    sl_unfold_words
    exact (read_writes_whole2 (s := S64x10) _ _ hzero2_r2 _ _ _).trans
      (congrArg₂ k2_pay1 ((readCov_whole2 (s := S64x10) _ hzero2_r2 _ _).trans e6) ((readCov_whole2 (s := S64x1) _ hzero2_r2 _ _).trans e7))
  isplitl [H6]
  · iexists _; isplitr
    swap; · iexact H6
    ipureintro
    sl_unfold_words
    exact (read_writes_whole2 (s := S64x10) _ _ hzero2_r2 _ _ _).trans e6
  iexists _; isplitr
  swap; · iexact H7
  ipureintro
  sl_unfold_words
  exact (read_writes_whole2 (s := S64x1) _ _ hzero2_r2 _ _ _).trans e7

/-! ## Where the windows are idle -/

/-- The four inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- The output block is idle, and not written back, wherever the second conditional is not taken; -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- live where it is. -/
theorem liveAt2_4 : ∀ t : Fin cfg2.N, cond2_1 (grid2.coords t) → cfg2.idle 4 (grid2.coords t) = false := by decide +kernel

section Region2
-- the TensorCore's buffer contents when the region is entered: the parameter this region's half is stated at
variable (V : (c : Dev nD) → (b : Ref sig .tc) → Buf (Elt F) ((c : Thread nD τ).loc b))

/-! # REGION 2 of @main: custom_call 2, `cc2__final_pool_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The four input blocks at a point, each at its literal shape. -/
abbrev b2_0 (c : Dev nD) (t : Fin cfg2.N) : Vec F S4096x128 .f32 := iblk2 V c 0 t
abbrev b2_1 (c : Dev nD) (t : Fin cfg2.N) : Vec F S4096x1 .i32 := iblk2 V c 1 t
abbrev b2_2 (c : Dev nD) (t : Fin cfg2.N) : Vec F S128x10 .f32 := iblk2 V c 2 t
abbrev b2_3 (c : Dev nD) (t : Fin cfg2.N) : Vec F S10 .f32 := iblk2 V c 3 t

/-! ## The two accumulators, point by point -/

/-- Position `n` as a grid point (positions past the grid wrap around; none is ever read). -/
def pt2 (n : ℕ) : Fin cfg2.N := ⟨n % 25, lt_of_lt_of_eq (Nat.mod_lt n (by decide)) N_2.symm⟩

theorem pt2_eq (t : Fin cfg2.N) : pt2 t.val = t :=
  Fin.ext (Nat.mod_eq_of_lt (lt_of_lt_of_eq t.isLt N_2))
theorem pt2_val (n : ℕ) (h : n < 25) : (pt2 n).val = n := Nat.mod_eq_of_lt h

/-- The sum accumulator after point `n`: at the first point the update of the zero fill, afterwards the update of
    what the point before left — each point adds its block's pooled logits. -/
def sc2_6 (c : Dev nD) : ℕ → Vec F S64x10 .f32
  | 0 => k2_pay5 (b2_0 V c (pt2 0)) (b2_2 V c (pt2 0)) (b2_3 V c (pt2 0)) (b2_1 V c (pt2 0)) k2_pay2
  | n + 1 => k2_pay5 (b2_0 V c (pt2 (n + 1))) (b2_2 V c (pt2 (n + 1))) (b2_3 V c (pt2 (n + 1))) (b2_1 V c (pt2 (n + 1))) (sc2_6 c n)

/-- The count accumulator after point `n`, likewise: each point adds its block's per-graph row counts. -/
def sc2_7 (c : Dev nD) : ℕ → Vec F S64x1 .f32
  | 0 => k2_pay6 (b2_1 V c (pt2 0)) k2_pay3
  | n + 1 => k2_pay6 (b2_1 V c (pt2 (n + 1))) (sc2_7 c n)

theorem sc2_6_zero (c : Dev nD) :
    sc2_6 V c 0 = k2_pay5 (b2_0 V c (pt2 0)) (b2_2 V c (pt2 0)) (b2_3 V c (pt2 0)) (b2_1 V c (pt2 0)) k2_pay2 := rfl
theorem sc2_6_succ (c : Dev nD) (n : ℕ) :
    sc2_6 V c (n + 1) = k2_pay5 (b2_0 V c (pt2 (n + 1))) (b2_2 V c (pt2 (n + 1))) (b2_3 V c (pt2 (n + 1))) (b2_1 V c (pt2 (n + 1))) (sc2_6 V c n) := rfl
theorem sc2_7_zero (c : Dev nD) : sc2_7 V c 0 = k2_pay6 (b2_1 V c (pt2 0)) k2_pay3 := rfl
theorem sc2_7_succ (c : Dev nD) (n : ℕ) : sc2_7 V c (n + 1) = k2_pay6 (b2_1 V c (pt2 (n + 1))) (sc2_7 V c n) := rfl

/-- The same recursion read at a grid point: the first, -/
theorem sc2_6_at_zero (c : Dev nD) (t : Fin cfg2.N) (h : t.val = 0) :
    sc2_6 V c t.val = k2_pay5 (b2_0 V c t) (b2_2 V c t) (b2_3 V c t) (b2_1 V c t) k2_pay2 := by
  have e : pt2 0 = t := (congrArg pt2 h.symm).trans (pt2_eq t)
  rw [h, sc2_6_zero, e]
theorem sc2_7_at_zero (c : Dev nD) (t : Fin cfg2.N) (h : t.val = 0) :
    sc2_7 V c t.val = k2_pay6 (b2_1 V c t) k2_pay3 := by
  have e : pt2 0 = t := (congrArg pt2 h.symm).trans (pt2_eq t)
  rw [h, sc2_7_zero, e]
/-- and a later one. -/
theorem sc2_6_at_pos (c : Dev nD) (t : Fin cfg2.N) (h : t.val ≠ 0) :
    sc2_6 V c t.val = k2_pay5 (b2_0 V c t) (b2_2 V c t) (b2_3 V c t) (b2_1 V c t) (sc2_6 V c (t.val - 1)) := by
  obtain ⟨n, hn⟩ := t
  cases n with
  | zero => exact absurd rfl h
  | succ n =>
    have e : pt2 (n + 1) = ⟨n + 1, hn⟩ := pt2_eq ⟨n + 1, hn⟩
    show sc2_6 V c (n + 1) = _
    rw [sc2_6_succ, e]; rfl
theorem sc2_7_at_pos (c : Dev nD) (t : Fin cfg2.N) (h : t.val ≠ 0) :
    sc2_7 V c t.val = k2_pay6 (b2_1 V c t) (sc2_7 V c (t.val - 1)) := by
  obtain ⟨n, hn⟩ := t
  cases n with
  | zero => exact absurd rfl h
  | succ n =>
    have e : pt2 (n + 1) = ⟨n + 1, hn⟩ := pt2_eq ⟨n + 1, hn⟩
    show sc2_7 V c (n + 1) = _
    rw [sc2_7_succ, e]; rfl

/-! ## The invariant between points -/

/-- The two accumulators: whole scoped buffers of the kernel's own, passed beside the windows. -/
abbrev scM2_6 : Memref sig .tc .vmem S64x10 .f32 := Memref.whole cc2_scratch0
abbrev scM2_7 : Memref sig .tc .vmem S64x1 .f32 := Memref.whole cc2_scratch1

/-- The core's scoped buffers that are neither a staging buffer of this call nor one of its two accumulators, each at
    some contents: carried unopened. -/
abbrev But2 (c : Dev nD) : sProp 𝕄 :=
  Pipeline.scopedRestBut (Ix := Unit) (Name := ℕ) (U := UR sig nD τ) (Lvl := ℕ) (Val := Elt F) spec2 c [cc2_scratch0, cc2_scratch1]

/-- The scoped rest with the two accumulators set apart, each owned at some contents. -/
theorem scopedRest2_split (c : Dev nD) :
    (Pipeline.scopedRest (Ix := Unit) (Name := ℕ) (U := UR sig nD τ) (Lvl := ℕ) (Val := Elt F) spec2 c : sProp 𝕄)
      = iprop(((∃ d, owns (c : Thread nD τ) scM2_6 fullShare d) ∗ (∃ d, owns (c : Thread nD τ) scM2_7 fullShare d)) ∗ But2 c) := by
  rw [Pipeline.scopedRest_split_of_list spec2 c [cc2_scratch0, cc2_scratch1] (by decide) (by decide)]
  simp only [scM2_6, scM2_7, owns_whole]; try rfl

/-- The class's invariant in that form. -/
theorem PhiA2_eq (c : Dev nD) :
    (Pipeline.ΦA spec2 c : sProp 𝕄)
      = iprop((((∃ d, owns (c : Thread nD τ) scM2_6 fullShare d) ∗ (∃ d, owns (c : Thread nD τ) scM2_7 fullShare d)) ∗ But2 c) ∗ (∃ r, prngReg c r)) := by
  unfold Pipeline.ΦA; rw [scopedRest2_split]

/-- The invariant before position `n`: before the first point every scoped buffer no window stages at anything and
    the generator register at some state; afterwards the same with the two accumulators at what the point before left. -/
def Phi2 (c : Dev nD) : ℕ → sProp 𝕄
  | 0 => Pipeline.ΦA spec2 c
  | n + 1 => iprop(((owns (c : Thread nD τ) scM2_6 fullShare (sc2_6 V c n) ∗ owns (c : Thread nD τ) scM2_7 fullShare (sc2_7 V c n)) ∗ But2 c) ∗ (∃ r, prngReg c r))

theorem Phi2_zero (c : Dev nD) (n : ℕ) (hz : n = 0) : Phi2 V c n = Pipeline.ΦA spec2 c := by subst hz; rfl
theorem Phi2_succ (c : Dev nD) (n : ℕ) :
    Phi2 V c (n + 1) = iprop(((owns (c : Thread nD τ) scM2_6 fullShare (sc2_6 V c n) ∗ owns (c : Thread nD τ) scM2_7 fullShare (sc2_7 V c n)) ∗ But2 c) ∗ (∃ r, prngReg c r)) := rfl
theorem Phi2_pos (c : Dev nD) (n : ℕ) (hz : n ≠ 0) :
    Phi2 V c n = iprop(((owns (c : Thread nD τ) scM2_6 fullShare (sc2_6 V c (n - 1)) ∗ owns (c : Thread nD τ) scM2_7 fullShare (sc2_7 V c (n - 1))) ∗ But2 c) ∗ (∃ r, prngReg c r)) := by
  cases n with
  | zero => exact absurd rfl hz
  | succ n => rfl

/-! ## The pipeline's proof data -/

/-- The proof data of pipeline 2 on core `c`: the arrays as the region finds them (`V`); after the body each input's
    buffer at its block; the output block's buffer, stored at the last point only (the one point that writes it back), at the
    quotient of the two accumulators after that point; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (sc2_6 V c 24) (sc2_7 V c 24)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay1 (sc2_6 V c 24) (sc2_7 V c 24) := by dsimp only [dat2]
theorem after2_4_last (c : Dev nD) (h : 24 < cfg2.N) : (dat2 V c).after 4 ⟨24, h⟩ = k2_pay1 (sc2_6 V c 24) (sc2_7 V c 24) :=
  after2_4 V c ⟨24, h⟩

theorem Phi2_castSucc (c : Dev nD) (t : Fin cfg2.N) : (dat2 V c).Φ t.castSucc = Phi2 V c t.val := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- An input's buffer is left at its block. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]

set_option maxHeartbeats 4800000 in
/-- The body at any point. The inputs' memrefs hold their blocks; the point is the first, a middle one or the last, and
    that case's run applies: the invariant hands the body the two accumulators at what the point before left (at anything
    at the first point) and takes them back at this point's contents; the output block's buffer is stored at the last
    point only and handed back as found elsewhere; the other scoped buffers, the generator register and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) from rfl, Phi2_succ, Phi2_castSucc]
  rw [leaves2_0, leaves2_1, leaves2_2, leaves2_3]
  have hN : t.val < 25 := lt_of_lt_of_eq t.isLt N_2
  by_cases h0 : t.val = 0
  · have h1 : ¬t.val = 24 := by omega
    have hc0 : cond2_0 (grid2.coords t) := (hcond2_0 t).mpr h0
    have hc1 : ¬cond2_1 (grid2.coords t) := fun h => h1 ((hcond2_1 t).mp h)
    rw [Dat.leavesExact_idle (dat2 V c) 4 t (idleAt2_4 t hc1) (noFlush2_4 t hc1)]
    rw [sc2_6_at_zero V c t h0, sc2_7_at_zero V c t h0, Phi2_zero V c _ h0, PhiA2_eq]
    iintro ⟨⟨⟨⟨⟨%d6, HS6⟩, ⟨%d7, HS7⟩⟩, Hb⟩, Hg⟩, Ho, ⟨%d0, H0⟩, ⟨%d1, H1⟩, ⟨%d2, H2⟩, ⟨%d3, H3⟩, ⟨%d4, H4⟩⟩
    iapply (run2_A c (grid2.coords t) _ _ _ _ _ _ _ _ _ _ _ _ _ _ hc0 hc1 (b2_0 V c t) (b2_1 V c t) (b2_2 V c t) (b2_3 V c t) _ Set.univ _)
    isplitl [H0]; · iexact H0
    isplitl [H1]; · iexact H1
    isplitl [H2]; · iexact H2
    isplitl [H3]; · iexact H3
    isplitl [H4]; · iexact H4
    isplitl [HS6]; · iexists _; iexact HS6
    isplitl [HS7]; · iexists _; iexact HS7
    iintro ⟨H0, H1, H2, H3, H4, HS6, HS7⟩
    isplitl [HS6 HS7 Hb Hg]
    · isplitl [HS6 HS7 Hb]
      · isplitl [HS6 HS7]
        · isplitl [HS6]; · iexact HS6
          iexact HS7
        iexact Hb
      iexact Hg
    isplitl [Ho]; · iexact Ho
    isplitl [H0]; · iexact H0
    isplitl [H1]; · iexact H1
    isplitl [H2]; · iexact H2
    isplitl [H3]; · iexact H3
    iexists _; iexact H4
  · by_cases h1 : t.val = 24
    · have hc0 : ¬cond2_0 (grid2.coords t) := fun h => h0 ((hcond2_0 t).mp h)
      have hc1 : cond2_1 (grid2.coords t) := (hcond2_1 t).mpr h1
      have e6 : sc2_6 V c 24 = sc2_6 V c t.val := congrArg (sc2_6 V c) h1.symm
      have e7 : sc2_7 V c 24 = sc2_7 V c t.val := congrArg (sc2_7 V c) h1.symm
      rw [show (dat2 V c).leavesExact 4 t = owns (c : Thread nD τ) (st2_4 t) fullShare ((dat2 V c).after 4 t) from by
        unfold Dat.leavesExact; rw [liveAt2_4 t hc1], after2_4, e6, e7]
      rw [sc2_6_at_pos V c t h0, sc2_7_at_pos V c t h0, Phi2_pos V c _ h0]
      iintro ⟨⟨⟨⟨HS6, HS7⟩, Hb⟩, Hg⟩, Ho, ⟨%d0, H0⟩, ⟨%d1, H1⟩, ⟨%d2, H2⟩, ⟨%d3, H3⟩, ⟨%d4, H4⟩⟩
      iapply (run2_C c (grid2.coords t) _ _ _ _ _ _ _ _ _ _ _ _ _ _ hc0 hc1 (b2_0 V c t) (b2_1 V c t) (b2_2 V c t) (b2_3 V c t)
        (sc2_6 V c (t.val - 1)) (sc2_7 V c (t.val - 1)) Set.univ _)
      isplitl [H0]; · iexact H0
      isplitl [H1]; · iexact H1
      isplitl [H2]; · iexact H2
      isplitl [H3]; · iexact H3
      isplitl [H4]; · iexists _; iexact H4
      isplitl [HS6]; · iexact HS6
      isplitl [HS7]; · iexact HS7
      iintro ⟨H0, H1, H2, H3, H4, HS6, HS7⟩
      isplitl [HS6 HS7 Hb Hg]
      · isplitl [HS6 HS7 Hb]
        · isplitl [HS6 HS7]
          · isplitl [HS6]; · iexact HS6
            iexact HS7
          iexact Hb
        iexact Hg
      isplitl [Ho]; · iexact Ho
      isplitl [H0]; · iexact H0
      isplitl [H1]; · iexact H1
      isplitl [H2]; · iexact H2
      isplitl [H3]; · iexact H3
      iexact H4
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 4 t (idleAt2_4 t hc1) (noFlush2_4 t hc1)]
      rw [sc2_6_at_pos V c t h0, sc2_7_at_pos V c t h0, Phi2_pos V c _ h0]
      iintro ⟨⟨⟨⟨HS6, HS7⟩, Hb⟩, Hg⟩, Ho, ⟨%d0, H0⟩, ⟨%d1, H1⟩, ⟨%d2, H2⟩, ⟨%d3, H3⟩, ⟨%d4, H4⟩⟩
      iapply (run2_B c (grid2.coords t) _ _ _ _ _ _ _ _ _ _ _ _ _ _ hc0 hc1 (b2_0 V c t) (b2_1 V c t) (b2_2 V c t) (b2_3 V c t) _
        (sc2_6 V c (t.val - 1)) (sc2_7 V c (t.val - 1)) Set.univ _)
      isplitl [H0]; · iexact H0
      isplitl [H1]; · iexact H1
      isplitl [H2]; · iexact H2
      isplitl [H3]; · iexact H3
      isplitl [H4]; · iexact H4
      isplitl [HS6]; · iexact HS6
      isplitl [HS7]; · iexact HS7
      iintro ⟨H0, H1, H2, H3, H4, HS6, HS7⟩
      isplitl [HS6 HS7 Hb Hg]
      · isplitl [HS6 HS7 Hb]
        · isplitl [HS6 HS7]
          · isplitl [HS6]; · iexact HS6
            iexact HS7
          iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands the region is the invariant before the first point. -/
theorem hin2 (c : Dev nD) : Pipeline.ΦA spec2 c ⊢ (dat2 V c).Φ 0 := by
  rw [show (dat2 V c).Φ 0 = Pipeline.ΦA spec2 c from rfl]

/-- After the last point the invariant gives it back: what the accumulators hold is forgotten. -/
theorem hout2 (c : Dev nD) : (dat2 V c).Φ (Fin.last cfg2.N) ⊢ Pipeline.ΦA spec2 c := by
  rw [show (dat2 V c).Φ (Fin.last cfg2.N) = Phi2 V c (24 + 1) from rfl, Phi2_succ, PhiA2_eq]
  iintro ⟨⟨⟨HS6, HS7⟩, Hb⟩, Hg⟩
  isplitl [HS6 HS7 Hb]
  · isplitl [HS6 HS7]
    · isplitl [HS6]; · iexists _; iexact HS6
      iexists _; iexact HS7
    iexact Hb
  iexact Hg

/-- The same two in the shape a region record's fields take: the generator register, the (empty) prefetched tables
    and the scoped rest make the invariant before the first point, -/
theorem phi2_in (c : Dev nD) (P : sProp 𝕄) :
    iprop((∃ r, prngReg c r) ∗ P ∗ Pipeline.scopedRest (Ix := Unit) (Name := ℕ) (U := UR sig nD τ) (Lvl := ℕ) (Val := Elt F) spec2 c) ⊢ (dat2 V c).Φ 0 := by
  iintro ⟨Hp, -, Hr⟩
  iapply (hin2 V c)
  unfold Pipeline.ΦA
  isplitl [Hr]; · iexact Hr
  iexact Hp

/-- and the invariant after the last point gives back the register and the scoped rest. -/
theorem phi2_out (c : Dev nD) :
    (dat2 V c).Φ (Fin.last cfg2.N) ⊢ iprop((∃ r, prngReg c r) ∗ emp ∗ Pipeline.scopedRest (Ix := Unit) (Name := ℕ) (U := UR sig nD τ) (Lvl := ℕ) (Val := Elt F) spec2 c) := by
  refine (hout2 V c).trans ?_
  unfold Pipeline.ΦA
  iintro ⟨Hr, Hp⟩
  isplitl [Hp]; · iexact Hp
  isplitr; · iempintro
  iexact Hr

/-! ## The output array after the region -/

/-- The last grid point: the one point that writes the output block back. -/
def t2_last : Fin cfg2.N := ⟨24, lt_of_lt_of_eq (by decide) N_2.symm⟩

/-- The output window has one block, the whole array: at the last point its block index is zero on both axes. -/
theorem index2_4_last : ∀ a, (cfg2.win 4).index t2_last a = 0 := by decide +kernel

/-- Only one point writes the output back, so the written blocks are pairwise disjoint, vacuously. -/
theorem disj2_4 : ∀ t t' : Fin cfg2.N, (cfg2.win 4).flush t = true → (cfg2.win 4).flush t' = true → t ≠ t' →
    Disjoint ((cfg2.win 4).blk t).view.set ((cfg2.win 4).blk t').view.set := by
  intro t t' h h' hne
  exfalso; apply hne; apply Fin.ext
  have e := (flush2_4 t).mp h; have e' := (flush2_4 t').mp h'
  have b : t.val < 25 := lt_of_lt_of_eq t.isLt N_2
  have b' : t'.val < 25 := lt_of_lt_of_eq t'.isLt N_2
  omega

/-- For ANY proof data of this pipeline whose output block's buffer is left at `G` at the last point: the output array
    after the region is `G` — the one write-back puts the whole block over the whole array. -/
theorem arrAt2_4_of {c : Dev nD} (dat : Dat τ (Elt F) Unit ℕ (UR sig nD τ) ℕ cfg2 c) (G : Vec F S64x10 .f32)
    (hafter : dat.after 4 t2_last = G) : dat.arrAt 4 cfg2.N = G := by
  funext y
  have hf : (cfg2.win 4).flush t2_last = true := (flush2_4 t2_last).mpr (by decide)
  have key := Dat.arrAt_emb_eq_flushed dat 4 disj2_4 t2_last hf y
  have hemb : ((cfg2.win 4).blk t2_last).view.emb y = y := by
    funext a; apply Fin.ext
    exact Window.rect_emb_val_of_index_zero (cfg2.win 4) t2_last a (index2_4_last a) y
  rw [hemb] at key
  rw [key]
  show _root_.cast _ ((cfg2.win 4).cut (cfg2.grid.coords t2_last) (dat.after 4 t2_last) y) = G y
  rw [hafter]
  exact cast_eq _ _

/-- The output array after the region: the quotient of the two accumulators after the last point. -/
theorem arr2_4 (c : Dev nD) : (dat2 V c).arrAt 4 cfg2.N = k2_pay1 (sc2_6 V c 24) (sc2_7 V c 24) :=
  arrAt2_4_of (dat2 V c) (k2_pay1 (sc2_6 V c 24) (sc2_7 V c 24)) (after2_4 V c t2_last)

end Region2

end Cert.Kernel.Hand

end
-- ==== Proof.KB.Run.lean ====
/-
  The program's run, from the launch to the return, over its nine segments: five stretches of host operations (the
  two index rows sliced out of the edge list; the node features padded to 102400 rows; the batch ids padded with
  the id 64; the first layer's mean aggregation), pallas call 0 (layer 1), a stretch of host operations (the second
  layer's mean aggregation), pallas call 1 (layer 2) and pallas call 2 (the linear head and the mean pool).

  `W0 … W9` are the buffer contents at the segment boundaries, a fold from the launch memory: a host stretch applies
  its operations, a call replaces its output array by what its write-backs leave and changes nothing else. `run`
  says every weakly fair execution terminates with every unscoped buffer at `W9`; the frame (the eleven argument
  arrays end as launched) and the result (the output array of call 2) are read off it.
-/
import proofs.«421121_j36687610642889_1_alg».proof.Proof.KB.R0
import proofs.«421121_j36687610642889_1_alg».proof.Proof.KB.R1
import proofs.«421121_j36687610642889_1_alg».proof.Proof.KB.R2
import proofs.«421121_j36687610642889_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the slices of the edge list. -/
abbrev W1 : Dev nD → Valuation τ sig (Elt F) := fun c => StableHlo.after hostOps0 (W0 m ρ c)
/-- After the padding of the node features. -/
abbrev W2 : Dev nD → Valuation τ sig (Elt F) := fun c => StableHlo.after hostOps0_1 (W1 m ρ c)
/-- After the constant 64. -/
abbrev W3 : Dev nD → Valuation τ sig (Elt F) := fun c => StableHlo.after hostOps0_2 (W2 m ρ c)
/-- After the padding of the batch ids. -/
abbrev W4 : Dev nD → Valuation τ sig (Elt F) := fun c => StableHlo.after hostOps0_3 (W3 m ρ c)
/-- After the first mean aggregation: call 0's entry. -/
abbrev W5 : Dev nD → Valuation τ sig (Elt F) := fun c => StableHlo.after hostOps0_4 (W4 m ρ c)
abbrev VW5 : (c : Dev nD) → (b : Ref sig .tc) → Buf (Elt F) ((c : Thread nD τ).loc b) := fun c b => W5 m ρ c b

/-- At call 0's exit: its arrays at what the pipeline leaves (the inputs as entered, the output's write-backs
    folded), every other buffer as entered. -/
def W6 (c : Dev nD) : Valuation τ sig (Elt F) :=
  Pipeline.withArrays spec0 c (W5 m ρ c) fun w => (dat0 (VW5 m ρ) c).arrAt w cfg0.N
theorem W6_arr (c : Dev nD) (w : Fin cfg0.W) :
    W6 m ρ c (Proc.devRef .tc (Pipeline.arrRef spec0 w)) = (dat0 (VW5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev VW6 : (c : Dev nD) → (b : Ref sig .tc) → Buf (Elt F) ((c : Thread nD τ).loc b) := fun c b => W6 m ρ c b
theorem hF0 (c : Dev nD) (w : Fin cfg0.W) : (dat0 (VW5 m ρ) c).arrAt w cfg0.N = VW6 m ρ c (Pipeline.arrRef spec0 w) :=
  (W6_arr m ρ c w).symm
theorem hrest0 (c : Dev nD) : ∀ b, b ∉ Finset.univ.image (Pipeline.arrRef spec0) → VW6 m ρ c b = VW5 m ρ c b :=
  fun b hb => W6_of_ne m ρ c b fun w e => hb (Finset.mem_image.mpr ⟨w, Finset.mem_univ _, e⟩)

/-- After the second mean aggregation: call 1's entry. -/
abbrev W7 : Dev nD → Valuation τ sig (Elt F) := fun c => StableHlo.after hostOps1 (W6 m ρ c)
abbrev VW7 : (c : Dev nD) → (b : Ref sig .tc) → Buf (Elt F) ((c : Thread nD τ).loc b) := fun c b => W7 m ρ c b

/-- At call 1's exit: its arrays at what the pipeline leaves (the inputs as entered, the output's write-backs
    folded), every other buffer as entered. -/
def W8 (c : Dev nD) : Valuation τ sig (Elt F) :=
  Pipeline.withArrays spec1 c (W7 m ρ c) fun w => (dat1 (VW7 m ρ) c).arrAt w cfg1.N
theorem W8_arr (c : Dev nD) (w : Fin cfg1.W) :
    W8 m ρ c (Proc.devRef .tc (Pipeline.arrRef spec1 w)) = (dat1 (VW7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev VW8 : (c : Dev nD) → (b : Ref sig .tc) → Buf (Elt F) ((c : Thread nD τ).loc b) := fun c b => W8 m ρ c b
theorem hF1 (c : Dev nD) (w : Fin cfg1.W) : (dat1 (VW7 m ρ) c).arrAt w cfg1.N = VW8 m ρ c (Pipeline.arrRef spec1 w) :=
  (W8_arr m ρ c w).symm
theorem hrest1 (c : Dev nD) : ∀ b, b ∉ Finset.univ.image (Pipeline.arrRef spec1) → VW8 m ρ c b = VW7 m ρ c b :=
  fun b hb => W8_of_ne m ρ c b fun w e => hb (Finset.mem_image.mpr ⟨w, Finset.mem_univ _, e⟩)

/-- At call 2's exit: its arrays at what the pipeline leaves (the inputs as entered, the output's write-backs
    folded), every other buffer as entered. -/
def W9 (c : Dev nD) : Valuation τ sig (Elt F) :=
  Pipeline.withArrays spec2 c (W8 m ρ c) fun w => (dat2 (VW8 m ρ) c).arrAt w cfg2.N
theorem W9_arr (c : Dev nD) (w : Fin cfg2.W) :
    W9 m ρ c (Proc.devRef .tc (Pipeline.arrRef spec2 w)) = (dat2 (VW8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev VW9 : (c : Dev nD) → (b : Ref sig .tc) → Buf (Elt F) ((c : Thread nD τ).loc b) := fun c b => W9 m ρ c b
theorem hF2 (c : Dev nD) (w : Fin cfg2.W) : (dat2 (VW8 m ρ) c).arrAt w cfg2.N = VW9 m ρ c (Pipeline.arrRef spec2 w) :=
  (W9_arr m ρ c w).symm
theorem hrest2 (c : Dev nD) : ∀ b, b ∉ Finset.univ.image (Pipeline.arrRef spec2) → VW9 m ρ c b = VW8 m ρ c b :=
  fun b hb => W9_of_ne m ρ c b fun w e => hb (Finset.mem_image.mpr ⟨w, Finset.mem_univ _, e⟩)

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := W6_of_ne m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := (W6_arr m ρ c 2).trans (((dat0 (VW5 m ρ) c).arrAt_in 2 rfl _).trans (A_eq0 (VW5 m ρ) c 2))
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := (W6_arr m ρ c 3).trans (((dat0 (VW5 m ρ) c).arrAt_in 3 rfl _).trans (A_eq0 (VW5 m ρ) c 3))
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := (W6_arr m ρ c 4).trans (((dat0 (VW5 m ρ) c).arrAt_in 4 rfl _).trans (A_eq0 (VW5 m ρ) c 4))
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := (W8_arr m ρ c 2).trans (((dat1 (VW7 m ρ) c).arrAt_in 2 rfl _).trans (A_eq1 (VW7 m ρ) c 2))
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := (W8_arr m ρ c 3).trans (((dat1 (VW7 m ρ) c).arrAt_in 3 rfl _).trans (A_eq1 (VW7 m ρ) c 3))
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := (W8_arr m ρ c 4).trans (((dat1 (VW7 m ρ) c).arrAt_in 4 rfl _).trans (A_eq1 (VW7 m ρ) c 4))
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := (W9_arr m ρ c 2).trans (((dat2 (VW8 m ρ) c).arrAt_in 2 rfl _).trans (A_eq2 (VW8 m ρ) c 2))
    _ = W7 m ρ c (Proc.devRef .tc main_arg9) := W8_of_ne m ρ c main_arg9 (by decide)
    _ = W6 m ρ c (Proc.devRef .tc main_arg9) := StableHlo.after_of_writes_sub hostOps1 _ hostOps1_writes (by decide)
    _ = W5 m ρ c (Proc.devRef .tc main_arg9) := W6_of_ne m ρ c main_arg9 (by decide)
    _ = W4 m ρ c (Proc.devRef .tc main_arg9) := StableHlo.after_of_writes_sub hostOps0_4 _ hostOps0_4_writes (by decide)
    _ = W3 m ρ c (Proc.devRef .tc main_arg9) := StableHlo.after_of_writes_sub hostOps0_3 _ hostOps0_3_writes (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := (W9_arr m ρ c 3).trans (((dat2 (VW8 m ρ) c).arrAt_in 3 rfl _).trans (A_eq2 (VW8 m ρ) c 3))
    _ = W7 m ρ c (Proc.devRef .tc main_arg10) := W8_of_ne m ρ c main_arg10 (by decide)
    _ = W6 m ρ c (Proc.devRef .tc main_arg10) := StableHlo.after_of_writes_sub hostOps1 _ hostOps1_writes (by decide)
    _ = W5 m ρ c (Proc.devRef .tc main_arg10) := W6_of_ne m ρ c main_arg10 (by decide)
    _ = W4 m ρ c (Proc.devRef .tc main_arg10) := StableHlo.after_of_writes_sub hostOps0_4 _ hostOps0_4_writes (by decide)
    _ = W3 m ρ c (Proc.devRef .tc main_arg10) := StableHlo.after_of_writes_sub hostOps0_3 _ hostOps0_3_writes (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

/-! ## The proof data family and the thread state -/

abbrev admH : (p : Fin 3) → (pcfgs (F := F) p).Adm := fun p => (cfgs p).toPCfg_adm
/-- Every call's proof data, each at its entry contents: a literal match on the call's number. -/
def pdats : (p : Fin 3) → (c : Dev nD) → Dat τ (Elt F) Unit ℕ (UR sig nD τ) ℕ (Pipeline.pin (pcfgs (F := F)) admH p) c
  | ⟨0, _⟩ => fun c => dat0 (VW5 m ρ) c
  | ⟨1, _⟩ => fun c => dat1 (VW7 m ρ) c
  | ⟨2, _⟩ => fun c => dat2 (VW8 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W9`, the generator register at some state. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- CALL 0 as a segment: entered from every unscoped buffer at `W5`, left at `W6`. Its arrays are split out of
    the unscoped buffers and put back at the exit contents; the generator register goes into the invariant and comes
    back; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (VW5 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VW5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VW5 m ρ c) (VW6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 as a segment: entered from every unscoped buffer at `W7`, left at `W8`. Its arrays are split out of
    the unscoped buffers and put back at the exit contents; the generator register goes into the invariant and comes
    back; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (VW7 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VW7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VW7 m ρ c) (VW8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 as a segment: entered from every unscoped buffer at `W8`, left at `W9`. Its arrays are split out of
    the unscoped buffers and put back at the exit contents; the generator register goes into the invariant and comes
    back; nothing is owed; the kernel has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VW8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VW8 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (VW8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (VW8 m ρ) c).Φ 0 from rfl]
    exact phi2_in (VW8 m ρ) c _
  hout c := by
    rw [Pipeline.ownSems0_none, show (pdats m ρ 2 c).Φ (Fin.last _) = (dat2 (VW8 m ρ) c).Φ (Fin.last _) from rfl]
    exact phi2_out (VW8 m ρ) c
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (VW8 m ρ c) (VW9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .region (reg2 m ρ) ]

theorem main_run (c : Dev nD) : main (F := F) c = Pipeline.Seg.run (segsH m ρ) := (main_chain c).trans (by chain_rfl)

set_option backward.isDefEq.respectTransparency.types false in
/-- THE RUN: from any memory with zero counters every weakly fair execution of @main terminates, nothing faulting,
    and every final state has every unscoped buffer of every core at `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c)⟩) (run m ρ)

/-- THE RESULT: the run again, with the output array of call 2 named: what the pool's last grid point wrote back. -/
theorem run_result : θ_run defs (onTc (τ := τ) (main (F := F))) ⟨m, fun _ => 0, ρ⟩ (fun r => ∀ c : Dev nD,
      r.2.mem ((c.tc : Thread nD τ).loc main_v47) = (dat2 (VW8 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v47 (by decide))).trans (W9_arr m ρ c 4),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c)⟩) (run m ρ)

end Cert.Kernel.Hand

end
-- ==== Proof.KI.R0.lean ====
/-
  Pallas call 0 of the program (one graph-convolution layer's dense update): its half of the program's run, at a
  PARAMETER `V`, the buffer contents the call is entered with.

  The call walks 25 grid points; point `t` sees rows `4096 t … 4096 t + 4095` of the aggregated features (window 0)
  and of the node features (window 1), the two weight matrices and the bias whole (windows 2, 4 and 3: one block
  each, the same at every point), and writes rows `4096 t …` of the result (window 5). The body loads the five
  input blocks and stores ONE value over the whole output block: the layer's arithmetic `k0_pay1` of the five
  blocks. So after the body the output's staging buffer holds that value (`out0_5`), every input's staging buffer
  its block (`iblk0`), and nothing else of the machine's state is touched.
-/
import proofs.«421121_j36687610642889_1_alg».proof.Proof.Gen.KernelIdeal.Launch
import proofs.«421121_j36687610642889_1_alg».proof.Proof.Gen.KernelIdeal.Skeleton
import proofs.«421121_j36687610642889_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one rectangle the body stores through: the whole `[4096, 128]` block. -/
abbrev r0_out : Rect S4096x128 := Rect.unit (s := S4096x128) ![0, 0] S4096x128.size inb_S4096x128_S4096x128_0_0

/-- The output block after the body: its one store, the layer's arithmetic of the five input blocks. -/
def out0_5 (x0 : Vec F S4096x128 .f32) (x1 : Vec F S4096x128 .f32) (x2 : Vec F S128x128 .f32) (x3 : Vec F S128 .f32) (x4 : Vec F S128x128 .f32) : Vec F S4096x128 .f32 :=
  View.canon [⟨r0_out, k0_pay1 (View.ld x0 (Rect.unit (s := S4096x128) ![0, 0] S4096x128.size inb_S4096x128_S4096x128_0_0)) (View.ld x1 (Rect.unit (s := S4096x128) ![0, 0] S4096x128.size inb_S4096x128_S4096x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S128) ![0] S128.size inb_S128_S128_0))⟩]

/-- The store covers the block. -/
theorem cover0_5 (p0 : Vec F S4096x128 .f32) (y : S4096x128.Idx) :
    ∃ pc ∈ ([⟨r0_out, p0⟩] : List (View.Piece (Elt F) S4096x128 .f32)), y ∈ pc.1.set :=
  View.cover_of_tiled [⟨r0_out, p0⟩] S4096x128.size (by rfl) y

/-! ## The body's triple -/

set_option maxHeartbeats 1000000 in
/-- The body on whole staging memrefs, the inputs' at contents `xW` and the output's at anything, runs to the
    continuation with the inputs' as they were and the output's at `out0_5` of them. -/
theorem sound_kernel0 (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S4096x128 .f32) (harg6 : arg6.IsWhole)
    (x0 : Vec F S4096x128 .f32) (x1 : Vec F S4096x128 .f32) (x2 : Vec F S128x128 .f32) (x3 : Vec F S128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_layer_kernel i arg1 harg1 arg2 harg2 arg3 harg3 arg4 harg4 arg5 harg5 arg6 harg6) K := by
  simp only [cc0__sage_layer_kernel_eq_skeleton]; unfold cc0__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this call on core `c`: the arrays as the call finds them; after the body at point `t` each
    input's buffer at its block and the output's at `out0_5` of the input blocks; the invariant only the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Pallas call 1 of the program (one graph-convolution layer's dense update): its half of the program's run, at a
  PARAMETER `V`, the buffer contents the call is entered with.

  The call walks 25 grid points; point `t` sees rows `4096 t … 4096 t + 4095` of the aggregated features (window 0)
  and of the node features (window 1), the two weight matrices and the bias whole (windows 2, 4 and 3: one block
  each, the same at every point), and writes rows `4096 t …` of the result (window 5). The body loads the five
  input blocks and stores ONE value over the whole output block: the layer's arithmetic `k1_pay1` of the five
  blocks. So after the body the output's staging buffer holds that value (`out1_5`), every input's staging buffer
  its block (`iblk1`), and nothing else of the machine's state is touched.
-/
import proofs.«421121_j36687610642889_1_alg».proof.Proof.Gen.KernelIdeal.Launch
import proofs.«421121_j36687610642889_1_alg».proof.Proof.Gen.KernelIdeal.Skeleton
import proofs.«421121_j36687610642889_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one rectangle the body stores through: the whole `[4096, 128]` block. -/
abbrev r1_out : Rect S4096x128 := Rect.unit (s := S4096x128) ![0, 0] S4096x128.size inb_S4096x128_S4096x128_0_0

/-- The output block after the body: its one store, the layer's arithmetic of the five input blocks. -/
def out1_5 (x0 : Vec F S4096x128 .f32) (x1 : Vec F S4096x128 .f32) (x2 : Vec F S128x128 .f32) (x3 : Vec F S128 .f32) (x4 : Vec F S128x128 .f32) : Vec F S4096x128 .f32 :=
  View.canon [⟨r1_out, k1_pay1 (View.ld x0 (Rect.unit (s := S4096x128) ![0, 0] S4096x128.size inb_S4096x128_S4096x128_0_0)) (View.ld x1 (Rect.unit (s := S4096x128) ![0, 0] S4096x128.size inb_S4096x128_S4096x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S128) ![0] S128.size inb_S128_S128_0))⟩]

/-- The store covers the block. -/
theorem cover1_5 (p0 : Vec F S4096x128 .f32) (y : S4096x128.Idx) :
    ∃ pc ∈ ([⟨r1_out, p0⟩] : List (View.Piece (Elt F) S4096x128 .f32)), y ∈ pc.1.set :=
  View.cover_of_tiled [⟨r1_out, p0⟩] S4096x128.size (by rfl) y

/-! ## The body's triple -/

set_option maxHeartbeats 1000000 in
/-- The body on whole staging memrefs, the inputs' at contents `xW` and the output's at anything, runs to the
    continuation with the inputs' as they were and the output's at `out1_5` of them. -/
theorem sound_kernel1 (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S4096x128 .f32) (harg6 : arg6.IsWhole)
    (x0 : Vec F S4096x128 .f32) (x1 : Vec F S4096x128 .f32) (x2 : Vec F S128x128 .f32) (x3 : Vec F S128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_layer_kernel i arg1 harg1 arg2 harg2 arg3 harg3 arg4 harg4 arg5 harg5 arg6 harg6) K := by
  simp only [cc1__sage_layer_kernel_eq_skeleton]; unfold cc1__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this call on core `c`: the arrays as the call finds them; after the body at point `t` each
    input's buffer at its block and the output's at `out1_5` of the input blocks; the invariant only the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- REGION 2 of the kernel's run (the pooling call), at a parameter `V` (the buffer contents when the region is entered):
   the body's triple in each of its three control cases (first point: the accumulators zeroed, then added to; a middle
   point: added to; last point: added to, then the output block stored), the two accumulators point by point, the proof
   data, the invariant that carries the accumulators between points, the body obligation, the invariant at the region's
   two ends, and the output array after the region. -/
import proofs.«421121_j36687610642889_1_alg».proof.Proof.Gen.KernelIdeal.Launch
import proofs.«421121_j36687610642889_1_alg».proof.Proof.Gen.KernelIdeal.Skeleton
import proofs.«421121_j36687610642889_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, from the grid coordinate -/

/-- The first conditional's condition (the two accumulators are zeroed under it). -/
abbrev cond2_0 (i : grid2.Coords) : Prop := (Scalar.cmpi .ne (Scalar.extui (Scalar.cmpi .eq (BitVec.ofNat 32 (i 0).val) 0#32)) 0#32) = 1#1
/-- The second conditional's condition (the output block is stored under it). -/
abbrev cond2_1 (i : grid2.Coords) : Prop := k2_cond2 i = 1#1

/-- The first holds at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last point only. -/
theorem hcond2_1 : ∀ t : Fin cfg2.N, cond2_1 (grid2.coords t) ↔ t.val = 24 :=
  (by decide +kernel : ∀ t : Fin grid2.N, cond2_1 (grid2.coords t) ↔ t.val = 24)

/-- The zero offsets of a whole-buffer access, at rank two and at rank one. -/
theorem hzero2_r2 : (![0, 0] : Fin 2 → ℕ) = fun _ => 0 := by funext a; fin_cases a <;> rfl
theorem hzero2_r1 : (![0] : Fin 1 → ℕ) = fun _ => 0 := by funext a; fin_cases a; rfl

/-! ## Whole-buffer reads and stores, stated once over an abstract shape -/

section Whole
variable {s : Shape} {e : EltTy}

/-- A load through the whole-shape rectangle at zero offsets of a whole memref owned at contents `X` reads `X`. -/
theorem readAt_whole2 (m : Memref sig .tc .vmem s e) (h : m.IsWhole) (X : s.Idx → Elt F e) {off : Fin s.rank → ℕ}
    (hz : off = fun _ => 0) (inb : ∀ a, off a + s.size a ≤ s.size a) :
    m.view.readAt (Elt F) (Rect.unit off s.size inb).toLoadRect (h.unread X) = X := by
  rw [View.readAt_eq_ld, h.read_unread, View.ld_unit_zero hz]

/-- What a buffer reads after a store through that rectangle made last, whatever was stored before. -/
theorem read_writes_whole2 (v : View sig .tc .vmem s e) (f : v.ty.Contents (Elt F)) {off : Fin s.rank → ℕ}
    (hz : off = fun _ => 0) (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons.mpr (Or.inl rfl), View.mem_set_unit_zero hz inb y⟩),
    View.canon_cons_unit_zero hz]

/-- A load through it after ONE such store reads what was stored. -/
theorem readCov_whole2 (v : View sig .tc .vmem s e) {off : Fin s.rank → ℕ}
    (hz : off = fun _ => 0) (inb : ∀ a, off a + s.size a ≤ s.size a) (w : s.Idx → Elt F e) :
    v.readCov [(⟨Rect.unit off s.size inb, w⟩ : View.Piece (Elt F) s e)] (Rect.unit off s.size inb).toLoadRect = w :=
  View.readCov_unit_zero v hz inb w

end Whole

/-! ## The two updates over what the body's loads read -/

/-- The sum update over the four inputs' loads is the update over their contents. -/
theorem pay5_loaded2 (arg1 : Memref sig .tc .vmem S4096x128 .f32) (harg1 : arg1.IsWhole) (arg2 : Memref sig .tc .vmem S4096x1 .i32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x10 .f32) (harg6 : arg6.IsWhole)
    (arg7 : Memref sig .tc .vmem S64x1 .f32) (harg7 : arg7.IsWhole) (x0 : Vec F S4096x128 .f32) (x1 : Vec F S4096x1 .i32) (x2 : Vec F S128x10 .f32) (x3 : Vec F S10 .f32) (prev' prev : Vec F S64x10 .f32) (hp : prev' = prev) :
    k2_pay5
      (View.readAt (Elt F) arg1.view (Rect.unit ![0, 0] S4096x128.size inb_S4096x128_S4096x128_0_0).toLoadRect (harg1.unread x0))
      (View.readAt (Elt F) arg3.view (Rect.unit ![0, 0] S128x10.size inb_S128x10_S128x10_0_0).toLoadRect (harg3.unread x2))
      (View.readAt (Elt F) arg4.view (Rect.unit ![0] S10.size inb_S10_S10_0).toLoadRect (harg4.unread x3))
      (View.readAt (Elt F) arg2.view (Rect.unit ![0, 0] S4096x1.size inb_S4096x1_S4096x1_0_0).toLoadRect (harg2.unread x1))
      prev' = k2_pay5 x0 x2 x3 x1 prev := by
  rw [readAt_whole2 (s := S4096x128) _ harg1 x0 hzero2_r2, readAt_whole2 (s := S128x10) _ harg3 x2 hzero2_r2,
    readAt_whole2 (s := S10) _ harg4 x3 hzero2_r1, readAt_whole2 (s := S4096x1) _ harg2 x1 hzero2_r2, hp]

/-- The count update likewise. -/
theorem pay6_loaded2 (arg2 : Memref sig .tc .vmem S4096x1 .i32) (harg2 : arg2.IsWhole) (x1 : Vec F S4096x1 .i32)
    (prev' prev : Vec F S64x1 .f32) (hp : prev' = prev) :
    k2_pay6
      (View.readAt (Elt F) arg2.view (Rect.unit ![0, 0] S4096x1.size inb_S4096x1_S4096x1_0_0).toLoadRect (harg2.unread x1))
      prev' = k2_pay6 x1 prev := by
  rw [readAt_whole2 (s := S4096x1) _ harg2 x1 hzero2_r2, hp]

/-! ## The body's triple, case by case

On whole memrefs, the four inputs at read contents `x0 … x3`. The sum accumulator ends at the update
`k2_pay5` of what it held when the point's additions began, the count accumulator at `k2_pay6` likewise. -/

set_option maxHeartbeats 1000000 in
/-- The first point (first conditional taken, second not): both accumulators, at anything, are zero-filled and then
    added to; the output block's buffer is handed back untouched. -/
theorem run2_A (c : Dev nD) (i : grid2.Coords)
    (arg1 : Memref sig .tc .vmem S4096x128 .f32) (harg1 : arg1.IsWhole) (arg2 : Memref sig .tc .vmem S4096x1 .i32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x10 .f32) (harg6 : arg6.IsWhole)
    (arg7 : Memref sig .tc .vmem S64x1 .f32) (harg7 : arg7.IsWhole) (hc0 : cond2_0 i) (hc1 : ¬cond2_1 i)
    (x0 : Vec F S4096x128 .f32) (x1 : Vec F S4096x1 .i32) (x2 : Vec F S128x10 .f32) (x3 : Vec F S10 .f32)
    (xi4 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k2_pay5 x0 x2 x3 x1 k2_pay2) ∗ owns (c : Thread nD τ) arg7 fullShare (k2_pay6 x1 k2_pay3)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists f4; isplitr; · ipureintro; exact hf4
    iexact H4
  isplitl [H6]
  · iexists _; isplitr
    swap; · iexact H6
    ipureintro
    sl_unfold_words
    exact (read_writes_whole2 (s := S64x10) _ _ hzero2_r2 _ _ _).trans
      (pay5_loaded2 arg1 harg1 arg2 harg2 arg3 harg3 arg4 harg4 arg5 harg5 arg6 harg6 arg7 harg7 x0 x1 x2 x3 _ _ (readCov_whole2 (s := S64x10) _ hzero2_r2 _ _))
  iexists _; isplitr
  swap; · iexact H7
  ipureintro
  sl_unfold_words
  exact (read_writes_whole2 (s := S64x1) _ _ hzero2_r2 _ _ _).trans
    (pay6_loaded2 arg2 harg2 x1 _ _ (readCov_whole2 (s := S64x1) _ hzero2_r2 _ _))

set_option maxHeartbeats 1000000 in
/-- A middle point (neither conditional taken): each accumulator, held at what the point before left, is added to;
    the output block's buffer is handed back untouched. -/
theorem run2_B (c : Dev nD) (i : grid2.Coords)
    (arg1 : Memref sig .tc .vmem S4096x128 .f32) (harg1 : arg1.IsWhole) (arg2 : Memref sig .tc .vmem S4096x1 .i32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x10 .f32) (harg6 : arg6.IsWhole)
    (arg7 : Memref sig .tc .vmem S64x1 .f32) (harg7 : arg7.IsWhole) (hc0 : ¬cond2_0 i) (hc1 : ¬cond2_1 i)
    (x0 : Vec F S4096x128 .f32) (x1 : Vec F S4096x1 .i32) (x2 : Vec F S128x10 .f32) (x3 : Vec F S10 .f32)
    (xi4 : Vec F S64x10 .f32) (xs6 : Vec F S64x10 .f32) (xs7 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ owns (c : Thread nD τ) arg6 fullShare xs6 ∗ owns (c : Thread nD τ) arg7 fullShare xs7
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k2_pay5 x0 x2 x3 x1 xs6) ∗ owns (c : Thread nD τ) arg7 fullShare (k2_pay6 x1 xs7)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg6.eq_unread hf6; obtain rfl := harg7.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists f4; isplitr; · ipureintro; exact hf4
    iexact H4
  isplitl [H6]
  · iexists _; isplitr
    swap; · iexact H6
    ipureintro
    sl_unfold_words
    exact (read_writes_whole2 (s := S64x10) _ _ hzero2_r2 _ _ _).trans
      (pay5_loaded2 arg1 harg1 arg2 harg2 arg3 harg3 arg4 harg4 arg5 harg5 arg6 harg6 arg7 harg7 x0 x1 x2 x3 _ _ (readAt_whole2 (s := S64x10) _ harg6 xs6 hzero2_r2 _))
  iexists _; isplitr
  swap; · iexact H7
  ipureintro
  sl_unfold_words
  exact (read_writes_whole2 (s := S64x1) _ _ hzero2_r2 _ _ _).trans
    (pay6_loaded2 arg2 harg2 x1 _ _ (readAt_whole2 (s := S64x1) _ harg7 xs7 hzero2_r2 _))

set_option maxHeartbeats 1000000 in
/-- The last point (second conditional taken, first not): each accumulator is added to, then both are read back and
    the output block's buffer, at anything, is stored whole at the quotient `k2_pay1` of the two. -/
theorem run2_C (c : Dev nD) (i : grid2.Coords)
    (arg1 : Memref sig .tc .vmem S4096x128 .f32) (harg1 : arg1.IsWhole) (arg2 : Memref sig .tc .vmem S4096x1 .i32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x10 .f32) (harg6 : arg6.IsWhole)
    (arg7 : Memref sig .tc .vmem S64x1 .f32) (harg7 : arg7.IsWhole) (hc0 : ¬cond2_0 i) (hc1 : cond2_1 i)
    (x0 : Vec F S4096x128 .f32) (x1 : Vec F S4096x1 .i32) (x2 : Vec F S128x10 .f32) (x3 : Vec F S10 .f32)
    (xs6 : Vec F S64x10 .f32) (xs7 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xs6 ∗ owns (c : Thread nD τ) arg7 fullShare xs7
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k2_pay1 (k2_pay5 x0 x2 x3 x1 xs6) (k2_pay6 x1 xs7))
            ∗ owns (c : Thread nD τ) arg6 fullShare (k2_pay5 x0 x2 x3 x1 xs6) ∗ owns (c : Thread nD τ) arg7 fullShare (k2_pay6 x1 xs7)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg6.eq_unread hf6; obtain rfl := harg7.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have e6 := pay5_loaded2 arg1 harg1 arg2 harg2 arg3 harg3 arg4 harg4 arg5 harg5 arg6 harg6 arg7 harg7 x0 x1 x2 x3 _ _ (readAt_whole2 (s := S64x10) _ harg6 xs6 hzero2_r2 inb_S64x10_S64x10_0_0)
  have e7 := pay6_loaded2 arg2 harg2 x1 _ _ (readAt_whole2 (s := S64x1) _ harg7 xs7 hzero2_r2 inb_S64x1_S64x1_0_0)
  isplitl [H4]
  · iexists _; isplitr
    swap; · iexact H4
    ipureintro
    sl_unfold_words
    exact (read_writes_whole2 (s := S64x10) _ _ hzero2_r2 _ _ _).trans
      (congrArg₂ k2_pay1 ((readCov_whole2 (s := S64x10) _ hzero2_r2 _ _).trans e6) ((readCov_whole2 (s := S64x1) _ hzero2_r2 _ _).trans e7))
  isplitl [H6]
  · iexists _; isplitr
    swap; · iexact H6
    ipureintro
    sl_unfold_words
    exact (read_writes_whole2 (s := S64x10) _ _ hzero2_r2 _ _ _).trans e6
  iexists _; isplitr
  swap; · iexact H7
  ipureintro
  sl_unfold_words
  exact (read_writes_whole2 (s := S64x1) _ _ hzero2_r2 _ _ _).trans e7

/-! ## Where the windows are idle -/

/-- The four inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- The output block is idle, and not written back, wherever the second conditional is not taken; -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- live where it is. -/
theorem liveAt2_4 : ∀ t : Fin cfg2.N, cond2_1 (grid2.coords t) → cfg2.idle 4 (grid2.coords t) = false := by decide +kernel

section Region2
-- the TensorCore's buffer contents when the region is entered: the parameter this region's half is stated at
variable (V : (c : Dev nD) → (b : Ref sig .tc) → Buf (Elt F) ((c : Thread nD τ).loc b))

/-! # REGION 2 of @main: custom_call 2, `cc2__final_pool_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The four input blocks at a point, each at its literal shape. -/
abbrev b2_0 (c : Dev nD) (t : Fin cfg2.N) : Vec F S4096x128 .f32 := iblk2 V c 0 t
abbrev b2_1 (c : Dev nD) (t : Fin cfg2.N) : Vec F S4096x1 .i32 := iblk2 V c 1 t
abbrev b2_2 (c : Dev nD) (t : Fin cfg2.N) : Vec F S128x10 .f32 := iblk2 V c 2 t
abbrev b2_3 (c : Dev nD) (t : Fin cfg2.N) : Vec F S10 .f32 := iblk2 V c 3 t

/-! ## The two accumulators, point by point -/

/-- Position `n` as a grid point (positions past the grid wrap around; none is ever read). -/
def pt2 (n : ℕ) : Fin cfg2.N := ⟨n % 25, lt_of_lt_of_eq (Nat.mod_lt n (by decide)) N_2.symm⟩

theorem pt2_eq (t : Fin cfg2.N) : pt2 t.val = t :=
  Fin.ext (Nat.mod_eq_of_lt (lt_of_lt_of_eq t.isLt N_2))
theorem pt2_val (n : ℕ) (h : n < 25) : (pt2 n).val = n := Nat.mod_eq_of_lt h

/-- The sum accumulator after point `n`: at the first point the update of the zero fill, afterwards the update of
    what the point before left — each point adds its block's pooled logits. -/
def sc2_6 (c : Dev nD) : ℕ → Vec F S64x10 .f32
  | 0 => k2_pay5 (b2_0 V c (pt2 0)) (b2_2 V c (pt2 0)) (b2_3 V c (pt2 0)) (b2_1 V c (pt2 0)) k2_pay2
  | n + 1 => k2_pay5 (b2_0 V c (pt2 (n + 1))) (b2_2 V c (pt2 (n + 1))) (b2_3 V c (pt2 (n + 1))) (b2_1 V c (pt2 (n + 1))) (sc2_6 c n)

/-- The count accumulator after point `n`, likewise: each point adds its block's per-graph row counts. -/
def sc2_7 (c : Dev nD) : ℕ → Vec F S64x1 .f32
  | 0 => k2_pay6 (b2_1 V c (pt2 0)) k2_pay3
  | n + 1 => k2_pay6 (b2_1 V c (pt2 (n + 1))) (sc2_7 c n)

theorem sc2_6_zero (c : Dev nD) :
    sc2_6 V c 0 = k2_pay5 (b2_0 V c (pt2 0)) (b2_2 V c (pt2 0)) (b2_3 V c (pt2 0)) (b2_1 V c (pt2 0)) k2_pay2 := rfl
theorem sc2_6_succ (c : Dev nD) (n : ℕ) :
    sc2_6 V c (n + 1) = k2_pay5 (b2_0 V c (pt2 (n + 1))) (b2_2 V c (pt2 (n + 1))) (b2_3 V c (pt2 (n + 1))) (b2_1 V c (pt2 (n + 1))) (sc2_6 V c n) := rfl
theorem sc2_7_zero (c : Dev nD) : sc2_7 V c 0 = k2_pay6 (b2_1 V c (pt2 0)) k2_pay3 := rfl
theorem sc2_7_succ (c : Dev nD) (n : ℕ) : sc2_7 V c (n + 1) = k2_pay6 (b2_1 V c (pt2 (n + 1))) (sc2_7 V c n) := rfl

/-- The same recursion read at a grid point: the first, -/
theorem sc2_6_at_zero (c : Dev nD) (t : Fin cfg2.N) (h : t.val = 0) :
    sc2_6 V c t.val = k2_pay5 (b2_0 V c t) (b2_2 V c t) (b2_3 V c t) (b2_1 V c t) k2_pay2 := by
  have e : pt2 0 = t := (congrArg pt2 h.symm).trans (pt2_eq t)
  rw [h, sc2_6_zero, e]
theorem sc2_7_at_zero (c : Dev nD) (t : Fin cfg2.N) (h : t.val = 0) :
    sc2_7 V c t.val = k2_pay6 (b2_1 V c t) k2_pay3 := by
  have e : pt2 0 = t := (congrArg pt2 h.symm).trans (pt2_eq t)
  rw [h, sc2_7_zero, e]
/-- and a later one. -/
theorem sc2_6_at_pos (c : Dev nD) (t : Fin cfg2.N) (h : t.val ≠ 0) :
    sc2_6 V c t.val = k2_pay5 (b2_0 V c t) (b2_2 V c t) (b2_3 V c t) (b2_1 V c t) (sc2_6 V c (t.val - 1)) := by
  obtain ⟨n, hn⟩ := t
  cases n with
  | zero => exact absurd rfl h
  | succ n =>
    have e : pt2 (n + 1) = ⟨n + 1, hn⟩ := pt2_eq ⟨n + 1, hn⟩
    show sc2_6 V c (n + 1) = _
    rw [sc2_6_succ, e]; rfl
theorem sc2_7_at_pos (c : Dev nD) (t : Fin cfg2.N) (h : t.val ≠ 0) :
    sc2_7 V c t.val = k2_pay6 (b2_1 V c t) (sc2_7 V c (t.val - 1)) := by
  obtain ⟨n, hn⟩ := t
  cases n with
  | zero => exact absurd rfl h
  | succ n =>
    have e : pt2 (n + 1) = ⟨n + 1, hn⟩ := pt2_eq ⟨n + 1, hn⟩
    show sc2_7 V c (n + 1) = _
    rw [sc2_7_succ, e]; rfl

/-! ## The invariant between points -/

/-- The two accumulators: whole scoped buffers of the kernel's own, passed beside the windows. -/
abbrev scM2_6 : Memref sig .tc .vmem S64x10 .f32 := Memref.whole cc2_scratch0
abbrev scM2_7 : Memref sig .tc .vmem S64x1 .f32 := Memref.whole cc2_scratch1

/-- The core's scoped buffers that are neither a staging buffer of this call nor one of its two accumulators, each at
    some contents: carried unopened. -/
abbrev But2 (c : Dev nD) : sProp 𝕄 :=
  Pipeline.scopedRestBut (Ix := Unit) (Name := ℕ) (U := UR sig nD τ) (Lvl := ℕ) (Val := Elt F) spec2 c [cc2_scratch0, cc2_scratch1]

/-- The scoped rest with the two accumulators set apart, each owned at some contents. -/
theorem scopedRest2_split (c : Dev nD) :
    (Pipeline.scopedRest (Ix := Unit) (Name := ℕ) (U := UR sig nD τ) (Lvl := ℕ) (Val := Elt F) spec2 c : sProp 𝕄)
      = iprop(((∃ d, owns (c : Thread nD τ) scM2_6 fullShare d) ∗ (∃ d, owns (c : Thread nD τ) scM2_7 fullShare d)) ∗ But2 c) := by
  rw [Pipeline.scopedRest_split_of_list spec2 c [cc2_scratch0, cc2_scratch1] (by decide) (by decide)]
  simp only [scM2_6, scM2_7, owns_whole]; try rfl

/-- The class's invariant in that form. -/
theorem PhiA2_eq (c : Dev nD) :
    (Pipeline.ΦA spec2 c : sProp 𝕄)
      = iprop((((∃ d, owns (c : Thread nD τ) scM2_6 fullShare d) ∗ (∃ d, owns (c : Thread nD τ) scM2_7 fullShare d)) ∗ But2 c) ∗ (∃ r, prngReg c r)) := by
  unfold Pipeline.ΦA; rw [scopedRest2_split]

/-- The invariant before position `n`: before the first point every scoped buffer no window stages at anything and
    the generator register at some state; afterwards the same with the two accumulators at what the point before left. -/
def Phi2 (c : Dev nD) : ℕ → sProp 𝕄
  | 0 => Pipeline.ΦA spec2 c
  | n + 1 => iprop(((owns (c : Thread nD τ) scM2_6 fullShare (sc2_6 V c n) ∗ owns (c : Thread nD τ) scM2_7 fullShare (sc2_7 V c n)) ∗ But2 c) ∗ (∃ r, prngReg c r))

theorem Phi2_zero (c : Dev nD) (n : ℕ) (hz : n = 0) : Phi2 V c n = Pipeline.ΦA spec2 c := by subst hz; rfl
theorem Phi2_succ (c : Dev nD) (n : ℕ) :
    Phi2 V c (n + 1) = iprop(((owns (c : Thread nD τ) scM2_6 fullShare (sc2_6 V c n) ∗ owns (c : Thread nD τ) scM2_7 fullShare (sc2_7 V c n)) ∗ But2 c) ∗ (∃ r, prngReg c r)) := rfl
theorem Phi2_pos (c : Dev nD) (n : ℕ) (hz : n ≠ 0) :
    Phi2 V c n = iprop(((owns (c : Thread nD τ) scM2_6 fullShare (sc2_6 V c (n - 1)) ∗ owns (c : Thread nD τ) scM2_7 fullShare (sc2_7 V c (n - 1))) ∗ But2 c) ∗ (∃ r, prngReg c r)) := by
  cases n with
  | zero => exact absurd rfl hz
  | succ n => rfl

/-! ## The pipeline's proof data -/

/-- The proof data of pipeline 2 on core `c`: the arrays as the region finds them (`V`); after the body each input's
    buffer at its block; the output block's buffer, stored at the last point only (the one point that writes it back), at the
    quotient of the two accumulators after that point; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (sc2_6 V c 24) (sc2_7 V c 24)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay1 (sc2_6 V c 24) (sc2_7 V c 24) := by dsimp only [dat2]
theorem after2_4_last (c : Dev nD) (h : 24 < cfg2.N) : (dat2 V c).after 4 ⟨24, h⟩ = k2_pay1 (sc2_6 V c 24) (sc2_7 V c 24) :=
  after2_4 V c ⟨24, h⟩

theorem Phi2_castSucc (c : Dev nD) (t : Fin cfg2.N) : (dat2 V c).Φ t.castSucc = Phi2 V c t.val := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- An input's buffer is left at its block. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]

set_option maxHeartbeats 4800000 in
/-- The body at any point. The inputs' memrefs hold their blocks; the point is the first, a middle one or the last, and
    that case's run applies: the invariant hands the body the two accumulators at what the point before left (at anything
    at the first point) and takes them back at this point's contents; the output block's buffer is stored at the last
    point only and handed back as found elsewhere; the other scoped buffers, the generator register and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) from rfl, Phi2_succ, Phi2_castSucc]
  rw [leaves2_0, leaves2_1, leaves2_2, leaves2_3]
  have hN : t.val < 25 := lt_of_lt_of_eq t.isLt N_2
  by_cases h0 : t.val = 0
  · have h1 : ¬t.val = 24 := by omega
    have hc0 : cond2_0 (grid2.coords t) := (hcond2_0 t).mpr h0
    have hc1 : ¬cond2_1 (grid2.coords t) := fun h => h1 ((hcond2_1 t).mp h)
    rw [Dat.leavesExact_idle (dat2 V c) 4 t (idleAt2_4 t hc1) (noFlush2_4 t hc1)]
    rw [sc2_6_at_zero V c t h0, sc2_7_at_zero V c t h0, Phi2_zero V c _ h0, PhiA2_eq]
    iintro ⟨⟨⟨⟨⟨%d6, HS6⟩, ⟨%d7, HS7⟩⟩, Hb⟩, Hg⟩, Ho, ⟨%d0, H0⟩, ⟨%d1, H1⟩, ⟨%d2, H2⟩, ⟨%d3, H3⟩, ⟨%d4, H4⟩⟩
    iapply (run2_A c (grid2.coords t) _ _ _ _ _ _ _ _ _ _ _ _ _ _ hc0 hc1 (b2_0 V c t) (b2_1 V c t) (b2_2 V c t) (b2_3 V c t) _ Set.univ _)
    isplitl [H0]; · iexact H0
    isplitl [H1]; · iexact H1
    isplitl [H2]; · iexact H2
    isplitl [H3]; · iexact H3
    isplitl [H4]; · iexact H4
    isplitl [HS6]; · iexists _; iexact HS6
    isplitl [HS7]; · iexists _; iexact HS7
    iintro ⟨H0, H1, H2, H3, H4, HS6, HS7⟩
    isplitl [HS6 HS7 Hb Hg]
    · isplitl [HS6 HS7 Hb]
      · isplitl [HS6 HS7]
        · isplitl [HS6]; · iexact HS6
          iexact HS7
        iexact Hb
      iexact Hg
    isplitl [Ho]; · iexact Ho
    isplitl [H0]; · iexact H0
    isplitl [H1]; · iexact H1
    isplitl [H2]; · iexact H2
    isplitl [H3]; · iexact H3
    iexists _; iexact H4
  · by_cases h1 : t.val = 24
    · have hc0 : ¬cond2_0 (grid2.coords t) := fun h => h0 ((hcond2_0 t).mp h)
      have hc1 : cond2_1 (grid2.coords t) := (hcond2_1 t).mpr h1
      have e6 : sc2_6 V c 24 = sc2_6 V c t.val := congrArg (sc2_6 V c) h1.symm
      have e7 : sc2_7 V c 24 = sc2_7 V c t.val := congrArg (sc2_7 V c) h1.symm
      rw [show (dat2 V c).leavesExact 4 t = owns (c : Thread nD τ) (st2_4 t) fullShare ((dat2 V c).after 4 t) from by
        unfold Dat.leavesExact; rw [liveAt2_4 t hc1], after2_4, e6, e7]
      rw [sc2_6_at_pos V c t h0, sc2_7_at_pos V c t h0, Phi2_pos V c _ h0]
      iintro ⟨⟨⟨⟨HS6, HS7⟩, Hb⟩, Hg⟩, Ho, ⟨%d0, H0⟩, ⟨%d1, H1⟩, ⟨%d2, H2⟩, ⟨%d3, H3⟩, ⟨%d4, H4⟩⟩
      iapply (run2_C c (grid2.coords t) _ _ _ _ _ _ _ _ _ _ _ _ _ _ hc0 hc1 (b2_0 V c t) (b2_1 V c t) (b2_2 V c t) (b2_3 V c t)
        (sc2_6 V c (t.val - 1)) (sc2_7 V c (t.val - 1)) Set.univ _)
      isplitl [H0]; · iexact H0
      isplitl [H1]; · iexact H1
      isplitl [H2]; · iexact H2
      isplitl [H3]; · iexact H3
      isplitl [H4]; · iexists _; iexact H4
      isplitl [HS6]; · iexact HS6
      isplitl [HS7]; · iexact HS7
      iintro ⟨H0, H1, H2, H3, H4, HS6, HS7⟩
      isplitl [HS6 HS7 Hb Hg]
      · isplitl [HS6 HS7 Hb]
        · isplitl [HS6 HS7]
          · isplitl [HS6]; · iexact HS6
            iexact HS7
          iexact Hb
        iexact Hg
      isplitl [Ho]; · iexact Ho
      isplitl [H0]; · iexact H0
      isplitl [H1]; · iexact H1
      isplitl [H2]; · iexact H2
      isplitl [H3]; · iexact H3
      iexact H4
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 4 t (idleAt2_4 t hc1) (noFlush2_4 t hc1)]
      rw [sc2_6_at_pos V c t h0, sc2_7_at_pos V c t h0, Phi2_pos V c _ h0]
      iintro ⟨⟨⟨⟨HS6, HS7⟩, Hb⟩, Hg⟩, Ho, ⟨%d0, H0⟩, ⟨%d1, H1⟩, ⟨%d2, H2⟩, ⟨%d3, H3⟩, ⟨%d4, H4⟩⟩
      iapply (run2_B c (grid2.coords t) _ _ _ _ _ _ _ _ _ _ _ _ _ _ hc0 hc1 (b2_0 V c t) (b2_1 V c t) (b2_2 V c t) (b2_3 V c t) _
        (sc2_6 V c (t.val - 1)) (sc2_7 V c (t.val - 1)) Set.univ _)
      isplitl [H0]; · iexact H0
      isplitl [H1]; · iexact H1
      isplitl [H2]; · iexact H2
      isplitl [H3]; · iexact H3
      isplitl [H4]; · iexact H4
      isplitl [HS6]; · iexact HS6
      isplitl [HS7]; · iexact HS7
      iintro ⟨H0, H1, H2, H3, H4, HS6, HS7⟩
      isplitl [HS6 HS7 Hb Hg]
      · isplitl [HS6 HS7 Hb]
        · isplitl [HS6 HS7]
          · isplitl [HS6]; · iexact HS6
            iexact HS7
          iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands the region is the invariant before the first point. -/
theorem hin2 (c : Dev nD) : Pipeline.ΦA spec2 c ⊢ (dat2 V c).Φ 0 := by
  rw [show (dat2 V c).Φ 0 = Pipeline.ΦA spec2 c from rfl]

/-- After the last point the invariant gives it back: what the accumulators hold is forgotten. -/
theorem hout2 (c : Dev nD) : (dat2 V c).Φ (Fin.last cfg2.N) ⊢ Pipeline.ΦA spec2 c := by
  rw [show (dat2 V c).Φ (Fin.last cfg2.N) = Phi2 V c (24 + 1) from rfl, Phi2_succ, PhiA2_eq]
  iintro ⟨⟨⟨HS6, HS7⟩, Hb⟩, Hg⟩
  isplitl [HS6 HS7 Hb]
  · isplitl [HS6 HS7]
    · isplitl [HS6]; · iexists _; iexact HS6
      iexists _; iexact HS7
    iexact Hb
  iexact Hg

/-- The same two in the shape a region record's fields take: the generator register, the (empty) prefetched tables
    and the scoped rest make the invariant before the first point, -/
theorem phi2_in (c : Dev nD) (P : sProp 𝕄) :
    iprop((∃ r, prngReg c r) ∗ P ∗ Pipeline.scopedRest (Ix := Unit) (Name := ℕ) (U := UR sig nD τ) (Lvl := ℕ) (Val := Elt F) spec2 c) ⊢ (dat2 V c).Φ 0 := by
  iintro ⟨Hp, -, Hr⟩
  iapply (hin2 V c)
  unfold Pipeline.ΦA
  isplitl [Hr]; · iexact Hr
  iexact Hp

/-- and the invariant after the last point gives back the register and the scoped rest. -/
theorem phi2_out (c : Dev nD) :
    (dat2 V c).Φ (Fin.last cfg2.N) ⊢ iprop((∃ r, prngReg c r) ∗ emp ∗ Pipeline.scopedRest (Ix := Unit) (Name := ℕ) (U := UR sig nD τ) (Lvl := ℕ) (Val := Elt F) spec2 c) := by
  refine (hout2 V c).trans ?_
  unfold Pipeline.ΦA
  iintro ⟨Hr, Hp⟩
  isplitl [Hp]; · iexact Hp
  isplitr; · iempintro
  iexact Hr

/-! ## The output array after the region -/

/-- The last grid point: the one point that writes the output block back. -/
def t2_last : Fin cfg2.N := ⟨24, lt_of_lt_of_eq (by decide) N_2.symm⟩

/-- The output window has one block, the whole array: at the last point its block index is zero on both axes. -/
theorem index2_4_last : ∀ a, (cfg2.win 4).index t2_last a = 0 := by decide +kernel

/-- Only one point writes the output back, so the written blocks are pairwise disjoint, vacuously. -/
theorem disj2_4 : ∀ t t' : Fin cfg2.N, (cfg2.win 4).flush t = true → (cfg2.win 4).flush t' = true → t ≠ t' →
    Disjoint ((cfg2.win 4).blk t).view.set ((cfg2.win 4).blk t').view.set := by
  intro t t' h h' hne
  exfalso; apply hne; apply Fin.ext
  have e := (flush2_4 t).mp h; have e' := (flush2_4 t').mp h'
  have b : t.val < 25 := lt_of_lt_of_eq t.isLt N_2
  have b' : t'.val < 25 := lt_of_lt_of_eq t'.isLt N_2
  omega

/-- For ANY proof data of this pipeline whose output block's buffer is left at `G` at the last point: the output array
    after the region is `G` — the one write-back puts the whole block over the whole array. -/
theorem arrAt2_4_of {c : Dev nD} (dat : Dat τ (Elt F) Unit ℕ (UR sig nD τ) ℕ cfg2 c) (G : Vec F S64x10 .f32)
    (hafter : dat.after 4 t2_last = G) : dat.arrAt 4 cfg2.N = G := by
  funext y
  have hf : (cfg2.win 4).flush t2_last = true := (flush2_4 t2_last).mpr (by decide)
  have key := Dat.arrAt_emb_eq_flushed dat 4 disj2_4 t2_last hf y
  have hemb : ((cfg2.win 4).blk t2_last).view.emb y = y := by
    funext a; apply Fin.ext
    exact Window.rect_emb_val_of_index_zero (cfg2.win 4) t2_last a (index2_4_last a) y
  rw [hemb] at key
  rw [key]
  show _root_.cast _ ((cfg2.win 4).cut (cfg2.grid.coords t2_last) (dat.after 4 t2_last) y) = G y
  rw [hafter]
  exact cast_eq _ _

/-- The output array after the region: the quotient of the two accumulators after the last point. -/
theorem arr2_4 (c : Dev nD) : (dat2 V c).arrAt 4 cfg2.N = k2_pay1 (sc2_6 V c 24) (sc2_7 V c 24) :=
  arrAt2_4_of (dat2 V c) (k2_pay1 (sc2_6 V c 24) (sc2_7 V c 24)) (after2_4 V c t2_last)

end Region2

end Cert.KernelIdeal.Hand

end
-- ==== Proof.KI.Run.lean ====
/-
  The program's run, from the launch to the return, over its nine segments: five stretches of host operations (the
  two index rows sliced out of the edge list; the node features padded to 102400 rows; the batch ids padded with
  the id 64; the first layer's mean aggregation), pallas call 0 (layer 1), a stretch of host operations (the second
  layer's mean aggregation), pallas call 1 (layer 2) and pallas call 2 (the linear head and the mean pool).

  `W0 … W9` are the buffer contents at the segment boundaries, a fold from the launch memory: a host stretch applies
  its operations, a call replaces its output array by what its write-backs leave and changes nothing else. `run`
  says every weakly fair execution terminates with every unscoped buffer at `W9`; the frame (the eleven argument
  arrays end as launched) and the result (the output array of call 2) are read off it.
-/
import proofs.«421121_j36687610642889_1_alg».proof.Proof.KI.R0
import proofs.«421121_j36687610642889_1_alg».proof.Proof.KI.R1
import proofs.«421121_j36687610642889_1_alg».proof.Proof.KI.R2
import proofs.«421121_j36687610642889_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the slices of the edge list. -/
abbrev W1 : Dev nD → Valuation τ sig (Elt F) := fun c => StableHlo.after hostOps0 (W0 m ρ c)
/-- After the padding of the node features. -/
abbrev W2 : Dev nD → Valuation τ sig (Elt F) := fun c => StableHlo.after hostOps0_1 (W1 m ρ c)
/-- After the constant 64. -/
abbrev W3 : Dev nD → Valuation τ sig (Elt F) := fun c => StableHlo.after hostOps0_2 (W2 m ρ c)
/-- After the padding of the batch ids. -/
abbrev W4 : Dev nD → Valuation τ sig (Elt F) := fun c => StableHlo.after hostOps0_3 (W3 m ρ c)
/-- After the first mean aggregation: call 0's entry. -/
abbrev W5 : Dev nD → Valuation τ sig (Elt F) := fun c => StableHlo.after hostOps0_4 (W4 m ρ c)
abbrev VW5 : (c : Dev nD) → (b : Ref sig .tc) → Buf (Elt F) ((c : Thread nD τ).loc b) := fun c b => W5 m ρ c b

/-- At call 0's exit: its arrays at what the pipeline leaves (the inputs as entered, the output's write-backs
    folded), every other buffer as entered. -/
def W6 (c : Dev nD) : Valuation τ sig (Elt F) :=
  Pipeline.withArrays spec0 c (W5 m ρ c) fun w => (dat0 (VW5 m ρ) c).arrAt w cfg0.N
theorem W6_arr (c : Dev nD) (w : Fin cfg0.W) :
    W6 m ρ c (Proc.devRef .tc (Pipeline.arrRef spec0 w)) = (dat0 (VW5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev VW6 : (c : Dev nD) → (b : Ref sig .tc) → Buf (Elt F) ((c : Thread nD τ).loc b) := fun c b => W6 m ρ c b
theorem hF0 (c : Dev nD) (w : Fin cfg0.W) : (dat0 (VW5 m ρ) c).arrAt w cfg0.N = VW6 m ρ c (Pipeline.arrRef spec0 w) :=
  (W6_arr m ρ c w).symm
theorem hrest0 (c : Dev nD) : ∀ b, b ∉ Finset.univ.image (Pipeline.arrRef spec0) → VW6 m ρ c b = VW5 m ρ c b :=
  fun b hb => W6_of_ne m ρ c b fun w e => hb (Finset.mem_image.mpr ⟨w, Finset.mem_univ _, e⟩)

/-- After the second mean aggregation: call 1's entry. -/
abbrev W7 : Dev nD → Valuation τ sig (Elt F) := fun c => StableHlo.after hostOps1 (W6 m ρ c)
abbrev VW7 : (c : Dev nD) → (b : Ref sig .tc) → Buf (Elt F) ((c : Thread nD τ).loc b) := fun c b => W7 m ρ c b

/-- At call 1's exit: its arrays at what the pipeline leaves (the inputs as entered, the output's write-backs
    folded), every other buffer as entered. -/
def W8 (c : Dev nD) : Valuation τ sig (Elt F) :=
  Pipeline.withArrays spec1 c (W7 m ρ c) fun w => (dat1 (VW7 m ρ) c).arrAt w cfg1.N
theorem W8_arr (c : Dev nD) (w : Fin cfg1.W) :
    W8 m ρ c (Proc.devRef .tc (Pipeline.arrRef spec1 w)) = (dat1 (VW7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev VW8 : (c : Dev nD) → (b : Ref sig .tc) → Buf (Elt F) ((c : Thread nD τ).loc b) := fun c b => W8 m ρ c b
theorem hF1 (c : Dev nD) (w : Fin cfg1.W) : (dat1 (VW7 m ρ) c).arrAt w cfg1.N = VW8 m ρ c (Pipeline.arrRef spec1 w) :=
  (W8_arr m ρ c w).symm
theorem hrest1 (c : Dev nD) : ∀ b, b ∉ Finset.univ.image (Pipeline.arrRef spec1) → VW8 m ρ c b = VW7 m ρ c b :=
  fun b hb => W8_of_ne m ρ c b fun w e => hb (Finset.mem_image.mpr ⟨w, Finset.mem_univ _, e⟩)

/-- At call 2's exit: its arrays at what the pipeline leaves (the inputs as entered, the output's write-backs
    folded), every other buffer as entered. -/
def W9 (c : Dev nD) : Valuation τ sig (Elt F) :=
  Pipeline.withArrays spec2 c (W8 m ρ c) fun w => (dat2 (VW8 m ρ) c).arrAt w cfg2.N
theorem W9_arr (c : Dev nD) (w : Fin cfg2.W) :
    W9 m ρ c (Proc.devRef .tc (Pipeline.arrRef spec2 w)) = (dat2 (VW8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev VW9 : (c : Dev nD) → (b : Ref sig .tc) → Buf (Elt F) ((c : Thread nD τ).loc b) := fun c b => W9 m ρ c b
theorem hF2 (c : Dev nD) (w : Fin cfg2.W) : (dat2 (VW8 m ρ) c).arrAt w cfg2.N = VW9 m ρ c (Pipeline.arrRef spec2 w) :=
  (W9_arr m ρ c w).symm
theorem hrest2 (c : Dev nD) : ∀ b, b ∉ Finset.univ.image (Pipeline.arrRef spec2) → VW9 m ρ c b = VW8 m ρ c b :=
  fun b hb => W9_of_ne m ρ c b fun w e => hb (Finset.mem_image.mpr ⟨w, Finset.mem_univ _, e⟩)

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := W6_of_ne m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := (W6_arr m ρ c 2).trans (((dat0 (VW5 m ρ) c).arrAt_in 2 rfl _).trans (A_eq0 (VW5 m ρ) c 2))
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := (W6_arr m ρ c 3).trans (((dat0 (VW5 m ρ) c).arrAt_in 3 rfl _).trans (A_eq0 (VW5 m ρ) c 3))
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := (W6_arr m ρ c 4).trans (((dat0 (VW5 m ρ) c).arrAt_in 4 rfl _).trans (A_eq0 (VW5 m ρ) c 4))
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := (W8_arr m ρ c 2).trans (((dat1 (VW7 m ρ) c).arrAt_in 2 rfl _).trans (A_eq1 (VW7 m ρ) c 2))
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := (W8_arr m ρ c 3).trans (((dat1 (VW7 m ρ) c).arrAt_in 3 rfl _).trans (A_eq1 (VW7 m ρ) c 3))
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := (W8_arr m ρ c 4).trans (((dat1 (VW7 m ρ) c).arrAt_in 4 rfl _).trans (A_eq1 (VW7 m ρ) c 4))
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := (W9_arr m ρ c 2).trans (((dat2 (VW8 m ρ) c).arrAt_in 2 rfl _).trans (A_eq2 (VW8 m ρ) c 2))
    _ = W7 m ρ c (Proc.devRef .tc main_arg9) := W8_of_ne m ρ c main_arg9 (by decide)
    _ = W6 m ρ c (Proc.devRef .tc main_arg9) := StableHlo.after_of_writes_sub hostOps1 _ hostOps1_writes (by decide)
    _ = W5 m ρ c (Proc.devRef .tc main_arg9) := W6_of_ne m ρ c main_arg9 (by decide)
    _ = W4 m ρ c (Proc.devRef .tc main_arg9) := StableHlo.after_of_writes_sub hostOps0_4 _ hostOps0_4_writes (by decide)
    _ = W3 m ρ c (Proc.devRef .tc main_arg9) := StableHlo.after_of_writes_sub hostOps0_3 _ hostOps0_3_writes (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := (W9_arr m ρ c 3).trans (((dat2 (VW8 m ρ) c).arrAt_in 3 rfl _).trans (A_eq2 (VW8 m ρ) c 3))
    _ = W7 m ρ c (Proc.devRef .tc main_arg10) := W8_of_ne m ρ c main_arg10 (by decide)
    _ = W6 m ρ c (Proc.devRef .tc main_arg10) := StableHlo.after_of_writes_sub hostOps1 _ hostOps1_writes (by decide)
    _ = W5 m ρ c (Proc.devRef .tc main_arg10) := W6_of_ne m ρ c main_arg10 (by decide)
    _ = W4 m ρ c (Proc.devRef .tc main_arg10) := StableHlo.after_of_writes_sub hostOps0_4 _ hostOps0_4_writes (by decide)
    _ = W3 m ρ c (Proc.devRef .tc main_arg10) := StableHlo.after_of_writes_sub hostOps0_3 _ hostOps0_3_writes (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

/-! ## The proof data family and the thread state -/

abbrev admH : (p : Fin 3) → (pcfgs (F := F) p).Adm := fun p => (cfgs p).toPCfg_adm
/-- Every call's proof data, each at its entry contents: a literal match on the call's number. -/
def pdats : (p : Fin 3) → (c : Dev nD) → Dat τ (Elt F) Unit ℕ (UR sig nD τ) ℕ (Pipeline.pin (pcfgs (F := F)) admH p) c
  | ⟨0, _⟩ => fun c => dat0 (VW5 m ρ) c
  | ⟨1, _⟩ => fun c => dat1 (VW7 m ρ) c
  | ⟨2, _⟩ => fun c => dat2 (VW8 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W9`, the generator register at some state. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- CALL 0 as a segment: entered from every unscoped buffer at `W5`, left at `W6`. Its arrays are split out of
    the unscoped buffers and put back at the exit contents; the generator register goes into the invariant and comes
    back; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (VW5 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VW5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VW5 m ρ c) (VW6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 as a segment: entered from every unscoped buffer at `W7`, left at `W8`. Its arrays are split out of
    the unscoped buffers and put back at the exit contents; the generator register goes into the invariant and comes
    back; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (VW7 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VW7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VW7 m ρ c) (VW8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 as a segment: entered from every unscoped buffer at `W8`, left at `W9`. Its arrays are split out of
    the unscoped buffers and put back at the exit contents; the generator register goes into the invariant and comes
    back; nothing is owed; the kernel has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VW8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VW8 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (VW8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (VW8 m ρ) c).Φ 0 from rfl]
    exact phi2_in (VW8 m ρ) c _
  hout c := by
    rw [Pipeline.ownSems0_none, show (pdats m ρ 2 c).Φ (Fin.last _) = (dat2 (VW8 m ρ) c).Φ (Fin.last _) from rfl]
    exact phi2_out (VW8 m ρ) c
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (VW8 m ρ c) (VW9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .region (reg2 m ρ) ]

theorem main_run (c : Dev nD) : main (F := F) c = Pipeline.Seg.run (segsH m ρ) := (main_chain c).trans (by chain_rfl)

set_option backward.isDefEq.respectTransparency.types false in
/-- THE RUN: from any memory with zero counters every weakly fair execution of @main terminates, nothing faulting,
    and every final state has every unscoped buffer of every core at `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c)⟩) (run m ρ)

/-- THE RESULT: the run again, with the output array of call 2 named: what the pool's last grid point wrote back. -/
theorem run_result : θ_run defs (onTc (τ := τ) (main (F := F))) ⟨m, fun _ => 0, ρ⟩ (fun r => ∀ c : Dev nD,
      r.2.mem ((c.tc : Thread nD τ).loc main_v47) = (dat2 (VW8 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v47 (by decide))).trans (W9_arr m ρ c 4),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c)⟩) (run m ρ)

end Cert.KernelIdeal.Hand

end
-- ==== Proof.Spec.lean ====
/-
  The mathematics of the two programs, over the extended reals, in three small functions.

  * `segSum z row u n`: the segment sum `z + Σ_{e : row e = n} u e` — what a scatter-add of the updates `u`
    at the signed row numbers `row` leaves at row `n` of an operand filled with `z`.
  * `meanAt z one row u n`: that sum divided by the number of contributing positions, the count itself a
    segment sum of `one`s, floored at `one`: the mean aggregation of a graph-convolution layer, and equally
    the mean pool over the graphs of a batch.
  * `layerAt mean h Wl Wr bl z j`: column `j` of one node's layer output,
    `max (Σ_k mean k · Wl k j + bl j + Σ_k h k · Wr k j) z`.
-/
import Idealize.ShloMosaic.Lib.ValueIdx
import Idealize.ShloMosaic.PureOps.Ideal.Laws

noncomputable section

open scoped BigOperators

namespace Cert.Sage

open Idealize.ShloMosaic

/-- `z + Σ_{e : row e = n} u e`: row `n` of a scatter-add into an operand filled with `z`. -/
def segSum {E : ℕ} (z : EReal) (row : Fin E → ℤ) (u : Fin E → EReal) (n : ℕ) : EReal :=
  z + ∑ e ∈ Finset.univ.filter (fun e : Fin E => row e = (n : ℤ)), u e

/-- The segment sum over the segment's size, the size floored at `one`. -/
def meanAt {E : ℕ} (z one : EReal) (row : Fin E → ℤ) (u : Fin E → EReal) (n : ℕ) : EReal :=
  Ideal.div (segSum z row u n) (max (segSum z row (fun _ => one) n) one)

/-- One node's layer output at column `j`: the aggregated row through `Wl`, the bias, the node's own row
    through `Wr`, floored at `z`. -/
def layerAt {D : ℕ} (mean h : Fin D → EReal) (Wl Wr : Fin D → Fin D → EReal) (bl : Fin D → EReal)
    (z : EReal) (j : Fin D) : EReal :=
  max ((∑ k, mean k * Wl k j) + bl j + ∑ k, h k * Wr k j) z

/-- Two segment sums agree when their fills agree and their updates agree on the contributing positions. -/
theorem segSum_congr {E : ℕ} {z z' : EReal} {row : Fin E → ℤ} {u u' : Fin E → EReal} {n : ℕ} (hz : z = z')
    (hu : ∀ e, row e = (n : ℤ) → u e = u' e) : segSum z row u n = segSum z' row u' n := by
  unfold segSum
  rw [hz]
  congr 1
  exact Finset.sum_congr rfl fun e he => hu e (Finset.mem_filter.mp he).2

/-- Two means agree when their fills agree and their updates agree on the contributing positions. -/
theorem meanAt_congr {E : ℕ} {z z' one one' : EReal} {row : Fin E → ℤ} {u u' : Fin E → EReal} {n : ℕ}
    (hz : z = z') (ho : one = one') (hu : ∀ e, row e = (n : ℤ) → u e = u' e) :
    meanAt z one row u n = meanAt z' one' row u' n := by
  unfold meanAt
  rw [segSum_congr hz hu, segSum_congr (u' := fun _ => one') hz (fun _ _ => ho), ho]

/-! ## The edge list and the constants

  The edge list is an integer array `[2, 1600000]`: row 0 the sources, row 1 the destinations, read signed. -/

/-- The float zero and one of both programs, as the extended reals their words denote. -/
abbrev z : EReal := Ideal.ofBits .f32 0x00000000#32
abbrev one : EReal := Ideal.ofBits .f32 0x3F800000#32

/-- Edge `e`'s source node number, read signed. -/
def srcInt (ei : IVec ⟨2, ![2, 1600000]⟩ 32) (e : Fin 1600000) : ℤ := (ei (ValueIdx.ix2 (0 : Fin 2) e)).toInt
/-- Edge `e`'s destination node number, read signed. -/
def dstInt (ei : IVec ⟨2, ![2, 1600000]⟩ 32) (e : Fin 1600000) : ℤ := (ei (ValueIdx.ix2 (1 : Fin 2) e)).toInt

/-- A rank-2 array as a table of rows, a rank-1 array as a function of its position. -/
abbrev tab {N D : ℕ} (x : (⟨2, ![N, D]⟩ : Shape).Idx → EReal) : Fin N → Fin D → EReal := fun n k => x (ValueIdx.ix2 n k)
abbrev vec {D : ℕ} (x : (⟨1, ![D]⟩ : Shape).Idx → EReal) : Fin D → EReal := fun j => x (ValueIdx.ix1 j)

/-! ## Whole layers over a node-feature table of `N` rows

  `h : Fin N → Fin D → EReal` is a table of node features, `dst e` the signed destination row of edge `e` and
  `srow e` the row of the table its source reads. -/

/-- Row `n`, column `k` of the mean aggregation of `h`: the mean of `h (srow e) k` over the edges into `n`. -/
def meanRows {N E D : ℕ} (z one : EReal) (dst : Fin E → ℤ) (srow : Fin E → Fin N) (h : Fin N → Fin D → EReal)
    (n : ℕ) (k : Fin D) : EReal :=
  meanAt z one dst (fun e => h (srow e) k) n

/-- Row `n`, column `j` of one layer applied to the table `h`. -/
def layerRows {N E D : ℕ} (z one : EReal) (dst : Fin E → ℤ) (srow : Fin E → Fin N) (h : Fin N → Fin D → EReal)
    (Wl Wr : Fin D → Fin D → EReal) (bl : Fin D → EReal) (n : Fin N) (j : Fin D) : EReal :=
  layerAt (meanRows z one dst srow h n.val) (h n) Wl Wr bl z j

/-- A layer over a longer table agrees with the layer over a shorter one on the shorter one's rows, when the
    two tables agree there and every edge's source reads the same row, a row of the shorter table, in both. -/
theorem layerRows_eq_of_agree {N N' E D : ℕ} (z one : EReal) (dst : Fin E → ℤ) (srow : Fin E → Fin N)
    (srow' : Fin E → Fin N') (h : Fin N → Fin D → EReal) (h' : Fin N' → Fin D → EReal)
    (Wl Wr : Fin D → Fin D → EReal) (bl : Fin D → EReal)
    (hs : ∀ e, (srow e).val = (srow' e).val)
    (hh : ∀ (a : Fin N) (a' : Fin N'), a.val = a'.val → h a = h' a')
    (n : Fin N) (n' : Fin N') (hn : n.val = n'.val) (j : Fin D) :
    layerRows z one dst srow h Wl Wr bl n j = layerRows z one dst srow' h' Wl Wr bl n' j := by
  unfold layerRows layerAt meanRows
  rw [hh n n' hn, hn]
  have hm : ∀ k, meanAt z one dst (fun e => h (srow e) k) n'.val = meanAt z one dst (fun e => h' (srow' e) k) n'.val :=
    fun k => meanAt_congr rfl rfl fun e _ => by rw [hh (srow e) (srow' e) (hs e)]
  simp only [hm]

end Cert.Sage

end
-- ==== Proof.PoolMath.lean ====
import Mathlib.Data.EReal.Basic
import Mathlib.Algebra.BigOperators.Fin
import Mathlib.Algebra.BigOperators.Intervals

/-!
Sums over the extended reals used by the pooling step.

* `blockAcc`: a running total built block by block (the first block is added to a
  starting value, each later block is added to the previous total) equals the starting
  value plus one sum over all rows.
* A sum of `indicator * value` over `Fin N`, where the indicator is one exactly on the
  rows below `N'` that satisfy a predicate and zero elsewhere, equals the sum of the
  values over the rows of `Fin N'` satisfying the predicate.
-/

namespace Cert.Sage

open Finset

/-- Running total over blocks of `B` consecutive rows: block `0` is added to `z`,
block `n + 1` is added to the total after block `n`. -/
noncomputable def blockAcc (B : ℕ) (z : EReal) (f : ℕ → EReal) : ℕ → EReal
  | 0 => z + ∑ r : Fin B, f r.val
  | n + 1 => blockAcc B z f n + ∑ r : Fin B, f ((n + 1) * B + r.val)

/-- The running total after block `n`, as one sum over `range ((n + 1) * B)`. -/
theorem blockAcc_eq_range (B : ℕ) (z : EReal) (f : ℕ → EReal) (n : ℕ) :
    blockAcc B z f n = z + ∑ i ∈ range ((n + 1) * B), f i := by
  induction n with
  | zero =>
    simp only [blockAcc, Fin.sum_univ_eq_sum_range, Nat.zero_add, Nat.one_mul]
  | succ n ih =>
    rw [blockAcc, ih, Fin.sum_univ_eq_sum_range (fun r => f ((n + 1) * B + r)) B,
      Nat.add_mul (n + 1) 1 B, Nat.one_mul, Finset.sum_range_add, add_assoc]

/-- The running total after block `n`, as one sum over `Fin ((n + 1) * B)`. -/
theorem blockAcc_eq (B : ℕ) (z : EReal) (f : ℕ → EReal) (n : ℕ) :
    blockAcc B z f n = z + ∑ i : Fin ((n + 1) * B), f i.val := by
  rw [blockAcc_eq_range, Fin.sum_univ_eq_sum_range]

/-- Twenty-five blocks of 4096 rows cover 102400 rows. -/
theorem blockAcc_25 (z : EReal) (f : ℕ → EReal) :
    blockAcc 4096 z f 24 = z + ∑ i : Fin 102400, f i.val :=
  blockAcc_eq 4096 z f 24

/-- Same, over `range 102400`. -/
theorem blockAcc_25_range (z : EReal) (f : ℕ → EReal) :
    blockAcc 4096 z f 24 = z + ∑ i ∈ range 102400, f i :=
  blockAcc_eq_range 4096 z f 24

/-- A sum of `ind * v` over `Fin N`, with `ind` equal to one on the rows below `N'`
satisfying `P` and zero on all other rows, and `v` agreeing with `v'` on the former,
is the sum of `v'` over the rows of `Fin N'` satisfying `P`. -/
theorem sum_ind_mul_eq_filter {N N' : ℕ} (hN : N' ≤ N) (ind v : Fin N → EReal)
    (P : Fin N' → Prop) [DecidablePred P] (v' : Fin N' → EReal)
    (h1 : ∀ (n : Fin N) (h : n.val < N'), P ⟨n.val, h⟩ → ind n = 1)
    (h0 : ∀ n : Fin N, (∀ h : n.val < N', ¬ P ⟨n.val, h⟩) → ind n = 0)
    (hv : ∀ (n : Fin N) (h : n.val < N'), P ⟨n.val, h⟩ → v n = v' ⟨n.val, h⟩) :
    ∑ n : Fin N, ind n * v n = ∑ n ∈ Finset.univ.filter P, v' n := by
  -- both sides are sums of one function `g` of the row number
  let g : ℕ → EReal :=
    fun k => if h : k < N' then (if P ⟨k, h⟩ then v' ⟨k, h⟩ else 0) else 0
  have hL : ∀ n : Fin N, ind n * v n = g n.val := by
    intro n
    by_cases h : n.val < N'
    · by_cases hp : P ⟨n.val, h⟩
      · simp only [g, dif_pos h, if_pos hp]
        rw [h1 n h hp, hv n h hp, one_mul]
      · have hz : ind n = 0 := h0 n (fun _ => hp)
        simp only [g, dif_pos h, if_neg hp]
        rw [hz, zero_mul]
    · have hz : ind n = 0 := h0 n (fun h' => absurd h' h)
      simp only [g, dif_neg h]
      rw [hz, zero_mul]
  have hR : ∀ n : Fin N', (if P n then v' n else 0) = g n.val := by
    intro n
    simp only [g, dif_pos n.isLt, Fin.eta]
  rw [Finset.sum_filter, Finset.sum_congr rfl (fun n _ => hL n),
    Finset.sum_congr rfl (fun n _ => hR n),
    Fin.sum_univ_eq_sum_range g N, Fin.sum_univ_eq_sum_range g N']
  symm
  apply Finset.sum_subset (Finset.range_mono hN)
  intro k _ hk
  have hk' : ¬ k < N' := by simpa using hk
  simp only [g, dif_neg hk']

/-- The count form: the sum of the indicator alone is the number of rows of `Fin N'`
satisfying `P` (as a sum of ones). -/
theorem sum_ind_eq_filter {N N' : ℕ} (hN : N' ≤ N) (ind : Fin N → EReal)
    (P : Fin N' → Prop) [DecidablePred P]
    (h1 : ∀ (n : Fin N) (h : n.val < N'), P ⟨n.val, h⟩ → ind n = 1)
    (h0 : ∀ n : Fin N, (∀ h : n.val < N', ¬ P ⟨n.val, h⟩) → ind n = 0) :
    ∑ n : Fin N, ind n = ∑ n ∈ Finset.univ.filter P, (1 : EReal) := by
  have h := sum_ind_mul_eq_filter hN ind (fun _ => 1) P (fun _ => 1) h1 h0
    (fun _ _ _ => rfl)
  simpa only [mul_one] using h

end Cert.Sage
-- ==== Proof.KI.Val2.lean ====
/-
  The value of the pooling call's output at the ideal values, as a block accumulation.

  * The body's arithmetic at an index: the one-hot weight of a row for a graph (`onehot2_apply`), a row's logits
    (`logits2_apply`), the pooling product as a sum over the block's rows (`poolmm2_apply`), so the two updates
    (`pay5_apply`, `pay6_apply`), the two fills (`pay2_apply`, `pay3_apply`) and the final quotient (`pay1_apply`).
  * The blocks: point `t` sees rows `4096 t …` of the node features and of the graph ids, and the weights and the bias
    whole.
  * The two accumulators after point `n` are the block accumulations over the rows seen so far (`sc2_6_apply`,
    `sc2_7_apply`); the output is their quotient, the count floored at one (`out2_apply`).
-/
import proofs.«421121_j36687610642889_1_alg».proof.Proof.KI.R2
import proofs.«421121_j36687610642889_1_alg».proof.Proof.Spec
import proofs.«421121_j36687610642889_1_alg».proof.Proof.PoolMath
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The one-hot weight -/

/-- The weight of a graph-id word `w` for graph `g`: the comparison bit of `w` with `g`'s word, widened and read
    as a signed integer. -/
def hot2 (w : BitVec 32) (g : Fin 64) : EReal :=
  ((((IntOp.cmpi .eq w (BitVec.ofNat 32 g.val)).setWidth 32).toInt : ℝ) : EReal)

/-- It is one on `g`'s own word … -/
theorem hot2_one (w : BitVec 32) (g : Fin 64) (h : w = BitVec.ofNat 32 g.val) : hot2 w g = 1 := by
  have e : IntOp.cmpi .eq w (BitVec.ofNat 32 g.val) = 1#1 := by
    unfold IntOp.cmpi; simp [h]
  have e' : ((1#1 : BitVec 1).setWidth 32).toInt = 1 := by decide
  unfold hot2
  rw [e, e']
  simp

/-- … and zero on every other word. -/
theorem hot2_zero (w : BitVec 32) (g : Fin 64) (h : w ≠ BitVec.ofNat 32 g.val) : hot2 w g = 0 := by
  have e : IntOp.cmpi .eq w (BitVec.ofNat 32 g.val) = 0#1 := by
    show BitVec.ofBool (w == BitVec.ofNat 32 g.val) = 0#1
    rw [beq_eq_false_iff_ne.mpr h]; rfl
  have e' : ((0#1 : BitVec 1).setWidth 32).toInt = 0 := by decide
  unfold hot2
  rw [e, e']
  simp

/-- The one-hot matrix of a block of graph ids at (row `r`, graph `g`). -/
theorem onehot2_apply (ids : Vec Ideal S4096x1 .i32) (r : Fin 4096) (g : Fin 64) :
    k2_pay4 (F := Ideal) ids (ix2 r g) = hot2 (ids (ix2 r (0 : Fin 1))) g := by
  have e1 : broadcastTo S4096x64 (shapeCast S4096x1 ids shapeCasts_S4096x1_S4096x1) broadcasts_S4096x1_S4096x64 (ix2 r g)
      = ids (ix2 r (0 : Fin 1)) := by
    rw [shapeCast_self]
    exact broadcastTo_apply _ broadcasts_S4096x1_S4096x64 (ix2 r g) (ix2 r (0 : Fin 1)) (fun a => by
      match a with
      | ⟨0, _⟩ => show r.val = if (4096 : ℕ) = 1 then 0 else r.val; rw [if_neg (by decide)]
      | ⟨1, _⟩ => show (0 : ℕ) = if (1 : ℕ) = 1 then 0 else g.val; rw [if_pos rfl])
  have e2 : iota .tc S4096x64 32 [1] iota_S4096x64_d1_w32 (ix2 r g) = BitVec.ofNat 32 g.val :=
    iota_single_apply .tc S4096x64 32 1 iota_S4096x64_d1_w32 (ix2 r g)
  unfold k2_pay4 hot2
  show (((((IntOp.cmpi .eq
      (broadcastTo S4096x64 (shapeCast S4096x1 ids shapeCasts_S4096x1_S4096x1) broadcasts_S4096x1_S4096x64 (ix2 r g))
      (iota .tc S4096x64 32 [1] iota_S4096x64_d1_w32 (ix2 r g))).setWidth 32).toInt : ℝ) : EReal)) = _
  rw [e1, e2]

/-! ## The two matrix products -/

theorem lhsL2_0 (i : S4096x10.Idx) (q : dot_S4096x128_S128x10_S4096x10_1_0_0_1_n_n.contr.Idx) :
    (dot_S4096x128_S128x10_S4096x10_1_0_0_1_n_n.lhsIdx i q 0).val = (i 0).val := by
  unfold DotDims.lhsIdx
  rw [dif_neg (show ¬(0 : Fin S4096x128.rank) ∈ dot_S4096x128_S128x10_S4096x10_1_0_0_1_n_n.lhsBatch by decide), dif_pos (show (0 : Fin S4096x128.rank) ∈ dot_S4096x128_S128x10_S4096x10_1_0_0_1_n_n.lhsNonContracting by decide)]
  rfl
theorem lhsL2_1 (i : S4096x10.Idx) (q : dot_S4096x128_S128x10_S4096x10_1_0_0_1_n_n.contr.Idx) :
    (dot_S4096x128_S128x10_S4096x10_1_0_0_1_n_n.lhsIdx i q 1).val = (q ⟨0, by decide⟩).val :=
  dot_S4096x128_S128x10_S4096x10_1_0_0_1_n_n.lhsIdx_val_of_single rfl i q
theorem rhsL2_0 (i : S4096x10.Idx) (q : dot_S4096x128_S128x10_S4096x10_1_0_0_1_n_n.contr.Idx) :
    (dot_S4096x128_S128x10_S4096x10_1_0_0_1_n_n.rhsIdx i q 0).val = (q ⟨0, by decide⟩).val :=
  dot_S4096x128_S128x10_S4096x10_1_0_0_1_n_n.rhsIdx_val_of_single rfl i q
theorem rhsL2_1 (i : S4096x10.Idx) (q : dot_S4096x128_S128x10_S4096x10_1_0_0_1_n_n.contr.Idx) :
    (dot_S4096x128_S128x10_S4096x10_1_0_0_1_n_n.rhsIdx i q 1).val = (i 1).val := by
  unfold DotDims.rhsIdx
  rw [dif_neg (show ¬(1 : Fin S128x10.rank) ∈ dot_S4096x128_S128x10_S4096x10_1_0_0_1_n_n.rhsBatch by decide), dif_pos (show (1 : Fin S128x10.rank) ∈ dot_S4096x128_S128x10_S4096x10_1_0_0_1_n_n.rhsNonContracting by decide)]
  rfl

/-- The logits' product into a zero accumulator at (row `r`, class `j`): the sum over `k` of the features at
    `(r, k)` times the weights at `(k, j)`. -/
theorem mmL2_apply (a : FVec Ideal S4096x128 .bf16) (b : FVec Ideal S128x10 .bf16) (r : Fin 4096) (j : Fin 10) :
    matmul dot_S4096x128_S128x10_S4096x10_1_0_0_1_n_n none a b (constant (F := Ideal) S4096x10 .f32 0x00000000#32) (ix2 r j)
      = ∑ k : Fin 128, a (ix2 r k) * b (ix2 k j) := by
  simp only [matmul]
  rw [Ideal.matmul_constant_zero_apply, ← Equiv.sum_comp (contrEquiv1 dot_S4096x128_S128x10_S4096x10_1_0_0_1_n_n 128 rfl rfl).symm]
  refine Finset.sum_congr rfl fun k _ => ?_
  have hk := contrEquiv1_symm_val dot_S4096x128_S128x10_S4096x10_1_0_0_1_n_n 128 rfl rfl k
  have el : dot_S4096x128_S128x10_S4096x10_1_0_0_1_n_n.lhsIdx (ix2 r j) ((contrEquiv1 dot_S4096x128_S128x10_S4096x10_1_0_0_1_n_n 128 rfl rfl).symm k) = ix2 r k := funext fun a => Fin.ext (by
    match a with
    | ⟨0, _⟩ => exact lhsL2_0 _ _
    | ⟨1, _⟩ => exact (lhsL2_1 _ _).trans hk)
  have er : dot_S4096x128_S128x10_S4096x10_1_0_0_1_n_n.rhsIdx (ix2 r j) ((contrEquiv1 dot_S4096x128_S128x10_S4096x10_1_0_0_1_n_n 128 rfl rfl).symm k) = ix2 k j := funext fun a => Fin.ext (by
    match a with
    | ⟨0, _⟩ => exact (rhsL2_0 _ _).trans hk
    | ⟨1, _⟩ => exact rhsL2_1 _ _)
  rw [el, er]

theorem lhsP2_0 (i : S64x10.Idx) (q : dot_S4096x64_S4096x10_S64x10_0_0_1_1_n_n.contr.Idx) :
    (dot_S4096x64_S4096x10_S64x10_0_0_1_1_n_n.lhsIdx i q 0).val = (q ⟨0, by decide⟩).val :=
  dot_S4096x64_S4096x10_S64x10_0_0_1_1_n_n.lhsIdx_val_of_single rfl i q
theorem lhsP2_1 (i : S64x10.Idx) (q : dot_S4096x64_S4096x10_S64x10_0_0_1_1_n_n.contr.Idx) :
    (dot_S4096x64_S4096x10_S64x10_0_0_1_1_n_n.lhsIdx i q 1).val = (i 0).val := by
  unfold DotDims.lhsIdx
  rw [dif_neg (show ¬(1 : Fin S4096x64.rank) ∈ dot_S4096x64_S4096x10_S64x10_0_0_1_1_n_n.lhsBatch by decide), dif_pos (show (1 : Fin S4096x64.rank) ∈ dot_S4096x64_S4096x10_S64x10_0_0_1_1_n_n.lhsNonContracting by decide)]
  rfl
theorem rhsP2_0 (i : S64x10.Idx) (q : dot_S4096x64_S4096x10_S64x10_0_0_1_1_n_n.contr.Idx) :
    (dot_S4096x64_S4096x10_S64x10_0_0_1_1_n_n.rhsIdx i q 0).val = (q ⟨0, by decide⟩).val :=
  dot_S4096x64_S4096x10_S64x10_0_0_1_1_n_n.rhsIdx_val_of_single rfl i q
theorem rhsP2_1 (i : S64x10.Idx) (q : dot_S4096x64_S4096x10_S64x10_0_0_1_1_n_n.contr.Idx) :
    (dot_S4096x64_S4096x10_S64x10_0_0_1_1_n_n.rhsIdx i q 1).val = (i 1).val := by
  unfold DotDims.rhsIdx
  rw [dif_neg (show ¬(1 : Fin S4096x10.rank) ∈ dot_S4096x64_S4096x10_S64x10_0_0_1_1_n_n.rhsBatch by decide), dif_pos (show (1 : Fin S4096x10.rank) ∈ dot_S4096x64_S4096x10_S64x10_0_0_1_1_n_n.rhsNonContracting by decide)]
  rfl

/-- The pooling product into a zero accumulator at (graph `g`, class `j`): both operands are contracted along their
    rows, so it is the sum over the block's rows `r` of the left at `(r, g)` times the right at `(r, j)`. -/
theorem poolmm2_apply (a : FVec Ideal S4096x64 .bf16) (b : FVec Ideal S4096x10 .bf16) (g : Fin 64) (j : Fin 10) :
    matmul dot_S4096x64_S4096x10_S64x10_0_0_1_1_n_n none a b (constant (F := Ideal) S64x10 .f32 0x00000000#32) (ix2 g j)
      = ∑ r : Fin 4096, a (ix2 r g) * b (ix2 r j) := by
  simp only [matmul]
  rw [Ideal.matmul_constant_zero_apply, ← Equiv.sum_comp (contrEquiv1 dot_S4096x64_S4096x10_S64x10_0_0_1_1_n_n 4096 rfl rfl).symm]
  refine Finset.sum_congr rfl fun r _ => ?_
  have hr := contrEquiv1_symm_val dot_S4096x64_S4096x10_S64x10_0_0_1_1_n_n 4096 rfl rfl r
  have el : dot_S4096x64_S4096x10_S64x10_0_0_1_1_n_n.lhsIdx (ix2 g j) ((contrEquiv1 dot_S4096x64_S4096x10_S64x10_0_0_1_1_n_n 4096 rfl rfl).symm r) = ix2 r g := funext fun a => Fin.ext (by
    match a with
    | ⟨0, _⟩ => exact (lhsP2_0 _ _).trans hr
    | ⟨1, _⟩ => exact lhsP2_1 _ _)
  have er : dot_S4096x64_S4096x10_S64x10_0_0_1_1_n_n.rhsIdx (ix2 g j) ((contrEquiv1 dot_S4096x64_S4096x10_S64x10_0_0_1_1_n_n 4096 rfl rfl).symm r) = ix2 r j := funext fun a => Fin.ext (by
    match a with
    | ⟨0, _⟩ => exact (rhsP2_0 _ _).trans hr
    | ⟨1, _⟩ => exact rhsP2_1 _ _)
  rw [el, er]

/-- The bias, a `[10]` row taken as `[1, 10]` and laid under every one of the 4096 rows, read at `(r, j)` is the bias
    at `j`. -/
theorem bias2_apply {α : Type} (v : S10.Idx → α) (r : Fin 4096) (j : Fin 10) :
    broadcastTo S4096x10 (shapeCast S1x10 v shapeCasts_S10_S1x10) broadcasts_S1x10_S4096x10 (ix2 r j) = v (ix1 j) := by
  rw [broadcastTo_apply _ broadcasts_S1x10_S4096x10 (ix2 r j) (ix2 (0 : Fin 1) j) (fun a => by
    match a with
    | ⟨0, _⟩ => show (0 : ℕ) = if (1 : ℕ) = 1 then 0 else r.val; rw [if_pos rfl]
    | ⟨1, _⟩ => show j.val = if (10 : ℕ) = 1 then 0 else j.val; rw [if_neg (by decide)])]
  exact shapeCast_apply v shapeCasts_S10_S1x10 (ix2 (0 : Fin 1) j) (ix1 j) (by
    rw [Shape.rowMajor_val_one, Shape.rowMajor_val_two]
    show j.val = 0 * 10 + j.val
    omega)

/-! ## The payloads at an index -/

/-- A row's logits: its features through the weights, plus the bias. -/
def logitRow (x : Fin 128 → EReal) (W : Fin 128 → Fin 10 → EReal) (b : Fin 10 → EReal) (j : Fin 10) : EReal :=
  (∑ k : Fin 128, x k * W k j) + b j

/-- The sum accumulator's update at (graph `g`, class `j`): what it held plus the sum over the block's rows of the
    row's weight for `g` times the row's logit for `j`. -/
theorem pay5_apply (x0 : Vec Ideal S4096x128 .f32) (wf : Vec Ideal S128x10 .f32) (bf : Vec Ideal S10 .f32)
    (ids : Vec Ideal S4096x1 .i32) (old : Vec Ideal S64x10 .f32) (g : Fin 64) (j : Fin 10) :
    k2_pay5 (F := Ideal) x0 wf bf ids old (ix2 g j)
      = old (ix2 g j) + ∑ r : Fin 4096, hot2 (ids (ix2 r (0 : Fin 1))) g
          * logitRow (fun k => x0 (ix2 r k)) (Cert.Sage.tab wf) (Cert.Sage.vec bf) j := by
  unfold k2_pay5
  simp only [shapeCast_self]
  rw [addf_apply, poolmm2_apply]
  refine congrArg (old (ix2 g j) + ·) (Finset.sum_congr rfl fun r _ => ?_)
  rw [truncf_apply, truncf_apply, onehot2_apply, addf_apply, mmL2_apply, bias2_apply]
  rfl

/-- The lane sum of the one-hot matrix over a block's rows, at graph `g`. -/
theorem lanesum2_apply (v : FVec Ideal S4096x64 .f32) (hφ : FKind.Formats .f32)
    (hacc : (0x00000000#32 : BitVec 32) = 0x00000000#32) (g : Fin 64) :
    multiReduction (F := Ideal) .add [0] S64 v 0x00000000#32 reduces_S4096x64_S64 hφ hacc (ix1 g)
      = ∑ r : Fin 4096, v (ix2 r g) := by
  refine (Ideal.multiReduction_add_single v 0x00000000#32 reduces_S4096x64_S64 hφ hacc (ix1 g)).trans ?_
  refine Finset.sum_congr rfl fun r _ => congrArg v (funext fun a => Fin.ext ?_)
  match a with
  | ⟨0, _⟩ => rfl
  | ⟨1, _⟩ => rfl

/-- The count accumulator's update at graph `g`: what it held plus the sum over the block's rows of the row's weight
    for `g`. -/
theorem pay6_apply (ids : Vec Ideal S4096x1 .i32) (old : Vec Ideal S64x1 .f32) (g : Fin 64) :
    k2_pay6 (F := Ideal) ids old (ix2 g (0 : Fin 1))
      = old (ix2 g (0 : Fin 1)) + ∑ r : Fin 4096, hot2 (ids (ix2 r (0 : Fin 1))) g := by
  unfold k2_pay6
  simp only [shapeCast_self]
  rw [addf_apply]
  refine congrArg (old (ix2 g (0 : Fin 1)) + ·) ?_
  refine (shapeCast_apply _ shapeCasts_S64_S64x1 (ix2 g (0 : Fin 1)) (ix1 g) (by
    rw [Shape.rowMajor_val_one, Shape.rowMajor_val_two]
    show g.val = g.val * 1 + 0
    omega)).trans ?_
  refine (lanesum2_apply _ _ _ g).trans ?_
  exact Finset.sum_congr rfl fun r _ => onehot2_apply ids r g

/-- The two fills read the float zero everywhere. -/
theorem pay2_apply (g : Fin 64) (j : Fin 10) : (k2_pay2 (F := Ideal)) (ix2 g j) = Cert.Sage.z := by
  unfold k2_pay2
  simp only [shapeCast_self]
  rfl
theorem pay3_apply (g : Fin 64) : (k2_pay3 (F := Ideal)) (ix2 g (0 : Fin 1)) = Cert.Sage.z := by
  unfold k2_pay3
  simp only [shapeCast_self]
  rfl

/-- The output at (graph `g`, class `j`): the sum over the count, the count floored at one. -/
theorem pay1_apply (s : Vec Ideal S64x10 .f32) (n : Vec Ideal S64x1 .f32) (g : Fin 64) (j : Fin 10) :
    k2_pay1 (F := Ideal) s n (ix2 g j) = Ideal.div (s (ix2 g j)) (max (n (ix2 g (0 : Fin 1))) Cert.Sage.one) := by
  unfold k2_pay1
  rw [divf_apply]
  refine congrArg (Ideal.div (s (ix2 g j))) ?_
  refine (broadcastTo_apply _ broadcasts_S64x1_S64x10 (ix2 g j) (ix2 g (0 : Fin 1)) (fun a => by
    match a with
    | ⟨0, _⟩ => show g.val = if (64 : ℕ) = 1 then 0 else g.val; rw [if_neg (by decide)]
    | ⟨1, _⟩ => show (0 : ℕ) = if (1 : ℕ) = 1 then 0 else j.val; rw [if_pos rfl])).trans ?_
  rfl

/-! ## The blocks -/

/-- The windows' index maps at every grid point `t`: the feature window and the id window are at block row `t`, column
    block 0; the weights and the bias are at block 0. -/
theorem v2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0 :=
  (by decide +kernel : ∀ t : Fin grid2.N, _)

section Blocks

variable {F : FTy → Type} [FloatOps F]
variable (V : (c : Dev nD) → (b : Ref sig .tc) → Buf (Elt F) ((c : Thread nD τ).loc b))

/-- The node features' block at point `t`, read at `(p, k)`, is the array at row `4096 t + p`. -/
theorem v2_blk0_apply (c : Dev nD) (t : Fin cfg2.N) (p : Fin 4096) (k : Fin 128) (n : Fin 102400)
    (hn : n.val = 4096 * t.val + p.val) :
    (iblk2 V c 0 t : Vec F S4096x128 .f32) (ix2 p k) = (V c main_v46 : S102400x128.Idx → Elt F .f32) (ix2 n k) := by
  obtain ⟨e0, e1, -⟩ := v2_idx t
  unfold iblk2
  rw [View.read_apply]
  show V c main_v46 _ = V c main_v46 _
  congr 1
  funext a
  apply Fin.ext
  match a with
  | ⟨0, _⟩ => show win2_0.index t (0 : Fin 2) * 4096 + 1 * p.val = n.val; rw [e0, hn]; omega
  | ⟨1, _⟩ => show win2_0.index t (1 : Fin 2) * 128 + 1 * k.val = k.val; rw [e1]; omega

/-- The graph ids' block at point `t`, read at `(p, 0)`, is the array at row `4096 t + p`. -/
theorem v2_blk1_apply (c : Dev nD) (t : Fin cfg2.N) (p : Fin 4096) (n : Fin 102400)
    (hn : n.val = 4096 * t.val + p.val) :
    (iblk2 V c 1 t : Vec F S4096x1 .i32) (ix2 p (0 : Fin 1)) = (V c main_v6 : S102400x1.Idx → Elt F .i32) (ix2 n (0 : Fin 1)) := by
  obtain ⟨-, -, e0, e1, -⟩ := v2_idx t
  unfold iblk2
  rw [View.read_apply]
  show V c main_v6 _ = V c main_v6 _
  congr 1
  funext a
  apply Fin.ext
  match a with
  | ⟨0, _⟩ => show win2_1.index t (0 : Fin 2) * 4096 + 1 * p.val = n.val; rw [e0, hn]; omega
  | ⟨1, _⟩ => show win2_1.index t (1 : Fin 2) * 1 + 1 * 0 = 0; rw [e1]

/-- The weights' block, at every point, is the matrix. -/
theorem v2_blk2_eq (c : Dev nD) (t : Fin cfg2.N) :
    (iblk2 V c 2 t : Vec F S128x10 .f32) = (V c main_arg9 : S128x10.Idx → Elt F .f32) := by
  obtain ⟨-, -, -, -, e0, e1, -⟩ := v2_idx t
  funext y
  unfold iblk2
  rw [View.read_apply]
  show V c main_arg9 _ = V c main_arg9 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 10 + 1 * (y 1).val = (y 1).val; rw [e1]; omega

/-- The bias's block, at every point, is the bias. -/
theorem v2_blk3_eq (c : Dev nD) (t : Fin cfg2.N) :
    (iblk2 V c 3 t : Vec F S10 .f32) = (V c main_arg10 : S10.Idx → Elt F .f32) := by
  obtain ⟨-, -, -, -, -, -, e0⟩ := v2_idx t
  funext y
  unfold iblk2
  rw [View.read_apply]
  show V c main_arg10 _ = V c main_arg10 _
  congr 1
  funext a
  apply Fin.ext
  match a with
  | ⟨0, _⟩ => show win2_3.index t (0 : Fin 1) * 10 + 1 * (y 0).val = (y 0).val; rw [e0]; omega

end Blocks

/-! ## One point over blocks that are rows of arrays -/

/-- The sum update at point `m` when the feature block and the id block are rows `4096 m …` of two arrays: what it
    held plus the sum over the block's rows of a function of the ARRAY's row number. -/
theorem point5 (x0 : Vec Ideal S4096x128 .f32) (wf : Vec Ideal S128x10 .f32) (bf : Vec Ideal S10 .f32)
    (ids : Vec Ideal S4096x1 .i32) (old : Vec Ideal S64x10 .f32)
    (a0 : S102400x128.Idx → EReal) (a1 : S102400x1.Idx → BitVec 32) (w : S128x10.Idx → EReal) (b : S10.Idx → EReal)
    (m : ℕ) (hm : m < 25)
    (h0 : ∀ (r : Fin 4096) (k : Fin 128) (n : Fin 102400), n.val = 4096 * m + r.val → x0 (ix2 r k) = a0 (ix2 n k))
    (h1 : ∀ (r : Fin 4096) (n : Fin 102400), n.val = 4096 * m + r.val → ids (ix2 r (0 : Fin 1)) = a1 (ix2 n (0 : Fin 1)))
    (h2 : wf = w) (h3 : bf = b) (g : Fin 64) (j : Fin 10) :
    k2_pay5 (F := Ideal) x0 wf bf ids old (ix2 g j)
      = old (ix2 g j) + ∑ r : Fin 4096, (fun i : ℕ => if h : i < 102400 then
          hot2 (a1 (ix2 (⟨i, h⟩ : Fin 102400) (0 : Fin 1))) g
            * logitRow (fun k => a0 (ix2 (⟨i, h⟩ : Fin 102400) k)) (Cert.Sage.tab w) (Cert.Sage.vec b) j
          else 0) (m * 4096 + r.val) := by
  subst h2 h3
  rw [pay5_apply]
  refine congrArg (old (ix2 g j) + ·) (Finset.sum_congr rfl fun r _ => ?_)
  have hr := r.isLt
  have hlt : m * 4096 + r.val < 102400 := by omega
  have hx : (fun k => x0 (ix2 r k)) = fun k => a0 (ix2 (⟨m * 4096 + r.val, hlt⟩ : Fin 102400) k) :=
    funext fun k => h0 r k ⟨m * 4096 + r.val, hlt⟩ (by show m * 4096 + r.val = 4096 * m + r.val; omega)
  have hi := h1 r ⟨m * 4096 + r.val, hlt⟩ (by show m * 4096 + r.val = 4096 * m + r.val; omega)
  show _ = dite (m * 4096 + r.val < 102400) _ _
  rw [dif_pos hlt, hx, hi]

/-- The count update at point `m`, likewise. -/
theorem point6 (ids : Vec Ideal S4096x1 .i32) (old : Vec Ideal S64x1 .f32) (a1 : S102400x1.Idx → BitVec 32)
    (m : ℕ) (hm : m < 25)
    (h1 : ∀ (r : Fin 4096) (n : Fin 102400), n.val = 4096 * m + r.val → ids (ix2 r (0 : Fin 1)) = a1 (ix2 n (0 : Fin 1)))
    (g : Fin 64) :
    k2_pay6 (F := Ideal) ids old (ix2 g (0 : Fin 1))
      = old (ix2 g (0 : Fin 1)) + ∑ r : Fin 4096, (fun i : ℕ => if h : i < 102400 then
          hot2 (a1 (ix2 (⟨i, h⟩ : Fin 102400) (0 : Fin 1))) g else 0) (m * 4096 + r.val) := by
  rw [pay6_apply]
  refine congrArg (old (ix2 g (0 : Fin 1)) + ·) (Finset.sum_congr rfl fun r _ => ?_)
  have hr := r.isLt
  have hlt : m * 4096 + r.val < 102400 := by omega
  have hi := h1 r ⟨m * 4096 + r.val, hlt⟩ (by show m * 4096 + r.val = 4096 * m + r.val; omega)
  show _ = dite (m * 4096 + r.val < 102400) _ _
  rw [dif_pos hlt, hi]

/-! ## The accumulators and the output -/

variable (V : (c : Dev nD) → (b : Ref sig .tc) → Buf (Elt Ideal) ((c : Thread nD τ).loc b))

/-- Row `n`'s weight for graph `g`: one when the row's graph id is `g`, zero otherwise. -/
def ind2 (c : Dev nD) (n : Fin 102400) (g : Fin 64) : EReal :=
  hot2 ((V c main_v6 : S102400x1.Idx → BitVec 32) (ix2 n (0 : Fin 1))) g

theorem ind2_one (c : Dev nD) (n : Fin 102400) (g : Fin 64)
    (h : (V c main_v6 : S102400x1.Idx → BitVec 32) (ix2 n (0 : Fin 1)) = BitVec.ofNat 32 g.val) : ind2 V c n g = 1 :=
  hot2_one _ g h
theorem ind2_zero (c : Dev nD) (n : Fin 102400) (g : Fin 64)
    (h : (V c main_v6 : S102400x1.Idx → BitVec 32) (ix2 n (0 : Fin 1)) ≠ BitVec.ofNat 32 g.val) : ind2 V c n g = 0 :=
  hot2_zero _ g h

/-- Row `n`'s logit for class `j`: the row's features through the weights, plus the bias. -/
def logit2 (c : Dev nD) (n : Fin 102400) (j : Fin 10) : EReal :=
  logitRow (fun k => (V c main_v46 : S102400x128.Idx → EReal) (ix2 n k)) (Cert.Sage.tab (V c main_arg9 : S128x10.Idx → EReal))
    (Cert.Sage.vec (V c main_arg10 : S10.Idx → EReal)) j

/-- Spelt out: the sum over `k` of the features at `(n, k)` times the weights at `(k, j)`, plus the bias at `j`. -/
theorem logit2_eq (c : Dev nD) (n : Fin 102400) (j : Fin 10) :
    logit2 V c n j = (∑ k : Fin 128, Cert.Sage.tab (V c main_v46 : S102400x128.Idx → EReal) n k
        * Cert.Sage.tab (V c main_arg9 : S128x10.Idx → EReal) k j) + Cert.Sage.vec (V c main_arg10 : S10.Idx → EReal) j := rfl

theorem v2_off0 (r : Fin 4096) : 0 * 4096 + r.val = r.val := by omega

/-- THE SUM ACCUMULATOR after point `n`, at (graph `g`, class `j`): the block accumulation, from the float zero, of
    each row's weight for `g` times its logit for `j`. -/
theorem sc2_6_apply (c : Dev nD) (n : ℕ) (hn : n < 25) (g : Fin 64) (j : Fin 10) :
    sc2_6 (F := Ideal) V c n (ix2 g j)
      = Cert.Sage.blockAcc 4096 Cert.Sage.z
          (fun i => if h : i < 102400 then ind2 V c ⟨i, h⟩ g * logit2 V c ⟨i, h⟩ j else 0) n := by
  induction n with
  | zero =>
    rw [sc2_6_zero]
    refine (point5 (b2_0 V c (pt2 0)) (b2_2 V c (pt2 0)) (b2_3 V c (pt2 0)) (b2_1 V c (pt2 0)) (k2_pay2 (F := Ideal))
      (V c main_v46) (V c main_v6) (V c main_arg9) (V c main_arg10) 0 hn
      (fun r k m hm => v2_blk0_apply V c (pt2 0) r k m (by rw [pt2_val 0 hn]; exact hm))
      (fun r m hm => v2_blk1_apply V c (pt2 0) r m (by rw [pt2_val 0 hn]; exact hm))
      (v2_blk2_eq V c (pt2 0)) (v2_blk3_eq V c (pt2 0)) g j).trans ?_
    rw [pay2_apply]
    simp only [v2_off0]
    rfl
  | succ n ih =>
    rw [sc2_6_succ]
    refine (point5 (b2_0 V c (pt2 (n + 1))) (b2_2 V c (pt2 (n + 1))) (b2_3 V c (pt2 (n + 1))) (b2_1 V c (pt2 (n + 1)))
      (sc2_6 V c n) (V c main_v46) (V c main_v6) (V c main_arg9) (V c main_arg10) (n + 1) hn
      (fun r k m hm => v2_blk0_apply V c (pt2 (n + 1)) r k m (by rw [pt2_val (n + 1) hn]; exact hm))
      (fun r m hm => v2_blk1_apply V c (pt2 (n + 1)) r m (by rw [pt2_val (n + 1) hn]; exact hm))
      (v2_blk2_eq V c (pt2 (n + 1))) (v2_blk3_eq V c (pt2 (n + 1))) g j).trans ?_
    rw [ih (by omega)]
    rfl

/-- THE COUNT ACCUMULATOR after point `n`, at graph `g`: the block accumulation, from the float zero, of each row's
    weight for `g`. -/
theorem sc2_7_apply (c : Dev nD) (n : ℕ) (hn : n < 25) (g : Fin 64) :
    sc2_7 (F := Ideal) V c n (ix2 g (0 : Fin 1))
      = Cert.Sage.blockAcc 4096 Cert.Sage.z (fun i => if h : i < 102400 then ind2 V c ⟨i, h⟩ g else 0) n := by
  induction n with
  | zero =>
    rw [sc2_7_zero]
    refine (point6 (b2_1 V c (pt2 0)) (k2_pay3 (F := Ideal)) (V c main_v6) 0 hn
      (fun r m hm => v2_blk1_apply V c (pt2 0) r m (by rw [pt2_val 0 hn]; exact hm)) g).trans ?_
    rw [pay3_apply]
    simp only [v2_off0]
    rfl
  | succ n ih =>
    rw [sc2_7_succ]
    refine (point6 (b2_1 V c (pt2 (n + 1))) (sc2_7 V c n) (V c main_v6) (n + 1) hn
      (fun r m hm => v2_blk1_apply V c (pt2 (n + 1)) r m (by rw [pt2_val (n + 1) hn]; exact hm)) g).trans ?_
    rw [ih (by omega)]
    rfl

/-- THE OUTPUT at (graph `g`, class `j`): the sum accumulator after the last point over the count accumulator after
    the last point, the count floored at one. -/
theorem out2_apply (c : Dev nD) (g : Fin 64) (j : Fin 10) :
    k2_pay1 (F := Ideal) (sc2_6 V c 24) (sc2_7 V c 24) (ix2 g j)
      = Ideal.div
          (Cert.Sage.blockAcc 4096 Cert.Sage.z
            (fun i => if h : i < 102400 then ind2 V c ⟨i, h⟩ g * logit2 V c ⟨i, h⟩ j else 0) 24)
          (max (Cert.Sage.blockAcc 4096 Cert.Sage.z (fun i => if h : i < 102400 then ind2 V c ⟨i, h⟩ g else 0) 24)
            Cert.Sage.one) := by
  rw [pay1_apply, sc2_6_apply V c 24 (by decide) g j, sc2_7_apply V c 24 (by decide) g]

end Cert.KernelIdeal.Hand

end
-- ==== Proof.KI.Val0.lean ====
/-
  The value of pallas call 0's output array at the ideal values: row `n`, column `j` of the `[102400, 128]`
  result is the layer's arithmetic of row `n` of the aggregated features and of the node features,
  `max (Σ_k mean[n, k] · Wl[k, j] + bl[j] + Σ_k h[n, k] · Wr[k, j]) 0`.

  * The body's arithmetic at an index of a block: the two matrix products as sums over the contracted coordinate
    (`mmK0_apply`), the bias row laid under every row (`biasK0_apply`), so the whole payload (`payK0_apply`).
  * The blocks: point `t` sees rows `4096 t …` of the two feature arrays (`iblkK0_0_apply`, `iblkK0_1_apply`) and the
    weights and bias whole (`iblkK0_2_eq` … `iblkK0_4_eq`), so what it writes back is block `t` of one function of
    the arrays the call is entered with (`flushedK0_eq`); row `r` lies in point `r / 4096`'s block, so the blocks
    cover the array (`coverK0`) and the array ends as that function (`arrK0_eq`, `arr0_apply`).
-/
import proofs.«421121_j36687610642889_1_alg».proof.Proof.KI.R0
import proofs.«421121_j36687610642889_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body's arithmetic at an index -/

theorem lhsK0_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsK0_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsK0_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsK0_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The body's matrix product into a zero accumulator, read at `(p, j)`: the sum over `k` of the left operand at
    `(p, k)` times the right at `(k, j)`. -/
theorem mmK0_apply (a : FVec Ideal S4096x128 .bf16) (b : FVec Ideal S128x128 .bf16) (p : Fin 4096) (j : Fin 128) :
    matmul dot_S4096x128_S128x128_S4096x128_1_0_0_1_n_n none a b (constant (F := Ideal) S4096x128 .f32 0x00000000#32) (ix2 p j)
      = ∑ k : Fin 128, a (ix2 p k) * b (ix2 k j) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p j) ((contrEquiv1 dot_S4096x128_S128x128_S4096x128_1_0_0_1_n_n 128 rfl rfl).symm k) = ix2 p k := funext fun a => Fin.ext (by
    match a with
    | ⟨0, _⟩ => exact lhsK0_0 _ _
    | ⟨1, _⟩ => exact (lhsK0_1 _ _).trans hk)
  have er : dot_S4096x128_S128x128_S4096x128_1_0_0_1_n_n.rhsIdx (ix2 p j) ((contrEquiv1 dot_S4096x128_S128x128_S4096x128_1_0_0_1_n_n 128 rfl rfl).symm k) = ix2 k j := funext fun a => Fin.ext (by
    match a with
    | ⟨0, _⟩ => exact (rhsK0_0 _ _).trans hk
    | ⟨1, _⟩ => exact rhsK0_1 _ _)
  rw [el, er]

/-- The bias, a `[128]` row taken as `[1, 128]` and laid under every one of the 4096 rows, read at `(p, j)` is the
    bias at `j`. -/
theorem biasK0_apply {α : Type} (v : S128.Idx → α) (p : Fin 4096) (j : Fin 128) :
    broadcastTo S4096x128 (shapeCast S1x128 v shapeCasts_S128_S1x128) broadcasts_S1x128_S4096x128 (ix2 p j) = v (ix1 j) := by
  rw [broadcastTo_apply _ broadcasts_S1x128_S4096x128 (ix2 p j) (ix2 (0 : Fin 1) j) (fun a => by
    match a with
    | ⟨0, _⟩ => show (0 : ℕ) = if (1 : ℕ) = 1 then 0 else p.val; rw [if_pos rfl]
    | ⟨1, _⟩ => show j.val = if (128 : ℕ) = 1 then 0 else j.val; rw [if_neg (by decide)])]
  exact shapeCast_apply v shapeCasts_S128_S1x128 (ix2 (0 : Fin 1) j) (ix1 j) (by
    rw [Shape.rowMajor_val_one, Shape.rowMajor_val_two]
    show j.val = 0 * 128 + j.val
    omega)

/-- THE BODY'S ARITHMETIC at `(p, j)` of a block: the layer's formula of row `p` of the two feature blocks, the two
    weight matrices and the bias. -/
theorem payK0_apply (x0 x1 : Vec Ideal S4096x128 .f32) (x2 x4 : Vec Ideal S128x128 .f32) (x3 : Vec Ideal S128 .f32)
    (p : Fin 4096) (j : Fin 128) :
    k0_pay1 (F := Ideal) x0 x1 x2 x4 x3 (ix2 p j)
      = Cert.Sage.layerAt (fun k => x0 (ix2 p k)) (fun k => x1 (ix2 p k)) (Cert.Sage.tab x2) (Cert.Sage.tab x4)
          (Cert.Sage.vec x3) Cert.Sage.z j := by
  unfold k0_pay1 Cert.Sage.layerAt
  rw [maximumf_apply, addf_apply, addf_apply, mmK0_apply, mmK0_apply, biasK0_apply]
  simp only [shapeCast_self]
  rfl

/-! ## The blocks -/

theorem hz2K0 : (![0, 0] : Fin 2 → Nat) = fun _ => 0 := funext fun a => by fin_cases a <;> rfl
theorem hz1K0 : (![0] : Fin 1 → Nat) = fun _ => 0 := funext fun a => by fin_cases a; rfl

/-- The printed index maps, decided over the grid: the two feature windows and the output window are at block row `t`,
    column block 0; the weights and the bias are at block 0. -/
theorem idxK0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem NK0 : cfg0.N = 25 := by decide

section Blocks

variable {F : FTy → Type} [FloatOps F]
variable (V : (c : Dev nD) → (b : Ref sig .tc) → Buf (Elt F) ((c : Thread nD τ).loc b))

/-- The aggregated features' block at point `t`, read at `(p, k)`, is the array at row `4096 t + p`. -/
theorem iblkK0_0_apply (c : Dev nD) (t : Fin cfg0.N) (p : Fin 4096) (k : Fin 128) (n : Fin 102400)
    (hn : n.val = 4096 * t.val + p.val) :
    (iblk0 V c 0 t : Vec F S4096x128 .f32) (ix2 p k) = (V c main_v25 : S102400x128.Idx → Elt F .f32) (ix2 n k) := by
  obtain ⟨e0, e1, -⟩ := idxK0 t
  unfold iblk0
  rw [View.read_apply]
  show V c main_v25 _ = V c main_v25 _
  congr 1
  funext a
  apply Fin.ext
  match a with
  | ⟨0, _⟩ => show win0_0.index t (0 : Fin 2) * 4096 + 1 * p.val = n.val; rw [e0, hn]; omega
  | ⟨1, _⟩ => show win0_0.index t (1 : Fin 2) * 128 + 1 * k.val = k.val; rw [e1]; omega

/-- The node features' block at point `t`, read at `(p, k)`, is the array at row `4096 t + p`. -/
theorem iblkK0_1_apply (c : Dev nD) (t : Fin cfg0.N) (p : Fin 4096) (k : Fin 128) (n : Fin 102400)
    (hn : n.val = 4096 * t.val + p.val) :
    (iblk0 V c 1 t : Vec F S4096x128 .f32) (ix2 p k) = (V c main_v4 : S102400x128.Idx → Elt F .f32) (ix2 n k) := by
  obtain ⟨-, -, e0, e1, -⟩ := idxK0 t
  unfold iblk0
  rw [View.read_apply]
  show V c main_v4 _ = V c main_v4 _
  congr 1
  funext a
  apply Fin.ext
  match a with
  | ⟨0, _⟩ => show win0_1.index t (0 : Fin 2) * 4096 + 1 * p.val = n.val; rw [e0, hn]; omega
  | ⟨1, _⟩ => show win0_1.index t (1 : Fin 2) * 128 + 1 * k.val = k.val; rw [e1]; omega

/-- The first weight matrix's block, at every point, is the matrix. -/
theorem iblkK0_2_eq (c : Dev nD) (t : Fin cfg0.N) :
    (iblk0 V c 2 t : Vec F S128x128 .f32) = (V c main_arg3 : S128x128.Idx → Elt F .f32) := by
  obtain ⟨-, -, -, -, e0, e1, -⟩ := idxK0 t
  funext y
  unfold iblk0
  rw [View.read_apply]
  show V c main_arg3 _ = V c main_arg3 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias's block, at every point, is the bias. -/
theorem iblkK0_3_eq (c : Dev nD) (t : Fin cfg0.N) :
    (iblk0 V c 3 t : Vec F S128 .f32) = (V c main_arg4 : S128.Idx → Elt F .f32) := by
  obtain ⟨-, -, -, -, -, -, e0, -⟩ := idxK0 t
  funext y
  unfold iblk0
  rw [View.read_apply]
  show V c main_arg4 _ = V c main_arg4 _
  congr 1
  funext a
  apply Fin.ext
  match a with
  | ⟨0, _⟩ => show win0_3.index t (0 : Fin 1) * 128 + 1 * (y 0).val = (y 0).val; rw [e0]; omega

/-- The second weight matrix's block, at every point, is the matrix. -/
theorem iblkK0_4_eq (c : Dev nD) (t : Fin cfg0.N) :
    (iblk0 V c 4 t : Vec F S128x128 .f32) = (V c main_arg5 : S128x128.Idx → Elt F .f32) := by
  obtain ⟨-, -, -, -, -, -, -, e0, e1, -⟩ := idxK0 t
  funext y
  unfold iblk0
  rw [View.read_apply]
  show V c main_arg5 _ = V c main_arg5 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- An index of the output array is in point `t`'s block iff each coordinate is in the block's range on its axis. -/
theorem mem_blkK0 (t : Fin cfg0.N) (i : S102400x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v26).slice (win0_5.rect t)).set ↔ _
  rw [View.set_slice_whole, Rect.mem_set_unit]
  exact Iff.rfl

/-- Row `r` lies in the block of point `r / 4096`: the output's blocks cover the array. -/
theorem coverK0 (i : S102400x128.Idx) :
    ∃ t : Fin cfg0.N, (cfg0.win 5).flush t = true ∧ i ∈ ((cfg0.win 5).blk t).view.set := by
  have hi0 : (i 0).val < 102400 := (i 0).isLt
  have hi1 : (i 1).val < 128 := (i 1).isLt
  have hN := NK0
  refine ⟨⟨(i 0).val / 4096, by rw [hN]; omega⟩, flush0_5 _, ?_⟩
  rw [mem_blkK0]
  obtain ⟨-, -, -, -, -, -, -, -, -, e0, e1⟩ := idxK0 ⟨(i 0).val / 4096, by rw [hN]; omega⟩
  intro a
  match a with
  | ⟨0, _⟩ =>
    show win0_5.index ⟨(i 0).val / 4096, _⟩ (0 : Fin 2) * 4096 ≤ (i 0).val
      ∧ (i 0).val < win0_5.index ⟨(i 0).val / 4096, _⟩ (0 : Fin 2) * 4096 + 4096
    rw [e0]
    show (i 0).val / 4096 * 4096 ≤ (i 0).val ∧ (i 0).val < (i 0).val / 4096 * 4096 + 4096
    omega
  | ⟨1, _⟩ =>
    show win0_5.index ⟨(i 0).val / 4096, _⟩ (1 : Fin 2) * 128 ≤ (i 1).val
      ∧ (i 1).val < win0_5.index ⟨(i 0).val / 4096, _⟩ (1 : Fin 2) * 128 + 128
    rw [e1]
    omega

end Blocks

/-! ## The array -/

variable (V : (c : Dev nD) → (b : Ref sig .tc) → Buf (Elt Ideal) ((c : Thread nD τ).loc b))

/-- Row `n`, column `j` of what the call leaves: the layer's formula of row `n` of the two feature arrays. -/
def rowK0 (c : Dev nD) (n : Fin 102400) (j : Fin 128) : EReal :=
  Cert.Sage.layerAt (fun k => (V c main_v25 : S102400x128.Idx → EReal) (ix2 n k))
    (fun k => (V c main_v4 : S102400x128.Idx → EReal) (ix2 n k))
    (Cert.Sage.tab (V c main_arg3 : S128x128.Idx → EReal)) (Cert.Sage.tab (V c main_arg5 : S128x128.Idx → EReal))
    (Cert.Sage.vec (V c main_arg4 : S128.Idx → EReal)) Cert.Sage.z j

/-- The same as one function of the array's index. -/
def arrK0 (c : Dev nD) : S102400x128.Idx → EReal := fun i => rowK0 V c ⟨(i 0).val, idx2_lt0 i⟩ ⟨(i 1).val, idx2_lt1 i⟩

/-- One point's arithmetic over blocks that are rows of arrays is the layer's formula of those rows. -/
theorem pointK0 (x0 x1 : Vec Ideal S4096x128 .f32) (x2 x4 : Vec Ideal S128x128 .f32) (x3 : Vec Ideal S128 .f32)
    (a0 a1 : S102400x128.Idx → EReal) (b2 b4 : S128x128.Idx → EReal) (b3 : S128.Idx → EReal)
    (p : Fin 4096) (q : Fin 128) (n : Fin 102400)
    (h0 : ∀ k : Fin 128, x0 (ix2 p k) = a0 (ix2 n k)) (h1 : ∀ k : Fin 128, x1 (ix2 p k) = a1 (ix2 n k))
    (h2 : x2 = b2) (h4 : x4 = b4) (h3 : x3 = b3) :
    k0_pay1 (F := Ideal) x0 x1 x2 x4 x3 (ix2 p q)
      = Cert.Sage.layerAt (fun k => a0 (ix2 n k)) (fun k => a1 (ix2 n k)) (Cert.Sage.tab b2) (Cert.Sage.tab b4)
          (Cert.Sage.vec b3) Cert.Sage.z q := by
  rw [payK0_apply]
  subst h2 h4 h3
  simp only [h0, h1]

/-- WHAT POINT `t` WRITES BACK is block `t` of `arrK0`. -/
theorem flushedK0_eq (c : Dev nD) (t : Fin cfg0.N) :
    (dat0 (F := Ideal) V c).flushed 5 t = ((cfg0.win 5).blk t).view.read (Elt Ideal) (arrK0 V c) := by
  show (cfg0.win 5).cut (grid0.coords t) ((dat0 (F := Ideal) V c).after 5 t) = _
  rw [after0_5]
  unfold out0_5
  rw [View.canon_unit_zero hz2K0]
  simp only [View.ld_unit_zero (S := S4096x128) hz2K0, View.ld_unit_zero (S := S128x128) hz2K0, View.ld_unit_zero (S := S128) hz1K0]
  obtain ⟨-, -, -, -, -, -, -, -, -, e0, e1⟩ := idxK0 t
  have ht : t.val < 25 := lt_of_lt_of_eq t.isLt NK0
  funext y
  obtain ⟨p, q, rfl⟩ : ∃ (p : Fin 4096) (q : Fin 128), y = ix2 p q := ⟨y 0, y 1, eq_ix2 y⟩
  have hp := p.isLt
  refine (pointK0 (iblk0 V c 0 t) (iblk0 V c 1 t) (iblk0 V c 2 t) (iblk0 V c 4 t) (iblk0 V c 3 t)
    (V c main_v25) (V c main_v4) (V c main_arg3) (V c main_arg5) (V c main_arg4) p q ⟨4096 * t.val + p.val, by omega⟩
    (fun k => iblkK0_0_apply V c t p k _ rfl) (fun k => iblkK0_1_apply V c t p k _ rfl)
    (iblkK0_2_eq V c t) (iblkK0_4_eq V c t) (iblkK0_3_eq V c t)).trans ?_
  show rowK0 V c ⟨4096 * t.val + p.val, _⟩ q = arrK0 V c (((cfg0.win 5).blk t).view.emb (ix2 p q))
  unfold arrK0
  congr 1
  · apply Fin.ext
    show 4096 * t.val + p.val = win0_5.index t (0 : Fin 2) * 4096 + 1 * p.val
    rw [e0]; omega
  · apply Fin.ext
    show q.val = win0_5.index t (1 : Fin 2) * 128 + 1 * q.val
    rw [e1]; omega

/-- THE ARRAY after the call is `arrK0`. -/
theorem arrK0_eq (c : Dev nD) : (dat0 (F := Ideal) V c).arrAt 5 cfg0.N = arrK0 V c :=
  (dat0 (F := Ideal) V c).arrAt_eq_of_cover 5 (arrK0 V c) (fun t _ => flushedK0_eq V c t) coverK0

/-- THE VALUE of the call's output array at `(n, j)`. -/
theorem arr0_apply (c : Dev nD) (n : Fin 102400) (j : Fin 128) :
    (dat0 (F := Ideal) V c).arrAt 5 cfg0.N (ix2 n j)
      = Cert.Sage.layerAt (fun k => V c main_v25 (ix2 n k)) (fun k => V c main_v4 (ix2 n k))
          (Cert.Sage.tab (V c main_arg3)) (Cert.Sage.tab (V c main_arg5)) (Cert.Sage.vec (V c main_arg4)) Cert.Sage.z j := by
  rw [arrK0_eq]
  rfl

end Cert.KernelIdeal.Hand

end
-- ==== Proof.KI.Val1.lean ====
/-
  The value of pallas call 0's output array at the ideal values: row `n`, column `j` of the `[102400, 128]`
  result is the layer's arithmetic of row `n` of the aggregated features and of the node features,
  `max (Σ_k mean[n, k] · Wl[k, j] + bl[j] + Σ_k h[n, k] · Wr[k, j]) 0`.

  * The body's arithmetic at an index of a block: the two matrix products as sums over the contracted coordinate
    (`mmK1_apply`), the bias row laid under every row (`biasK1_apply`), so the whole payload (`payK1_apply`).
  * The blocks: point `t` sees rows `4096 t …` of the two feature arrays (`iblkK1_0_apply`, `iblkK1_1_apply`) and the
    weights and bias whole (`iblkK1_2_eq` … `iblkK1_4_eq`), so what it writes back is block `t` of one function of
    the arrays the call is entered with (`flushedK1_eq`); row `r` lies in point `r / 4096`'s block, so the blocks
    cover the array (`coverK1`) and the array ends as that function (`arrK1_eq`, `arr1_apply`).
-/
import proofs.«421121_j36687610642889_1_alg».proof.Proof.KI.R1
import proofs.«421121_j36687610642889_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body's arithmetic at an index -/

theorem lhsK1_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsK1_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsK1_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsK1_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The body's matrix product into a zero accumulator, read at `(p, j)`: the sum over `k` of the left operand at
    `(p, k)` times the right at `(k, j)`. -/
theorem mmK1_apply (a : FVec Ideal S4096x128 .bf16) (b : FVec Ideal S128x128 .bf16) (p : Fin 4096) (j : Fin 128) :
    matmul dot_S4096x128_S128x128_S4096x128_1_0_0_1_n_n none a b (constant (F := Ideal) S4096x128 .f32 0x00000000#32) (ix2 p j)
      = ∑ k : Fin 128, a (ix2 p k) * b (ix2 k j) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p j) ((contrEquiv1 dot_S4096x128_S128x128_S4096x128_1_0_0_1_n_n 128 rfl rfl).symm k) = ix2 p k := funext fun a => Fin.ext (by
    match a with
    | ⟨0, _⟩ => exact lhsK1_0 _ _
    | ⟨1, _⟩ => exact (lhsK1_1 _ _).trans hk)
  have er : dot_S4096x128_S128x128_S4096x128_1_0_0_1_n_n.rhsIdx (ix2 p j) ((contrEquiv1 dot_S4096x128_S128x128_S4096x128_1_0_0_1_n_n 128 rfl rfl).symm k) = ix2 k j := funext fun a => Fin.ext (by
    match a with
    | ⟨0, _⟩ => exact (rhsK1_0 _ _).trans hk
    | ⟨1, _⟩ => exact rhsK1_1 _ _)
  rw [el, er]

/-- The bias, a `[128]` row taken as `[1, 128]` and laid under every one of the 4096 rows, read at `(p, j)` is the
    bias at `j`. -/
theorem biasK1_apply {α : Type} (v : S128.Idx → α) (p : Fin 4096) (j : Fin 128) :
    broadcastTo S4096x128 (shapeCast S1x128 v shapeCasts_S128_S1x128) broadcasts_S1x128_S4096x128 (ix2 p j) = v (ix1 j) := by
  rw [broadcastTo_apply _ broadcasts_S1x128_S4096x128 (ix2 p j) (ix2 (0 : Fin 1) j) (fun a => by
    match a with
    | ⟨0, _⟩ => show (0 : ℕ) = if (1 : ℕ) = 1 then 0 else p.val; rw [if_pos rfl]
    | ⟨1, _⟩ => show j.val = if (128 : ℕ) = 1 then 0 else j.val; rw [if_neg (by decide)])]
  exact shapeCast_apply v shapeCasts_S128_S1x128 (ix2 (0 : Fin 1) j) (ix1 j) (by
    rw [Shape.rowMajor_val_one, Shape.rowMajor_val_two]
    show j.val = 0 * 128 + j.val
    omega)

/-- THE BODY'S ARITHMETIC at `(p, j)` of a block: the layer's formula of row `p` of the two feature blocks, the two
    weight matrices and the bias. -/
theorem payK1_apply (x0 x1 : Vec Ideal S4096x128 .f32) (x2 x4 : Vec Ideal S128x128 .f32) (x3 : Vec Ideal S128 .f32)
    (p : Fin 4096) (j : Fin 128) :
    k1_pay1 (F := Ideal) x0 x1 x2 x4 x3 (ix2 p j)
      = Cert.Sage.layerAt (fun k => x0 (ix2 p k)) (fun k => x1 (ix2 p k)) (Cert.Sage.tab x2) (Cert.Sage.tab x4)
          (Cert.Sage.vec x3) Cert.Sage.z j := by
  unfold k1_pay1 Cert.Sage.layerAt
  rw [maximumf_apply, addf_apply, addf_apply, mmK1_apply, mmK1_apply, biasK1_apply]
  simp only [shapeCast_self]
  rfl

/-! ## The blocks -/

theorem hz2K1 : (![0, 0] : Fin 2 → Nat) = fun _ => 0 := funext fun a => by fin_cases a <;> rfl
theorem hz1K1 : (![0] : Fin 1 → Nat) = fun _ => 0 := funext fun a => by fin_cases a; rfl

/-- The printed index maps, decided over the grid: the two feature windows and the output window are at block row `t`,
    column block 0; the weights and the bias are at block 0. -/
theorem idxK1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem NK1 : cfg1.N = 25 := by decide

section Blocks

variable {F : FTy → Type} [FloatOps F]
variable (V : (c : Dev nD) → (b : Ref sig .tc) → Buf (Elt F) ((c : Thread nD τ).loc b))

/-- The aggregated features' block at point `t`, read at `(p, k)`, is the array at row `4096 t + p`. -/
theorem iblkK1_0_apply (c : Dev nD) (t : Fin cfg1.N) (p : Fin 4096) (k : Fin 128) (n : Fin 102400)
    (hn : n.val = 4096 * t.val + p.val) :
    (iblk1 V c 0 t : Vec F S4096x128 .f32) (ix2 p k) = (V c main_v45 : S102400x128.Idx → Elt F .f32) (ix2 n k) := by
  obtain ⟨e0, e1, -⟩ := idxK1 t
  unfold iblk1
  rw [View.read_apply]
  show V c main_v45 _ = V c main_v45 _
  congr 1
  funext a
  apply Fin.ext
  match a with
  | ⟨0, _⟩ => show win1_0.index t (0 : Fin 2) * 4096 + 1 * p.val = n.val; rw [e0, hn]; omega
  | ⟨1, _⟩ => show win1_0.index t (1 : Fin 2) * 128 + 1 * k.val = k.val; rw [e1]; omega

/-- The node features' block at point `t`, read at `(p, k)`, is the array at row `4096 t + p`. -/
theorem iblkK1_1_apply (c : Dev nD) (t : Fin cfg1.N) (p : Fin 4096) (k : Fin 128) (n : Fin 102400)
    (hn : n.val = 4096 * t.val + p.val) :
    (iblk1 V c 1 t : Vec F S4096x128 .f32) (ix2 p k) = (V c main_v26 : S102400x128.Idx → Elt F .f32) (ix2 n k) := by
  obtain ⟨-, -, e0, e1, -⟩ := idxK1 t
  unfold iblk1
  rw [View.read_apply]
  show V c main_v26 _ = V c main_v26 _
  congr 1
  funext a
  apply Fin.ext
  match a with
  | ⟨0, _⟩ => show win1_1.index t (0 : Fin 2) * 4096 + 1 * p.val = n.val; rw [e0, hn]; omega
  | ⟨1, _⟩ => show win1_1.index t (1 : Fin 2) * 128 + 1 * k.val = k.val; rw [e1]; omega

/-- The first weight matrix's block, at every point, is the matrix. -/
theorem iblkK1_2_eq (c : Dev nD) (t : Fin cfg1.N) :
    (iblk1 V c 2 t : Vec F S128x128 .f32) = (V c main_arg6 : S128x128.Idx → Elt F .f32) := by
  obtain ⟨-, -, -, -, e0, e1, -⟩ := idxK1 t
  funext y
  unfold iblk1
  rw [View.read_apply]
  show V c main_arg6 _ = V c main_arg6 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias's block, at every point, is the bias. -/
theorem iblkK1_3_eq (c : Dev nD) (t : Fin cfg1.N) :
    (iblk1 V c 3 t : Vec F S128 .f32) = (V c main_arg7 : S128.Idx → Elt F .f32) := by
  obtain ⟨-, -, -, -, -, -, e0, -⟩ := idxK1 t
  funext y
  unfold iblk1
  rw [View.read_apply]
  show V c main_arg7 _ = V c main_arg7 _
  congr 1
  funext a
  apply Fin.ext
  match a with
  | ⟨0, _⟩ => show win1_3.index t (0 : Fin 1) * 128 + 1 * (y 0).val = (y 0).val; rw [e0]; omega

/-- The second weight matrix's block, at every point, is the matrix. -/
theorem iblkK1_4_eq (c : Dev nD) (t : Fin cfg1.N) :
    (iblk1 V c 4 t : Vec F S128x128 .f32) = (V c main_arg8 : S128x128.Idx → Elt F .f32) := by
  obtain ⟨-, -, -, -, -, -, -, e0, e1, -⟩ := idxK1 t
  funext y
  unfold iblk1
  rw [View.read_apply]
  show V c main_arg8 _ = V c main_arg8 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- An index of the output array is in point `t`'s block iff each coordinate is in the block's range on its axis. -/
theorem mem_blkK1 (t : Fin cfg1.N) (i : S102400x128.Idx) :
    i ∈ ((cfg1.win 5).blk t).view.set ↔ ∀ a : Fin 2, win1_5.index t a * S4096x128.size a ≤ (i a).val
      ∧ (i a).val < win1_5.index t a * S4096x128.size a + S4096x128.size a := by
  show i ∈ ((View.whole main_v46).slice (win1_5.rect t)).set ↔ _
  rw [View.set_slice_whole, Rect.mem_set_unit]
  exact Iff.rfl

/-- Row `r` lies in the block of point `r / 4096`: the output's blocks cover the array. -/
theorem coverK1 (i : S102400x128.Idx) :
    ∃ t : Fin cfg1.N, (cfg1.win 5).flush t = true ∧ i ∈ ((cfg1.win 5).blk t).view.set := by
  have hi0 : (i 0).val < 102400 := (i 0).isLt
  have hi1 : (i 1).val < 128 := (i 1).isLt
  have hN := NK1
  refine ⟨⟨(i 0).val / 4096, by rw [hN]; omega⟩, flush1_5 _, ?_⟩
  rw [mem_blkK1]
  obtain ⟨-, -, -, -, -, -, -, -, -, e0, e1⟩ := idxK1 ⟨(i 0).val / 4096, by rw [hN]; omega⟩
  intro a
  match a with
  | ⟨0, _⟩ =>
    show win1_5.index ⟨(i 0).val / 4096, _⟩ (0 : Fin 2) * 4096 ≤ (i 0).val
      ∧ (i 0).val < win1_5.index ⟨(i 0).val / 4096, _⟩ (0 : Fin 2) * 4096 + 4096
    rw [e0]
    show (i 0).val / 4096 * 4096 ≤ (i 0).val ∧ (i 0).val < (i 0).val / 4096 * 4096 + 4096
    omega
  | ⟨1, _⟩ =>
    show win1_5.index ⟨(i 0).val / 4096, _⟩ (1 : Fin 2) * 128 ≤ (i 1).val
      ∧ (i 1).val < win1_5.index ⟨(i 0).val / 4096, _⟩ (1 : Fin 2) * 128 + 128
    rw [e1]
    omega

end Blocks

/-! ## The array -/

variable (V : (c : Dev nD) → (b : Ref sig .tc) → Buf (Elt Ideal) ((c : Thread nD τ).loc b))

/-- Row `n`, column `j` of what the call leaves: the layer's formula of row `n` of the two feature arrays. -/
def rowK1 (c : Dev nD) (n : Fin 102400) (j : Fin 128) : EReal :=
  Cert.Sage.layerAt (fun k => (V c main_v45 : S102400x128.Idx → EReal) (ix2 n k))
    (fun k => (V c main_v26 : S102400x128.Idx → EReal) (ix2 n k))
    (Cert.Sage.tab (V c main_arg6 : S128x128.Idx → EReal)) (Cert.Sage.tab (V c main_arg8 : S128x128.Idx → EReal))
    (Cert.Sage.vec (V c main_arg7 : S128.Idx → EReal)) Cert.Sage.z j

/-- The same as one function of the array's index. -/
def arrK1 (c : Dev nD) : S102400x128.Idx → EReal := fun i => rowK1 V c ⟨(i 0).val, idx2_lt0 i⟩ ⟨(i 1).val, idx2_lt1 i⟩

/-- One point's arithmetic over blocks that are rows of arrays is the layer's formula of those rows. -/
theorem pointK1 (x0 x1 : Vec Ideal S4096x128 .f32) (x2 x4 : Vec Ideal S128x128 .f32) (x3 : Vec Ideal S128 .f32)
    (a0 a1 : S102400x128.Idx → EReal) (b2 b4 : S128x128.Idx → EReal) (b3 : S128.Idx → EReal)
    (p : Fin 4096) (q : Fin 128) (n : Fin 102400)
    (h0 : ∀ k : Fin 128, x0 (ix2 p k) = a0 (ix2 n k)) (h1 : ∀ k : Fin 128, x1 (ix2 p k) = a1 (ix2 n k))
    (h2 : x2 = b2) (h4 : x4 = b4) (h3 : x3 = b3) :
    k1_pay1 (F := Ideal) x0 x1 x2 x4 x3 (ix2 p q)
      = Cert.Sage.layerAt (fun k => a0 (ix2 n k)) (fun k => a1 (ix2 n k)) (Cert.Sage.tab b2) (Cert.Sage.tab b4)
          (Cert.Sage.vec b3) Cert.Sage.z q := by
  rw [payK1_apply]
  subst h2 h4 h3
  simp only [h0, h1]

/-- WHAT POINT `t` WRITES BACK is block `t` of `arrK1`. -/
theorem flushedK1_eq (c : Dev nD) (t : Fin cfg1.N) :
    (dat1 (F := Ideal) V c).flushed 5 t = ((cfg1.win 5).blk t).view.read (Elt Ideal) (arrK1 V c) := by
  show (cfg1.win 5).cut (grid1.coords t) ((dat1 (F := Ideal) V c).after 5 t) = _
  rw [after1_5]
  unfold out1_5
  rw [View.canon_unit_zero hz2K1]
  simp only [View.ld_unit_zero (S := S4096x128) hz2K1, View.ld_unit_zero (S := S128x128) hz2K1, View.ld_unit_zero (S := S128) hz1K1]
  obtain ⟨-, -, -, -, -, -, -, -, -, e0, e1⟩ := idxK1 t
  have ht : t.val < 25 := lt_of_lt_of_eq t.isLt NK1
  funext y
  obtain ⟨p, q, rfl⟩ : ∃ (p : Fin 4096) (q : Fin 128), y = ix2 p q := ⟨y 0, y 1, eq_ix2 y⟩
  have hp := p.isLt
  refine (pointK1 (iblk1 V c 0 t) (iblk1 V c 1 t) (iblk1 V c 2 t) (iblk1 V c 4 t) (iblk1 V c 3 t)
    (V c main_v45) (V c main_v26) (V c main_arg6) (V c main_arg8) (V c main_arg7) p q ⟨4096 * t.val + p.val, by omega⟩
    (fun k => iblkK1_0_apply V c t p k _ rfl) (fun k => iblkK1_1_apply V c t p k _ rfl)
    (iblkK1_2_eq V c t) (iblkK1_4_eq V c t) (iblkK1_3_eq V c t)).trans ?_
  show rowK1 V c ⟨4096 * t.val + p.val, _⟩ q = arrK1 V c (((cfg1.win 5).blk t).view.emb (ix2 p q))
  unfold arrK1
  congr 1
  · apply Fin.ext
    show 4096 * t.val + p.val = win1_5.index t (0 : Fin 2) * 4096 + 1 * p.val
    rw [e0]; omega
  · apply Fin.ext
    show q.val = win1_5.index t (1 : Fin 2) * 128 + 1 * q.val
    rw [e1]; omega

/-- THE ARRAY after the call is `arrK1`. -/
theorem arrK1_eq (c : Dev nD) : (dat1 (F := Ideal) V c).arrAt 5 cfg1.N = arrK1 V c :=
  (dat1 (F := Ideal) V c).arrAt_eq_of_cover 5 (arrK1 V c) (fun t _ => flushedK1_eq V c t) coverK1

/-- THE VALUE of the call's output array at `(n, j)`. -/
theorem arr1_apply (c : Dev nD) (n : Fin 102400) (j : Fin 128) :
    (dat1 (F := Ideal) V c).arrAt 5 cfg1.N (ix2 n j)
      = Cert.Sage.layerAt (fun k => V c main_v45 (ix2 n k)) (fun k => V c main_v26 (ix2 n k))
          (Cert.Sage.tab (V c main_arg6)) (Cert.Sage.tab (V c main_arg8)) (Cert.Sage.vec (V c main_arg7)) Cert.Sage.z j := by
  rw [arrK1_eq]
  rfl

end Cert.KernelIdeal.Hand

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.LibRows1.lean ====
/-
  General lemmas for accumulating into a LIST at the positions an integer list names: a rank-1 array and a
  rank-1 list of positions (held as an `[E, 1]` column):

  * a rank-1 index set is its one coordinate range, so a sum over it is the sum over the coordinate;
  * at the ideal values a scatter-add into a list — operand `[N]`, scatter indices `[E, 1]`, updates `[E]`,
    no window axis — read at `n` is the operand's entry plus the sum, over the list positions `e` whose
    position number `idx[e, 0]` (read signed, not clamped) is `n`, of the updates' entries `e`.
-/
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Idealize.ShloMosaic.ValueIdx

open Idealize.ShloMosaic

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter into a list: operand `[N]`, scatter indices `[E, 1]`, updates `[E]`,
    no window axis (the operand's one axis is an inserted one). -/
abbrev vecScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where the update at `e` lands: at `n` exactly when the position number at `e` is `n`. -/
theorem vecScatter_resultIdx {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : ℤ) := by
  have hs0 : (vecScatterDims N E wf).start (ix1 e) idx (0 : Fin 1) = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (vecScatterDims N E wf).sKept = [] := rfl
  have hw0 : (vecScatterDims N E wf).window (ix1 e) (0 : Fin 1) = 0 := by
    unfold ScatterDims.window
    rw [dif_neg (show (0 : Fin 1) ∉ (vecScatterDims N E wf).sKept by rw [hk]; exact List.not_mem_nil)]
  constructor
  · intro h
    unfold ScatterDims.resultIdx? at h
    split at h
    · rename_i hb
      have h' := Option.some.inj h
      have h0 : ((vecScatterDims N E wf).start (ix1 e) idx (0 : Fin 1)
          + ((vecScatterDims N E wf).window (ix1 e) (0 : Fin 1) : ℤ)).toNat = n.val :=
        congrArg (fun f : (⟨1, ![N]⟩ : Shape).Idx => (f 0).val) h'
      have hb0 := (hb 0).1
      rw [hs0, hw0] at h0 hb0
      omega
    · exact absurd h (by simp)
  · intro hpos
    unfold ScatterDims.resultIdx?
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ)
            < ((⟨1, ![N]⟩ : Shape).size a : ℤ) := by
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [hs0, hw0, hpos]
        have := n.isLt
        omega
    rw [dif_pos hb]
    congr 1
    funext a
    refine Fin.ext ?_
    match a with
    | ⟨0, _⟩ =>
      show ((vecScatterDims N E wf).start (ix1 e) idx (0 : Fin 1)
        + ((vecScatterDims N E wf).window (ix1 e) (0 : Fin 1) : ℤ)).toNat = n.val
      rw [hs0, hw0, hpos]
      omega

/-- THE SCATTER-ADD INTO A LIST READ AT `n`, at the ideal values: the operand's entry plus the sum of the
    updates' entries `e` over the positions `e` whose position number is `n`. -/
theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (n : Fin N) :
    Host.scatterAdd (F := Ideal) (vecScatterDims N E wf) x idx upd (ix1 n)
      = x (ix1 n) + ∑ e ∈ Finset.univ.filter (fun e : Fin E => (idx (ix2 e (0 : Fin 1))).toInt = (n.val : ℤ)),
          upd (ix1 e) := by
  show Ideal.hostScatterAdd (vecScatterDims N E wf) x idx upd (ix1 n) = _
  unfold Ideal.hostScatterAdd
  congr 1
  rw [Finset.sum_filter, sum_idx1, Finset.sum_filter]
  refine Finset.sum_congr rfl fun e _ => ?_
  simp only [vecScatter_resultIdx]

end Idealize.ShloMosaic.ValueIdx

end
-- ==== Proof.KI.HostVal.lean ====
/-
  The kernel program's host stretches read at an index, at the ideal values, each from an arbitrary
  valuation `W` of the buffers at the stretch's start:

  * the source and destination lists are rows 0 and 1 of the edge list;
  * the node table and the graph numbers padded from `100000` to `102400` rows: the operand on its rows, the
    pad value below;
  * one layer's aggregation — a row gather by the wrapped and clamped source numbers, a scatter-add of the
    gathered rows into their destination rows, a scatter-add of ones counting each destination, the count
    floored at one, the quotient — read at `(n, k)` is `Cert.Sage.meanRows` of the node table.
-/
import proofs.«421121_j36687610642889_1_alg».proof.Proof.Gen.KernelIdeal.Launch
import proofs.«421121_j36687610642889_1_alg».proof.Proof.Spec
import proofs.«421121_j36687610642889_1_alg».proof.Proof.LibRows
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«421121_j36687610642889_1_alg».proof.Proof.LibRows1

noncomputable section

open scoped BigOperators

namespace Cert.KernelIdeal.HostVal

open Cert.KernelIdeal Cert.KernelIdeal.Gen
open Idealize.ShloMosaic Idealize.ShloMosaic.TcCoe Idealize.ShloMosaic.ValueIdx

variable (W : Valuation τ sig (Elt Ideal))

/-! ## The edge list's two rows -/

/-- Row `r` of the edge list, as a list of `1600000` entries: what the slice and the reshape leave. -/
theorem edgeRow_apply (x : IVec S2x1600000 32) (r : Fin 2) (hs : S2x1600000.Slices ![r.val, 0] S1x1600000)
    (hc : S1x1600000.ShapeCasts S1600000) (e : Fin 1600000) :
    shapeCast S1600000 (extractStridedSlice S1x1600000 ![r.val, 0] x hs) hc (ix1 e) = x (ix2 r e) := by
  refine (shapeCast_apply _ hc (ix1 e) (ix2 (0 : Fin 1) e) ?_).trans ?_
  · rw [Shape.rowMajor_val_two, Shape.rowMajor_val_one]
    show (0 : ℕ) * 1600000 + e.val = e.val
    omega
  · refine extractStridedSlice_apply _ x hs _ (ix2 r e) fun a => ?_
    match a with
    | ⟨0, _⟩ => show r.val = r.val + 0; omega
    | ⟨1, _⟩ => show e.val = 0 + e.val; omega

/-- The source list after the first stretch: row 0 of the edge list. -/
theorem src_apply (e : Fin 1600000) :
    StableHlo.after (hostOps0 (F := Ideal)) W main_v1 (ix1 e) = W main_arg1 (ix2 (0 : Fin 2) e) := by
  have h : (StableHlo.after (hostOps0 (F := Ideal)) W main_v1 : S1600000.Idx → BitVec 32)
      = shapeCast S1600000 (extractStridedSlice S1x1600000 ![0, 0] (W main_arg1) slices_S2x1600000_S1x1600000_0_0)
          shapeCasts_S1x1600000_S1600000 := by
    show StableHlo.after (hostOps0 (F := Ideal)) W (Proc.devRef .tc main_v1) = _
    after_results
    rfl
  rw [h]
  exact edgeRow_apply (W main_arg1) 0 slices_S2x1600000_S1x1600000_0_0 shapeCasts_S1x1600000_S1600000 e

/-- The destination list after the first stretch: row 1 of the edge list. -/
theorem dst_apply (e : Fin 1600000) :
    StableHlo.after (hostOps0 (F := Ideal)) W main_v3 (ix1 e) = W main_arg1 (ix2 (1 : Fin 2) e) := by
  have h : (StableHlo.after (hostOps0 (F := Ideal)) W main_v3 : S1600000.Idx → BitVec 32)
      = shapeCast S1600000 (extractStridedSlice S1x1600000 ![1, 0] (W main_arg1) slices_S2x1600000_S1x1600000_1_0)
          shapeCasts_S1x1600000_S1600000 := by
    show StableHlo.after (hostOps0 (F := Ideal)) W (Proc.devRef .tc main_v3) = _
    after_results
    rfl
  rw [h]
  exact edgeRow_apply (W main_arg1) 1 slices_S2x1600000_S1x1600000_1_0 shapeCasts_S1x1600000_S1600000 e

/-- The first stretch leaves the zero word in `main_c`. -/
theorem c_apply : StableHlo.after (hostOps0 (F := Ideal)) W main_c ix0 = 0#32 := by
  have h : (StableHlo.after (hostOps0 (F := Ideal)) W main_c : S_.Idx → BitVec 32) = constantI S_ 32 0#32 := by
    show StableHlo.after (hostOps0 (F := Ideal)) W (Proc.devRef .tc main_c) = _
    after_results
  rw [h]
  rfl

/-! ## The padded node table and the padded graph numbers -/

/-- A table of `100000` rows padded below to `102400`: the table on its rows, the pad value on the rest. -/
theorem padRows_apply {α : Type} (x : S100000x128.Idx → α) (v : S_.Idx → α)
    (hp : S100000x128.Pads (![0, 0] : Fin 2 → Nat) ![2400, 0] ![0, 0] S102400x128) (hu : 0 < S_.numel)
    (n : Fin 102400) (k : Fin 128) :
    pad S102400x128 ![0, 0] ![2400, 0] ![0, 0] x v hp hu (ix2 n k)
      = if h : n.val < 100000 then x (ix2 ⟨n.val, h⟩ k) else v ix0 := by
  by_cases h : n.val < 100000
  · rw [dif_pos h]
    refine pad_apply_of_inside _ _ _ x v hp hu (ix2 n k) (ix2 ⟨n.val, h⟩ k) fun a => ?_
    match a with
    | ⟨0, _⟩ => show n.val = 0 + n.val * (0 + 1); omega
    | ⟨1, _⟩ => show k.val = 0 + k.val * (0 + 1); omega
  · rw [dif_neg h]
    refine (pad_apply_of_not_inside _ _ _ x v hp hu (ix2 n k) (0 : Fin 2) ?_).trans (congrArg v (eq_ix0 _))
    show ¬((0 : ℕ) ≤ n.val ∧ (n.val - 0) % (0 + 1) = 0 ∧ (n.val - 0) / (0 + 1) < 100000)
    omega

/-- A list of `100000` entries padded at its end to `102400`. -/
theorem padList_apply {α : Type} (x : S100000.Idx → α) (v : S_.Idx → α)
    (hp : S100000.Pads (![0] : Fin 1 → Nat) ![2400] ![0] S102400) (hu : 0 < S_.numel) (n : Fin 102400) :
    pad S102400 ![0] ![2400] ![0] x v hp hu (ix1 n)
      = if h : n.val < 100000 then x (ix1 ⟨n.val, h⟩) else v ix0 := by
  by_cases h : n.val < 100000
  · rw [dif_pos h]
    refine pad_apply_of_inside _ _ _ x v hp hu (ix1 n) (ix1 ⟨n.val, h⟩) fun a => ?_
    match a with
    | ⟨0, _⟩ => show n.val = 0 + n.val * (0 + 1); omega
  · rw [dif_neg h]
    refine (pad_apply_of_not_inside _ _ _ x v hp hu (ix1 n) (0 : Fin 1) ?_).trans (congrArg v (eq_ix0 _))
    show ¬((0 : ℕ) ≤ n.val ∧ (n.val - 0) % (0 + 1) = 0 ∧ (n.val - 0) / (0 + 1) < 100000)
    omega

/-- The padded node table: the node features on the first `100000` rows, the pad word as a float below. -/
theorem xpad_apply (n : Fin 102400) (k : Fin 128) :
    StableHlo.after (hostOps0_1 (F := Ideal)) W main_v4 (ix2 n k)
      = if h : n.val < 100000 then W main_arg0 (ix2 ⟨n.val, h⟩ k)
        else FloatOps.sitofp (F := Ideal) .f32 (W main_c ix0) := by
  have h : (StableHlo.after (hostOps0_1 (F := Ideal)) W main_v4 : S102400x128.Idx → EReal)
      = pad S102400x128 ![0, 0] ![2400, 0] ![0, 0] (W main_arg0) (sitofp (F := Ideal) .f32 (W main_c))
          pads_S100000x128_S102400x128_024000_000 h_S_ := by
    show StableHlo.after (hostOps0_1 (F := Ideal)) W (Proc.devRef .tc main_v4) = _
    after_results
    rfl
  rw [h, padRows_apply]
  rfl

/-- The zero word read as a float is the float zero. -/
theorem sitofp_zero_word : FloatOps.sitofp (F := Ideal) .f32 (0#32 : BitVec 32) = Cert.Sage.z := by
  show (((0#32 : BitVec 32).toInt : ℝ) : EReal) = Ideal.ofBits .f32 0x00000000#32
  have h0 : (0#32 : BitVec 32).toInt = 0 := by decide
  rw [Ideal.ofBits_zero_f32, h0, Int.cast_zero, EReal.coe_zero]

/-- The padded node table when the pad word is zero: the float zero below the node features. -/
theorem xpad_apply_zero (hc : W main_c ix0 = 0#32) (n : Fin 102400) (k : Fin 128) :
    StableHlo.after (hostOps0_1 (F := Ideal)) W main_v4 (ix2 n k)
      = if h : n.val < 100000 then W main_arg0 (ix2 ⟨n.val, h⟩ k) else Cert.Sage.z := by
  rw [xpad_apply, hc, sitofp_zero_word]

/-- The padded graph numbers: the nodes' graph numbers, then the pad word. -/
theorem bpad_apply (n : Fin 102400) :
    StableHlo.after (hostOps0_3 (F := Ideal)) W main_v5 (ix1 n)
      = if h : n.val < 100000 then W main_arg2 (ix1 ⟨n.val, h⟩) else W main_c_0 ix0 := by
  have h : (StableHlo.after (hostOps0_3 (F := Ideal)) W main_v5 : S102400.Idx → BitVec 32)
      = pad S102400 ![0] ![2400] ![0] (W main_arg2) (W main_c_0) pads_S100000_S102400_024000 h_S_ := by
    show StableHlo.after (hostOps0_3 (F := Ideal)) W (Proc.devRef .tc main_v5) = _
    after_results
    rfl
  rw [h, padList_apply]

/-- The graph numbers as a column. -/
theorem bcol_apply (n : Fin 102400) :
    StableHlo.after (hostOps0_4 (F := Ideal)) W main_v6 (ix2 n (0 : Fin 1)) = W main_v5 (ix1 n) := by
  have h : (StableHlo.after (hostOps0_4 (F := Ideal)) W main_v6 : S102400x1.Idx → BitVec 32)
      = broadcastInDim S102400x1 ![0] bcast_S102400_S102400x1_0 (W main_v5) := by
    show StableHlo.after (hostOps0_4 (F := Ideal)) W (Proc.devRef .tc main_v6) = _
    after_results
  rw [h]
  refine broadcastInDim_apply _ _ (W main_v5) (ix2 n (0 : Fin 1)) (ix1 n) fun a => ?_
  match a with
  | ⟨0, _⟩ => rfl

/-! ## The mean aggregation of one layer -/

/-- The row the row gather reads for edge `e` from the source list `s`: a negative number wrapped by the
    table's height, then the result clamped into the table. -/
def srcRowK (s : IVec S1600000 32) (e : Fin 1600000) : Fin 102400 :=
  ⟨min (Scalar.select (IntOp.cmpi .slt (s (ix1 e)) 0#32) (IntOp.addi (s (ix1 e)) 102400#32) (s (ix1 e))).toInt.toNat
      (102400 - 1), by omega⟩

/-- A source number inside the node range is read as itself. -/
theorem srcRowK_val (s : IVec S1600000 32) (e : Fin 1600000)
    (h : 0 ≤ (s (ix1 e)).toInt ∧ (s (ix1 e)).toInt < 100000) : (srcRowK s e).val = (s (ix1 e)).toInt.toNat := by
  have hlt : (s (ix1 e)).slt 0#32 = false := by
    unfold BitVec.slt
    have h0 : (0#32 : BitVec 32).toInt = 0 := by decide
    rw [h0]
    exact decide_eq_false (by omega)
  have hc : IntOp.cmpi .slt (s (ix1 e)) 0#32 = 0#1 := by
    show BitVec.ofBool ((s (ix1 e)).slt 0#32) = 0#1
    rw [hlt]
    rfl
  show min (Scalar.select (IntOp.cmpi .slt (s (ix1 e)) 0#32) (IntOp.addi (s (ix1 e)) 102400#32) (s (ix1 e))).toInt.toNat
      (102400 - 1) = _
  rw [hc, select_zero]
  omega

/-- A list of `1600000` entries as a column, read at a row. -/
theorem colE_apply {α : Type} (x : S1600000.Idx → α) (hb : S1600000.BroadcastsInDim S1600000x1 (![0] : Fin 1 → Fin S1600000x1.rank))
    (e : Fin 1600000) : broadcastInDim S1600000x1 ![0] hb x (ix2 e (0 : Fin 1)) = x (ix1 e) := by
  refine broadcastInDim_apply _ _ x (ix2 e (0 : Fin 1)) (ix1 e) fun a => ?_
  match a with
  | ⟨0, _⟩ => rfl

/-- A list of `102400` entries as a column, read at a row. -/
theorem colN_apply {α : Type} (x : S102400.Idx → α) (hb : S102400.BroadcastsInDim S102400x1 (![0] : Fin 1 → Fin S102400x1.rank))
    (n : Fin 102400) : broadcastInDim S102400x1 ![0] hb x (ix2 n (0 : Fin 1)) = x (ix1 n) := by
  refine broadcastInDim_apply _ _ x (ix2 n (0 : Fin 1)) (ix1 n) fun a => ?_
  match a with
  | ⟨0, _⟩ => rfl

/-- A column spread over `128` columns reads its row's entry. -/
theorem spread_apply {α : Type} (x : S102400x1.Idx → α)
    (hb : S102400x1.BroadcastsInDim S102400x128 (![0, 1] : Fin 2 → Fin S102400x128.rank)) (n : Fin 102400) (k : Fin 128) :
    broadcastInDim S102400x128 ![0, 1] hb x (ix2 n k) = x (ix2 n (0 : Fin 1)) := by
  refine broadcastInDim_apply _ _ x (ix2 n k) (ix2 n (0 : Fin 1)) fun a => ?_
  match a with
  | ⟨0, _⟩ => rfl
  | ⟨1, _⟩ => rfl

/-- The printed row gather is the row gather of `[102400, 128]` by `[1600000, 1]`. -/
theorem gatherRec_eq : gather_S102400x128_S1600000x1_S1600000x128_1_0_n_n_0_1_1128
    = rowGatherDims 102400 1600000 128 Facts₀.gather_S102400x128_S1600000x1_S1600000x128_1_0_n_n_0_1_1128_wf := rfl

/-- The printed row scatter is the row scatter of `[102400, 128]` by `[1600000, 1]`. -/
theorem scatterRec_eq : scatter_S102400x128_S1600000x1_S1600000x128_1_0_0_1
    = rowScatterDims 102400 1600000 128 Facts₀.scatter_S102400x128_S1600000x1_S1600000x128_1_0_0_1_wf := rfl

/-- The printed list scatter is the list scatter of `[102400]` by `[1600000, 1]`. -/
theorem scatterVecRec_eq : scatter_S102400_S1600000x1_S1600000_n_0_0_1
    = vecScatterDims 102400 1600000 Facts₀.scatter_S102400_S1600000x1_S1600000_n_0_0_1_wf := rfl

/-- One layer's aggregation as the host operations compose it, from the destination list `dst`, the source list
    `src` and the node table `h`: the gathered source rows summed into their destination rows, over the count of
    each destination floored at one. -/
def meanTerm (dst src : IVec S1600000 32) (h : FVec Ideal S102400x128 .f32) : FVec Ideal S102400x128 .f32 :=
  Host.divf
    (Host.scatterAdd (F := Ideal) scatter_S102400x128_S1600000x1_S1600000x128_1_0_0_1
      (broadcastInDim S102400x128 ![] bcast_S_S102400x128 (constant (F := Ideal) S_ .f32 0x00000000#32))
      (broadcastInDim S1600000x1 ![0] bcast_S1600000_S1600000x1_0 dst)
      (Host.gather gather_S102400x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 102400#32))) src))))
    (broadcastInDim S102400x128 ![0, 1] bcast_S102400x1_S102400x128_0_1
      (broadcastInDim S102400x1 ![0] bcast_S102400_S102400x1_0
        (maximumf
          (Host.scatterAdd (F := Ideal) scatter_S102400_S1600000x1_S1600000_n_0_0_1
            (broadcastInDim S102400 ![] bcast_S_S102400 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S102400 ![] bcast_S_S102400 (constant (F := Ideal) S_ .f32 0x3F800000#32)))))

/-- The row index the gather is handed for edge `e`: the wrapped source number. -/
theorem wrapped_apply (src : IVec S1600000 32) (e : Fin 1600000) :
    broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 102400#32))) src) (ix2 e (0 : Fin 1))
      = Scalar.select (IntOp.cmpi .slt (src (ix1 e)) 0#32) (IntOp.addi (src (ix1 e)) 102400#32) (src (ix1 e)) := by
  rw [colE_apply]
  show Scalar.select (IntOp.cmpi .slt (src (ix1 e)) (broadcastInDim S1600000 ![] bcast_S_S1600000 (constantI S_ 32 0#32) (ix1 e)))
      (IntOp.addi (src (ix1 e)) (broadcastInDim S1600000 ![] bcast_S_S1600000 (constantI S_ 32 102400#32) (ix1 e))) (src (ix1 e)) = _
  rw [broadcastInDim_scalar_apply, broadcastInDim_scalar_apply]
  rfl

/-- THE AGGREGATION READ AT `(n, k)`: the mean, over the edges into row `n`, of column `k` of the rows their
    sources read. -/
theorem meanTerm_apply (dst src : IVec S1600000 32) (h : FVec Ideal S102400x128 .f32) (n : Fin 102400) (k : Fin 128) :
    meanTerm dst src h (ix2 n k)
      = Cert.Sage.meanRows Cert.Sage.z Cert.Sage.one (fun e => (dst (ix1 e)).toInt) (srcRowK src) (Cert.Sage.tab h) n.val k := by
  unfold meanTerm Cert.Sage.meanRows Cert.Sage.meanAt Cert.Sage.segSum
  rw [hostDivf_apply]
  refine congrArg₂ Ideal.div ?_ ?_
  · rw [scatterRec_eq, gatherRec_eq, rowScatterAdd_apply, broadcastInDim_scalar_apply]
    refine congrArg₂ (· + ·) rfl ?_
    refine Finset.sum_congr (Finset.filter_congr fun e _ => by rw [colE_apply]) fun e _ => ?_
    rw [rowGather_apply (by decide : 0 < 102400)]
    refine congrArg (fun r : Fin 102400 => h (ix2 r k)) (Fin.ext ?_)
    show min _ (102400 - 1) = (srcRowK src e).val
    rw [wrapped_apply]
    rfl
  · rw [spread_apply, colN_apply, maximumf_apply, scatterVecRec_eq, vecScatterAdd_apply, broadcastInDim_scalar_apply,
      broadcastInDim_scalar_apply]
    refine congrArg₂ max (congrArg₂ (· + ·) rfl ?_) rfl
    refine Finset.sum_congr (Finset.filter_congr fun e _ => by rw [colE_apply]) fun e _ => ?_
    rw [broadcastInDim_scalar_apply]
    rfl

set_option maxHeartbeats 1000000 in
/-- The first layer's aggregation after the fifth stretch. -/
theorem mean1_apply (n : Fin 102400) (k : Fin 128) :
    StableHlo.after (hostOps0_4 (F := Ideal)) W main_v25 (ix2 n k)
      = Cert.Sage.meanRows Cert.Sage.z Cert.Sage.one (fun e => (W main_v3 (ix1 e)).toInt) (srcRowK (W main_v1))
          (Cert.Sage.tab (W main_v4)) n.val k := by
  have h : (StableHlo.after (hostOps0_4 (F := Ideal)) W main_v25 : S102400x128.Idx → EReal)
      = meanTerm (W main_v3) (W main_v1) (W main_v4) := by
    show StableHlo.after (hostOps0_4 (F := Ideal)) W (Proc.devRef .tc main_v25) = _
    unfold meanTerm
    after_results_simp <;> rfl
  rw [h, meanTerm_apply]

set_option maxHeartbeats 1000000 in
/-- The second layer's aggregation after the stretch between the two layers' regions. -/
theorem mean2_apply (n : Fin 102400) (k : Fin 128) :
    StableHlo.after (hostOps1 (F := Ideal)) W main_v45 (ix2 n k)
      = Cert.Sage.meanRows Cert.Sage.z Cert.Sage.one (fun e => (W main_v3 (ix1 e)).toInt) (srcRowK (W main_v1))
          (Cert.Sage.tab (W main_v26)) n.val k := by
  have h : (StableHlo.after (hostOps1 (F := Ideal)) W main_v45 : S102400x128.Idx → EReal)
      = meanTerm (W main_v3) (W main_v1) (W main_v26) := by
    show StableHlo.after (hostOps1 (F := Ideal)) W (Proc.devRef .tc main_v45) = _
    unfold meanTerm
    after_results_simp <;> rfl
  rw [h, meanTerm_apply]

end Cert.KernelIdeal.HostVal

end
-- ==== Proof.KI.Chain.lean ====
/-
  The kernel program's buffers at the segment boundaries, read at an index from the launch memory `m`, at the
  ideal values:

  * the source rows `srK` and the padded node table `xpK` (the node features on its first `100000` rows);
  * call 0's output array is one layer (`Cert.Sage.layerRows`) of the padded table, call 1's output array one
    layer of that;
  * the graph numbers' column is the nodes' graph numbers with `64` on the rows past them;
  * the head's weights are as launched.
-/
import proofs.«421121_j36687610642889_1_alg».proof.Proof.KI.Run
import proofs.«421121_j36687610642889_1_alg».proof.Proof.KI.Val0
import proofs.«421121_j36687610642889_1_alg».proof.Proof.KI.Val1
import proofs.«421121_j36687610642889_1_alg».proof.Proof.KI.HostVal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg) (c : Dev nD)

/-! ## What a host stretch does not write it leaves alone -/

theorem W0_eq (r : Ref sig .tc) : W0 m ρ c (Proc.devRef .tc r) = m ((c : Thread nD τ).loc r) := rfl
theorem W1_keep (r : Ref sig .tc) (h : r ∉ hostOps0_W) : W1 m ρ c (Proc.devRef .tc r) = W0 m ρ c (Proc.devRef .tc r) :=
  StableHlo.after_of_writes_sub hostOps0 _ hostOps0_writes h
theorem W2_keep (r : Ref sig .tc) (h : r ∉ hostOps0_1_W) : W2 m ρ c (Proc.devRef .tc r) = W1 m ρ c (Proc.devRef .tc r) :=
  StableHlo.after_of_writes_sub hostOps0_1 _ hostOps0_1_writes h
theorem W3_keep (r : Ref sig .tc) (h : r ∉ hostOps0_2_W) : W3 m ρ c (Proc.devRef .tc r) = W2 m ρ c (Proc.devRef .tc r) :=
  StableHlo.after_of_writes_sub hostOps0_2 _ hostOps0_2_writes h
theorem W4_keep (r : Ref sig .tc) (h : r ∉ hostOps0_3_W) : W4 m ρ c (Proc.devRef .tc r) = W3 m ρ c (Proc.devRef .tc r) :=
  StableHlo.after_of_writes_sub hostOps0_3 _ hostOps0_3_writes h
theorem W5_keep (r : Ref sig .tc) (h : r ∉ hostOps0_4_W) : W5 m ρ c (Proc.devRef .tc r) = W4 m ρ c (Proc.devRef .tc r) :=
  StableHlo.after_of_writes_sub hostOps0_4 _ hostOps0_4_writes h
theorem W7_keep (r : Ref sig .tc) (h : r ∉ hostOps1_W) : W7 m ρ c (Proc.devRef .tc r) = W6 m ρ c (Proc.devRef .tc r) :=
  StableHlo.after_of_writes_sub hostOps1 _ hostOps1_writes h

/-- A buffer none of the first five stretches writes is, at call 0's entry, as launched. -/
theorem W5_launch (r : Ref sig .tc) (h4 : r ∉ hostOps0_4_W) (h3 : r ∉ hostOps0_3_W) (h2 : r ∉ hostOps0_2_W)
    (h1 : r ∉ hostOps0_1_W) (h0 : r ∉ hostOps0_W) : W5 m ρ c (Proc.devRef .tc r) = m ((c : Thread nD τ).loc r) := by
  rw [W5_keep m ρ c r h4, W4_keep m ρ c r h3, W3_keep m ρ c r h2, W2_keep m ρ c r h1, W1_keep m ρ c r h0]

/-! ## The edge lists, the source rows and the padded node table -/

/-- The destination list, at every boundary from the first on, is the edge list's row 1 read signed. -/
theorem dstK_eq : (fun e : Fin 1600000 => (W1 m ρ c (Proc.devRef .tc main_v3) (ix1 e)).toInt)
    = Cert.Sage.dstInt (m ((c : Thread nD τ).loc main_arg1)) :=
  funext fun e => congrArg BitVec.toInt (HostVal.dst_apply (W0 m ρ c) e)

/-- The row of the padded table edge `e`'s source reads. -/
def srK (e : Fin 1600000) : Fin 102400 := HostVal.srcRowK (W1 m ρ c (Proc.devRef .tc main_v1)) e

/-- A source number inside the node range reads its own row. -/
theorem srK_val (e : Fin 1600000)
    (h : 0 ≤ Cert.Sage.srcInt (m ((c : Thread nD τ).loc main_arg1)) e
      ∧ Cert.Sage.srcInt (m ((c : Thread nD τ).loc main_arg1)) e < 100000) :
    (srK m ρ c e).val = (Cert.Sage.srcInt (m ((c : Thread nD τ).loc main_arg1)) e).toNat := by
  have hs : W1 m ρ c (Proc.devRef .tc main_v1) (ix1 e) = m ((c : Thread nD τ).loc main_arg1) (ix2 (0 : Fin 2) e) :=
    HostVal.src_apply (W0 m ρ c) e
  unfold srK
  rw [HostVal.srcRowK_val _ e (by rw [hs]; exact h), hs]
  rfl

/-- The padded node table, as call 0 is entered. -/
def xpK : Fin 102400 → Fin 128 → EReal := Cert.Sage.tab (W5 m ρ c (Proc.devRef .tc main_v4))

/-- On the first `100000` rows the padded table is the node features. -/
theorem xpK_agree (a : Fin 102400) (a' : Fin 100000) (h : a.val = a'.val) :
    xpK m ρ c a = Cert.Sage.tab (m ((c : Thread nD τ).loc main_arg0)) a' := by
  funext k
  show W5 m ρ c (Proc.devRef .tc main_v4) (ix2 a k) = m ((c : Thread nD τ).loc main_arg0) (ix2 a' k)
  rw [W5_keep m ρ c main_v4 (by decide), W4_keep m ρ c main_v4 (by decide), W3_keep m ρ c main_v4 (by decide)]
  refine (HostVal.xpad_apply (W1 m ρ c) a k).trans ?_
  have ha : a.val < 100000 := h ▸ a'.isLt
  rw [dif_pos ha, W1_keep m ρ c main_arg0 (by decide)]
  exact congrArg (fun r : Fin 100000 => m ((c : Thread nD τ).loc main_arg0) (ix2 r k)) (Fin.ext h)

/-! ## The first layer -/

/-- The first aggregation, as call 0 is entered. -/
theorem W5_mean (n : Fin 102400) (k : Fin 128) :
    W5 m ρ c (Proc.devRef .tc main_v25) (ix2 n k)
      = Cert.Sage.meanRows Cert.Sage.z Cert.Sage.one (Cert.Sage.dstInt (m ((c : Thread nD τ).loc main_arg1))) (srK m ρ c)
          (xpK m ρ c) n.val k := by
  refine (HostVal.mean1_apply (W4 m ρ c) n k).trans ?_
  have h3 : W4 m ρ c (Proc.devRef .tc main_v3) = W1 m ρ c (Proc.devRef .tc main_v3) := by
    rw [W4_keep m ρ c main_v3 (by decide), W3_keep m ρ c main_v3 (by decide), W2_keep m ρ c main_v3 (by decide)]
  have h1 : W4 m ρ c (Proc.devRef .tc main_v1) = W1 m ρ c (Proc.devRef .tc main_v1) := by
    rw [W4_keep m ρ c main_v1 (by decide), W3_keep m ρ c main_v1 (by decide), W2_keep m ρ c main_v1 (by decide)]
  have h4 : W4 m ρ c (Proc.devRef .tc main_v4) = W5 m ρ c (Proc.devRef .tc main_v4) := (W5_keep m ρ c main_v4 (by decide)).symm
  rw [h3, h1, h4, dstK_eq]
  rfl

/-- The first layer's output: call 0's output array as it leaves it. -/
theorem h1K_eq (n : Fin 102400) (j : Fin 128) :
    W6 m ρ c (Proc.devRef .tc main_v26) (ix2 n j)
      = Cert.Sage.layerRows Cert.Sage.z Cert.Sage.one (Cert.Sage.dstInt (m ((c : Thread nD τ).loc main_arg1))) (srK m ρ c)
          (xpK m ρ c) (Cert.Sage.tab (m ((c : Thread nD τ).loc main_arg3))) (Cert.Sage.tab (m ((c : Thread nD τ).loc main_arg5)))
          (Cert.Sage.vec (m ((c : Thread nD τ).loc main_arg4))) n j := by
  have ha : W6 m ρ c (Proc.devRef .tc main_v26) = (dat0 (VW5 m ρ) c).arrAt 5 cfg0.N := W6_arr m ρ c 5
  rw [ha, arr0_apply]
  show Cert.Sage.layerAt (fun k => W5 m ρ c (Proc.devRef .tc main_v25) (ix2 n k))
      (fun k => W5 m ρ c (Proc.devRef .tc main_v4) (ix2 n k))
      (Cert.Sage.tab (W5 m ρ c (Proc.devRef .tc main_arg3))) (Cert.Sage.tab (W5 m ρ c (Proc.devRef .tc main_arg5)))
      (Cert.Sage.vec (W5 m ρ c (Proc.devRef .tc main_arg4))) Cert.Sage.z j = _
  have e1 : (fun k => W5 m ρ c (Proc.devRef .tc main_v25) (ix2 n k))
      = Cert.Sage.meanRows Cert.Sage.z Cert.Sage.one (Cert.Sage.dstInt (m ((c : Thread nD τ).loc main_arg1))) (srK m ρ c)
          (xpK m ρ c) n.val := funext fun k => W5_mean m ρ c n k
  rw [e1, W5_launch m ρ c main_arg3 (by decide) (by decide) (by decide) (by decide) (by decide),
    W5_launch m ρ c main_arg5 (by decide) (by decide) (by decide) (by decide) (by decide),
    W5_launch m ρ c main_arg4 (by decide) (by decide) (by decide) (by decide) (by decide)]
  rfl

/-! ## The second layer -/

/-- The second aggregation, as call 1 is entered: the mean of the first layer's output rows. -/
theorem W7_mean (n : Fin 102400) (k : Fin 128) :
    W7 m ρ c (Proc.devRef .tc main_v45) (ix2 n k)
      = Cert.Sage.meanRows Cert.Sage.z Cert.Sage.one (Cert.Sage.dstInt (m ((c : Thread nD τ).loc main_arg1))) (srK m ρ c)
          (Cert.Sage.layerRows Cert.Sage.z Cert.Sage.one (Cert.Sage.dstInt (m ((c : Thread nD τ).loc main_arg1))) (srK m ρ c)
            (xpK m ρ c) (Cert.Sage.tab (m ((c : Thread nD τ).loc main_arg3))) (Cert.Sage.tab (m ((c : Thread nD τ).loc main_arg5)))
            (Cert.Sage.vec (m ((c : Thread nD τ).loc main_arg4)))) n.val k := by
  refine (HostVal.mean2_apply (W6 m ρ c) n k).trans ?_
  have h3 : W6 m ρ c (Proc.devRef .tc main_v3) = W1 m ρ c (Proc.devRef .tc main_v3) := by
    rw [W6_of_ne m ρ c main_v3 (by decide), W5_keep m ρ c main_v3 (by decide), W4_keep m ρ c main_v3 (by decide),
      W3_keep m ρ c main_v3 (by decide), W2_keep m ρ c main_v3 (by decide)]
  have h1 : W6 m ρ c (Proc.devRef .tc main_v1) = W1 m ρ c (Proc.devRef .tc main_v1) := by
    rw [W6_of_ne m ρ c main_v1 (by decide), W5_keep m ρ c main_v1 (by decide), W4_keep m ρ c main_v1 (by decide),
      W3_keep m ρ c main_v1 (by decide), W2_keep m ρ c main_v1 (by decide)]
  have h26 : Cert.Sage.tab (W6 m ρ c (Proc.devRef .tc main_v26))
      = Cert.Sage.layerRows Cert.Sage.z Cert.Sage.one (Cert.Sage.dstInt (m ((c : Thread nD τ).loc main_arg1))) (srK m ρ c)
          (xpK m ρ c) (Cert.Sage.tab (m ((c : Thread nD τ).loc main_arg3))) (Cert.Sage.tab (m ((c : Thread nD τ).loc main_arg5)))
          (Cert.Sage.vec (m ((c : Thread nD τ).loc main_arg4))) :=
    funext fun a => funext fun b => h1K_eq m ρ c a b
  rw [h3, h1, h26, dstK_eq]
  rfl

/-- A buffer neither the stretches nor call 0 write is, at call 1's entry, as launched. -/
theorem W7_launch (r : Ref sig .tc) (h7 : r ∉ hostOps1_W) (h6 : ∀ w, Pipeline.arrRef spec0 w ≠ r) (h4 : r ∉ hostOps0_4_W)
    (h3 : r ∉ hostOps0_3_W) (h2 : r ∉ hostOps0_2_W) (h1 : r ∉ hostOps0_1_W) (h0 : r ∉ hostOps0_W) :
    W7 m ρ c (Proc.devRef .tc r) = m ((c : Thread nD τ).loc r) := by
  rw [W7_keep m ρ c r h7, W6_of_ne m ρ c r h6, W5_launch m ρ c r h4 h3 h2 h1 h0]

/-- The second layer's output: call 1's output array as it leaves it. -/
theorem h2K_eq (n : Fin 102400) (j : Fin 128) :
    W8 m ρ c (Proc.devRef .tc main_v46) (ix2 n j)
      = Cert.Sage.layerRows Cert.Sage.z Cert.Sage.one (Cert.Sage.dstInt (m ((c : Thread nD τ).loc main_arg1))) (srK m ρ c)
          (Cert.Sage.layerRows Cert.Sage.z Cert.Sage.one (Cert.Sage.dstInt (m ((c : Thread nD τ).loc main_arg1))) (srK m ρ c)
            (xpK m ρ c) (Cert.Sage.tab (m ((c : Thread nD τ).loc main_arg3))) (Cert.Sage.tab (m ((c : Thread nD τ).loc main_arg5)))
            (Cert.Sage.vec (m ((c : Thread nD τ).loc main_arg4))))
          (Cert.Sage.tab (m ((c : Thread nD τ).loc main_arg6))) (Cert.Sage.tab (m ((c : Thread nD τ).loc main_arg8)))
          (Cert.Sage.vec (m ((c : Thread nD τ).loc main_arg7))) n j := by
  have ha : W8 m ρ c (Proc.devRef .tc main_v46) = (dat1 (VW7 m ρ) c).arrAt 5 cfg1.N := W8_arr m ρ c 5
  rw [ha, arr1_apply]
  show Cert.Sage.layerAt (fun k => W7 m ρ c (Proc.devRef .tc main_v45) (ix2 n k))
      (fun k => W7 m ρ c (Proc.devRef .tc main_v26) (ix2 n k))
      (Cert.Sage.tab (W7 m ρ c (Proc.devRef .tc main_arg6))) (Cert.Sage.tab (W7 m ρ c (Proc.devRef .tc main_arg8)))
      (Cert.Sage.vec (W7 m ρ c (Proc.devRef .tc main_arg7))) Cert.Sage.z j = _
  have e1 : (fun k => W7 m ρ c (Proc.devRef .tc main_v45) (ix2 n k)) = _ := funext fun k => W7_mean m ρ c n k
  have e2 : (fun k => W7 m ρ c (Proc.devRef .tc main_v26) (ix2 n k))
      = Cert.Sage.layerRows Cert.Sage.z Cert.Sage.one (Cert.Sage.dstInt (m ((c : Thread nD τ).loc main_arg1))) (srK m ρ c)
          (xpK m ρ c) (Cert.Sage.tab (m ((c : Thread nD τ).loc main_arg3))) (Cert.Sage.tab (m ((c : Thread nD τ).loc main_arg5)))
          (Cert.Sage.vec (m ((c : Thread nD τ).loc main_arg4))) n :=
    funext fun k => (congrFun (W7_keep m ρ c main_v26 (by decide)) (ix2 n k)).trans (h1K_eq m ρ c n k)
  rw [e1, e2, W7_launch m ρ c main_arg6 (by decide) (by decide) (by decide) (by decide) (by decide) (by decide) (by decide),
    W7_launch m ρ c main_arg8 (by decide) (by decide) (by decide) (by decide) (by decide) (by decide) (by decide),
    W7_launch m ρ c main_arg7 (by decide) (by decide) (by decide) (by decide) (by decide) (by decide) (by decide)]
  rfl

/-! ## What call 2 is entered with besides -/

/-- The pad word of the graph numbers is 64. -/
theorem W3_c0 : W3 m ρ c (Proc.devRef .tc main_c_0) ix0 = 64#32 := by
  have h : (W3 m ρ c (Proc.devRef .tc main_c_0) : S_.Idx → BitVec 32) = constantI S_ 32 64#32 := by
    show StableHlo.after (hostOps0_2 (F := Ideal)) (W2 m ρ c) (Proc.devRef .tc main_c_0) = _
    after_results
  rw [h]
  rfl

/-- The graph numbers' column at call 2's entry: the nodes' graph numbers, 64 on the rows past them. -/
theorem bcol8 (n : Fin 102400) :
    W8 m ρ c (Proc.devRef .tc main_v6) (ix2 n (0 : Fin 1))
      = if h : n.val < 100000 then m ((c : Thread nD τ).loc main_arg2) (ix1 ⟨n.val, h⟩) else 64#32 := by
  rw [W8_of_ne m ρ c main_v6 (by decide), W7_keep m ρ c main_v6 (by decide), W6_of_ne m ρ c main_v6 (by decide)]
  refine (HostVal.bcol_apply (W4 m ρ c) n).trans ?_
  refine (HostVal.bpad_apply (W3 m ρ c) n).trans ?_
  rw [W3_keep m ρ c main_arg2 (by decide), W2_keep m ρ c main_arg2 (by decide), W1_keep m ρ c main_arg2 (by decide), W3_c0]

/-- A buffer nothing before call 2 writes is, at call 2's entry, as launched. -/
theorem W8_launch (r : Ref sig .tc) (h8 : ∀ w, Pipeline.arrRef spec1 w ≠ r) (h7 : r ∉ hostOps1_W)
    (h6 : ∀ w, Pipeline.arrRef spec0 w ≠ r) (h4 : r ∉ hostOps0_4_W) (h3 : r ∉ hostOps0_3_W) (h2 : r ∉ hostOps0_2_W)
    (h1 : r ∉ hostOps0_1_W) (h0 : r ∉ hostOps0_W) : W8 m ρ c (Proc.devRef .tc r) = m ((c : Thread nD τ).loc r) := by
  rw [W8_of_ne m ρ c r h8, W7_launch m ρ c r h7 h6 h4 h3 h2 h1 h0]

theorem W8_arg9 : W8 m ρ c (Proc.devRef .tc main_arg9) = m ((c : Thread nD τ).loc main_arg9) :=
  W8_launch m ρ c main_arg9 (by decide) (by decide) (by decide) (by decide) (by decide) (by decide) (by decide) (by decide)
theorem W8_arg10 : W8 m ρ c (Proc.devRef .tc main_arg10) = m ((c : Thread nD τ).loc main_arg10) :=
  W8_launch m ρ c main_arg10 (by decide) (by decide) (by decide) (by decide) (by decide) (by decide) (by decide) (by decide)

end Cert.KernelIdeal.Hand

end
-- ==== Proof.RefVal.lean ====
/-
  The reference program's result at the ideal values, index by index, through the shared functions of the
  two programs' mathematics.

  * The row a source reads: the source word of edge `e`, with 100000 added where it reads negative, read
    signed and clamped into `[0, 99999]` (`srcRowR`); for a source number inside the table it is that number.
  * Each layer: the gathered source rows are summed per destination node into a zero-filled table, the
    per-node edge count is a sum of ones floored at one, the quotient goes through the left weights, the bias
    is added, the node's own row goes through the right weights, and the sum is floored at zero — row `n`,
    column `j` of `h1R`, then of `h2R` over `h1R`.
  * The logits are the second layer's rows through the last weights plus the last bias (`logitR`), and the
    result at `(g, j)` is the mean of logit `j` over the nodes whose graph number is `g` (`ref_out`).
-/
import proofs.«421121_j36687610642889_1_alg».proof.Proof.Spec
import proofs.«421121_j36687610642889_1_alg».proof.Proof.Gen.ReferenceIdeal.Read
import proofs.«421121_j36687610642889_1_alg».proof.Proof.LibRows
import proofs.«421121_j36687610642889_1_alg».proof.Proof.LibRows1

noncomputable section

open scoped BigOperators

namespace Cert.RefVal

open Cert.ReferenceIdeal Cert.ReferenceIdeal.Gen Cert.ReferenceIdeal.Read Idealize.ShloMosaic Idealize.ShloMosaic.StableHlo
open Idealize.ShloMosaic.ValueIdx

/-! ## The edge list's two rows, read at an edge -/

/-- The flattened first row of the edge list at `e` is the edge list at `(0, e)`. -/
theorem v1_at (x1 : IVec S2x1600000 32) (e : Fin 1600000) :
    val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- The flattened second row of the edge list at `e` is the edge list at `(1, e)`. -/
theorem v3_at (x1 : IVec S2x1600000 32) (e : Fin 1600000) :
    val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-! ## The row a source reads -/

/-- The word the gather takes as edge `e`'s row number: the source word, with 100000 added where it reads negative. -/
def srcWord (x1 : IVec S2x1600000 32) (e : Fin 1600000) : BitVec 32 :=
  Scalar.select (IntOp.cmpi .slt (x1 (ix2 (0 : Fin 2) e)) 0#32) (IntOp.addi (x1 (ix2 (0 : Fin 2) e)) 100000#32)
    (x1 (ix2 (0 : Fin 2) e))

/-- The first layer's column of row numbers at `e`. -/
theorem v9_at (x1 : IVec S2x1600000 32) (e : Fin 1600000) :
    val_main_v9 (F := Ideal) x1 (ix2 e (0 : Fin 1)) = srcWord x1 e := by
  have hi : idx_main_v9 (ix2 e (0 : Fin 1)) = ix1 e := funext fun a => Fin.ext (by match a with | ⟨0, _⟩ => rfl)
  rw [val_main_v9_apply, hi, val_main_v8_apply, val_main_v5_apply, val_main_v7_apply, v1_at, val_main_v4_apply,
    val_main_c_apply, val_main_v6_apply, val_main_c_0_apply]
  rfl

/-- The second layer's column of row numbers at `e`: the same word. -/
theorem v35_at (x1 : IVec S2x1600000 32) (e : Fin 1600000) :
    val_main_v35 (F := Ideal) x1 (ix2 e (0 : Fin 1)) = srcWord x1 e := by
  have hi : idx_main_v35 (ix2 e (0 : Fin 1)) = ix1 e := funext fun a => Fin.ext (by match a with | ⟨0, _⟩ => rfl)
  rw [val_main_v35_apply, hi, val_main_v34_apply, val_main_v31_apply, val_main_v33_apply, v1_at, val_main_v30_apply,
    val_main_c_4_apply, val_main_v32_apply, val_main_c_5_apply]
  rfl

/-- The row of a 100000-row table the gather reads for edge `e`: the row-number word read signed, clamped into the table. -/
def srcRowR (x1 : IVec S2x1600000 32) (e : Fin 1600000) : Fin 100000 :=
  ⟨min (srcWord x1 e).toInt.toNat (100000 - 1), by omega⟩

/-- A source word that reads nonnegative is taken as it stands. -/
theorem srcWord_of_nonneg (x1 : IVec S2x1600000 32) (e : Fin 1600000) (h : 0 ≤ (x1 (ix2 (0 : Fin 2) e)).toInt) :
    srcWord x1 e = x1 (ix2 (0 : Fin 2) e) := by
  have hlt : (x1 (ix2 (0 : Fin 2) e)).slt 0#32 = false := by
    rw [Bool.eq_false_iff]
    intro hs
    rw [BitVec.slt_iff_toInt_lt] at hs
    have h0 : (0#32 : BitVec 32).toInt = 0 := by decide
    omega
  show (if BitVec.ofBool ((x1 (ix2 (0 : Fin 2) e)).slt 0#32) = 1 then _ else _) = _
  rw [hlt]
  rfl

/-- For a source number inside the table the row read is that number. -/
theorem srcRowR_val (x1 : IVec S2x1600000 32) (e : Fin 1600000)
    (h : 0 ≤ Cert.Sage.srcInt x1 e ∧ Cert.Sage.srcInt x1 e < 100000) :
    (srcRowR x1 e).val = (Cert.Sage.srcInt x1 e).toNat := by
  unfold Cert.Sage.srcInt at h ⊢
  show min (srcWord x1 e).toInt.toNat (100000 - 1) = _
  rw [srcWord_of_nonneg x1 e h.1]
  omega

/-! ## The row gather and the scatter-adds of the program, read at an index -/

theorem gatherDims_eq :
    gather_S100000x128_S1600000x1_S1600000x128_1_0_n_n_0_1_1128
      = rowGatherDims 100000 1600000 128 Facts₀.gather_S100000x128_S1600000x1_S1600000x128_1_0_n_n_0_1_1128_wf := rfl

theorem scatterDims_eq :
    scatter_S100000x128_S1600000x1_S1600000x128_1_0_0_1
      = rowScatterDims 100000 1600000 128 Facts₀.scatter_S100000x128_S1600000x1_S1600000x128_1_0_0_1_wf := rfl

theorem scatterDims1_eq :
    scatter_S100000_S1600000x1_S1600000_n_0_0_1
      = vecScatterDims 100000 1600000 Facts₀.scatter_S100000_S1600000x1_S1600000_n_0_0_1_wf := rfl

theorem poolDims_eq :
    scatter_S64x10_S100000x1_S100000x10_1_0_0_1
      = rowScatterDims 64 100000 10 Facts₀.scatter_S64x10_S100000x1_S100000x10_1_0_0_1_wf := rfl

theorem poolDims1_eq :
    scatter_S64_S100000x1_S100000_n_0_0_1
      = vecScatterDims 64 100000 Facts₀.scatter_S64_S100000x1_S100000_n_0_0_1_wf := rfl

/-- The row gather at `(e, c)`: the table at the row `r` that the row-number word at `e` names, column `c`. -/
theorem gather_at (x : FVec Ideal S100000x128 .f32) (idx : IVec S1600000x1 32) (e : Fin 1600000) (c : Fin 128)
    (r : Fin 100000) (hr : r.val = min (idx (ix2 e (0 : Fin 1))).toInt.toNat (100000 - 1)) :
    Host.gather gather_S100000x128_S1600000x1_S1600000x128_1_0_n_n_0_1_1128 x idx (ix2 e c) = x (ix2 r c) := by
  rw [gatherDims_eq, rowGather_apply (by decide)]
  congr 2
  exact Fin.ext hr.symm

/-- The node-table scatter-add at `(n, c)`. -/
theorem scatter_at (x : FVec Ideal S100000x128 .f32) (idx : IVec S1600000x1 32) (upd : FVec Ideal S1600000x128 .f32)
    (n : Fin 100000) (c : Fin 128) :
    Host.scatterAdd (F := Ideal) scatter_S100000x128_S1600000x1_S1600000x128_1_0_0_1 x idx upd (ix2 n c)
      = x (ix2 n c) + ∑ e ∈ Finset.univ.filter (fun e : Fin 1600000 => (idx (ix2 e (0 : Fin 1))).toInt = (n.val : ℤ)),
          upd (ix2 e c) := by
  rw [scatterDims_eq]
  exact rowScatterAdd_apply _ x idx upd n c

/-- The node-count scatter-add at `n`. -/
theorem scatter1_at (x : FVec Ideal S100000 .f32) (idx : IVec S1600000x1 32) (upd : FVec Ideal S1600000 .f32)
    (n : Fin 100000) :
    Host.scatterAdd (F := Ideal) scatter_S100000_S1600000x1_S1600000_n_0_0_1 x idx upd (ix1 n)
      = x (ix1 n) + ∑ e ∈ Finset.univ.filter (fun e : Fin 1600000 => (idx (ix2 e (0 : Fin 1))).toInt = (n.val : ℤ)),
          upd (ix1 e) := by
  rw [scatterDims1_eq]
  exact vecScatterAdd_apply _ x idx upd n

/-- The pool's scatter-add at `(g, j)`. -/
theorem pool_at (x : FVec Ideal S64x10 .f32) (idx : IVec S100000x1 32) (upd : FVec Ideal S100000x10 .f32)
    (g : Fin 64) (j : Fin 10) :
    Host.scatterAdd (F := Ideal) scatter_S64x10_S100000x1_S100000x10_1_0_0_1 x idx upd (ix2 g j)
      = x (ix2 g j) + ∑ n ∈ Finset.univ.filter (fun n : Fin 100000 => (idx (ix2 n (0 : Fin 1))).toInt = (g.val : ℤ)),
          upd (ix2 n j) := by
  rw [poolDims_eq]
  exact rowScatterAdd_apply _ x idx upd g j

/-- The pool's count scatter-add at `g`. -/
theorem pool1_at (x : FVec Ideal S64 .f32) (idx : IVec S100000x1 32) (upd : FVec Ideal S100000 .f32) (g : Fin 64) :
    Host.scatterAdd (F := Ideal) scatter_S64_S100000x1_S100000_n_0_0_1 x idx upd (ix1 g)
      = x (ix1 g) + ∑ n ∈ Finset.univ.filter (fun n : Fin 100000 => (idx (ix2 n (0 : Fin 1))).toInt = (g.val : ℤ)),
          upd (ix1 n) := by
  rw [poolDims1_eq]
  exact vecScatterAdd_apply _ x idx upd g

/-! ## The destination column, and the pool's graph-number column -/

theorem v12_at (x1 : IVec S2x1600000 32) (e : Fin 1600000) :
    val_main_v12 (F := Ideal) x1 (ix2 e (0 : Fin 1)) = x1 (ix2 (1 : Fin 2) e) := by
  have hi : idx_main_v12 (ix2 e (0 : Fin 1)) = ix1 e := funext fun a => Fin.ext (by match a with | ⟨0, _⟩ => rfl)
  rw [val_main_v12_apply, hi, v3_at]

theorem v16_at (x1 : IVec S2x1600000 32) (e : Fin 1600000) :
    val_main_v16 (F := Ideal) x1 (ix2 e (0 : Fin 1)) = x1 (ix2 (1 : Fin 2) e) := by
  have hi : idx_main_v16 (ix2 e (0 : Fin 1)) = ix1 e := funext fun a => Fin.ext (by match a with | ⟨0, _⟩ => rfl)
  rw [val_main_v16_apply, hi, v3_at]

theorem v38_at (x1 : IVec S2x1600000 32) (e : Fin 1600000) :
    val_main_v38 (F := Ideal) x1 (ix2 e (0 : Fin 1)) = x1 (ix2 (1 : Fin 2) e) := by
  have hi : idx_main_v38 (ix2 e (0 : Fin 1)) = ix1 e := funext fun a => Fin.ext (by match a with | ⟨0, _⟩ => rfl)
  rw [val_main_v38_apply, hi, v3_at]

theorem v42_at (x1 : IVec S2x1600000 32) (e : Fin 1600000) :
    val_main_v42 (F := Ideal) x1 (ix2 e (0 : Fin 1)) = x1 (ix2 (1 : Fin 2) e) := by
  have hi : idx_main_v42 (ix2 e (0 : Fin 1)) = ix1 e := funext fun a => Fin.ext (by match a with | ⟨0, _⟩ => rfl)
  rw [val_main_v42_apply, hi, v3_at]

theorem v61_at (x2 : IVec S100000 32) (n : Fin 100000) :
    val_main_v61 (F := Ideal) x2 (ix2 n (0 : Fin 1)) = x2 (ix1 n) := by
  have hi : idx_main_v61 (ix2 n (0 : Fin 1)) = ix1 n := funext fun a => Fin.ext (by match a with | ⟨0, _⟩ => rfl)
  rw [val_main_v61_apply, hi]

theorem v65_at (x2 : IVec S100000 32) (n : Fin 100000) :
    val_main_v65 (F := Ideal) x2 (ix2 n (0 : Fin 1)) = x2 (ix1 n) := by
  have hi : idx_main_v65 (ix2 n (0 : Fin 1)) = ix1 n := funext fun a => Fin.ext (by match a with | ⟨0, _⟩ => rfl)
  rw [val_main_v65_apply, hi]

/-! ## The reference's result, through the shared functions -/

variable (x0 : FVec Ideal S100000x128 .f32) (x1 : IVec S2x1600000 32) (x2 : IVec S100000 32)
  (x3 : FVec Ideal S128x128 .f32) (x4 : FVec Ideal S128 .f32) (x5 x6 : FVec Ideal S128x128 .f32)
  (x7 : FVec Ideal S128 .f32) (x8 : FVec Ideal S128x128 .f32) (x9 : FVec Ideal S128x10 .f32) (x10 : FVec Ideal S10 .f32)

/-- The first layer's output table. -/
def h1R : Fin 100000 → Fin 128 → EReal :=
  Cert.Sage.layerRows Cert.Sage.z Cert.Sage.one (Cert.Sage.dstInt x1) (srcRowR x1) (Cert.Sage.tab x0)
    (Cert.Sage.tab x3) (Cert.Sage.tab x5) (Cert.Sage.vec x4)

/-- The second layer's output table. -/
def h2R : Fin 100000 → Fin 128 → EReal :=
  Cert.Sage.layerRows Cert.Sage.z Cert.Sage.one (Cert.Sage.dstInt x1) (srcRowR x1) (h1R x0 x1 x3 x4 x5)
    (Cert.Sage.tab x6) (Cert.Sage.tab x8) (Cert.Sage.vec x7)

/-- Node `n`'s logit `j`. -/
def logitR (n : Fin 100000) (j : Fin 10) : EReal :=
  (∑ k : Fin 128, h2R x0 x1 x3 x4 x5 x6 x7 x8 n k * x9 (ix2 k j)) + x10 (ix1 j)

/-! ### Layer one -/

theorem v10_at (e : Fin 1600000) (c : Fin 128) :
    val_main_v10 (F := Ideal) x0 x1 (ix2 e c) = x0 (ix2 (srcRowR x1 e) c) := by
  unfold val_main_v10
  exact gather_at x0 _ e c (srcRowR x1 e) (by rw [v9_at]; rfl)

theorem v13_at (n : Fin 100000) (c : Fin 128) :
    val_main_v13 (F := Ideal) x0 x1 (ix2 n c)
      = Cert.Sage.segSum Cert.Sage.z (Cert.Sage.dstInt x1) (fun e => x0 (ix2 (srcRowR x1 e) c)) n.val := by
  unfold val_main_v13 Cert.Sage.segSum Cert.Sage.dstInt
  rw [scatter_at, val_main_v11_apply, val_main_cst_apply]
  simp only [v12_at, v10_at]
  rfl

theorem v17_at (n : Fin 100000) :
    val_main_v17 (F := Ideal) x1 (ix1 n)
      = Cert.Sage.segSum Cert.Sage.z (Cert.Sage.dstInt x1) (fun _ => Cert.Sage.one) n.val := by
  unfold val_main_v17 Cert.Sage.segSum Cert.Sage.dstInt
  rw [scatter1_at, val_main_v15_apply, val_main_cst_2_apply]
  simp only [v16_at, val_main_v14_apply, val_main_cst_1_apply]
  rfl

theorem v22_at (n : Fin 100000) (c : Fin 128) :
    val_main_v22 (F := Ideal) x0 x1 (ix2 n c)
      = Cert.Sage.meanRows Cert.Sage.z Cert.Sage.one (Cert.Sage.dstInt x1) (srcRowR x1) (Cert.Sage.tab x0) n.val c := by
  have h21 : idx_main_v21 (ix2 n c) = ix2 n (0 : Fin 1) :=
    funext fun a => Fin.ext (by match a with | ⟨0, _⟩ => rfl | ⟨1, _⟩ => rfl)
  have h20 : idx_main_v20 (ix2 n (0 : Fin 1)) = ix1 n := funext fun a => Fin.ext (by match a with | ⟨0, _⟩ => rfl)
  rw [val_main_v22_apply, v13_at, val_main_v21_apply, h21, val_main_v20_apply, h20, val_main_v19_apply, v17_at,
    val_main_v18_apply, val_main_cst_3_apply]
  rfl

theorem v29_at (n : Fin 100000) (j : Fin 128) :
    val_main_v29 (F := Ideal) x0 x1 x3 x4 x5 (ix2 n j) = h1R x0 x1 x3 x4 x5 n j := by
  have hl23 : ∀ k : Fin 128, lidx_main_v23 (ix2 n j) k = ix2 n k := fun k =>
    funext fun a => Fin.ext (by match a with | ⟨0, _⟩ => rfl | ⟨1, _⟩ => rfl)
  have hr23 : ∀ k : Fin 128, ridx_main_v23 (ix2 n j) k = ix2 k j := fun k =>
    funext fun a => Fin.ext (by match a with | ⟨0, _⟩ => rfl | ⟨1, _⟩ => rfl)
  have hl27 : ∀ k : Fin 128, lidx_main_v27 (ix2 n j) k = ix2 n k := fun k =>
    funext fun a => Fin.ext (by match a with | ⟨0, _⟩ => rfl | ⟨1, _⟩ => rfl)
  have hr27 : ∀ k : Fin 128, ridx_main_v27 (ix2 n j) k = ix2 k j := fun k =>
    funext fun a => Fin.ext (by match a with | ⟨0, _⟩ => rfl | ⟨1, _⟩ => rfl)
  have h25 : idx_main_v25 (ix2 n j) = ix2 (0 : Fin 1) j :=
    funext fun a => Fin.ext (by match a with | ⟨0, _⟩ => rfl | ⟨1, _⟩ => rfl)
  have h24 : idx_main_v24 (ix2 (0 : Fin 1) j) = ix1 j := funext fun a => Fin.ext (by match a with | ⟨0, _⟩ => rfl)
  rw [val_main_v29_apply, val_main_v28_apply, val_main_v26_apply, val_main_v23_apply, val_main_v25_apply, h25,
    val_main_v24_apply, h24, val_main_v27_apply, val_main_call0_v0_apply, val_main_call0_cst_apply]
  simp only [hl23, hr23, hl27, hr27, v22_at]
  rfl

/-! ### Layer two -/

theorem v36_at (e : Fin 1600000) (c : Fin 128) :
    val_main_v36 (F := Ideal) x0 x1 x3 x4 x5 (ix2 e c) = h1R x0 x1 x3 x4 x5 (srcRowR x1 e) c := by
  unfold val_main_v36
  rw [gather_at (val_main_v29 (F := Ideal) x0 x1 x3 x4 x5) _ e c (srcRowR x1 e) (by rw [v35_at]; rfl), v29_at]

theorem v39_at (n : Fin 100000) (c : Fin 128) :
    val_main_v39 (F := Ideal) x0 x1 x3 x4 x5 (ix2 n c)
      = Cert.Sage.segSum Cert.Sage.z (Cert.Sage.dstInt x1) (fun e => h1R x0 x1 x3 x4 x5 (srcRowR x1 e) c) n.val := by
  unfold val_main_v39 Cert.Sage.segSum Cert.Sage.dstInt
  rw [scatter_at, val_main_v37_apply, val_main_cst_6_apply]
  simp only [v38_at, v36_at]
  rfl

theorem v43_at (n : Fin 100000) :
    val_main_v43 (F := Ideal) x1 (ix1 n)
      = Cert.Sage.segSum Cert.Sage.z (Cert.Sage.dstInt x1) (fun _ => Cert.Sage.one) n.val := by
  unfold val_main_v43 Cert.Sage.segSum Cert.Sage.dstInt
  rw [scatter1_at, val_main_v41_apply, val_main_cst_8_apply]
  simp only [v42_at, val_main_v40_apply, val_main_cst_7_apply]
  rfl

theorem v48_at (n : Fin 100000) (c : Fin 128) :
    val_main_v48 (F := Ideal) x0 x1 x3 x4 x5 (ix2 n c)
      = Cert.Sage.meanRows Cert.Sage.z Cert.Sage.one (Cert.Sage.dstInt x1) (srcRowR x1) (h1R x0 x1 x3 x4 x5) n.val c := by
  have h47 : idx_main_v47 (ix2 n c) = ix2 n (0 : Fin 1) :=
    funext fun a => Fin.ext (by match a with | ⟨0, _⟩ => rfl | ⟨1, _⟩ => rfl)
  have h46 : idx_main_v46 (ix2 n (0 : Fin 1)) = ix1 n := funext fun a => Fin.ext (by match a with | ⟨0, _⟩ => rfl)
  rw [val_main_v48_apply, v39_at, val_main_v47_apply, h47, val_main_v46_apply, h46, val_main_v45_apply, v43_at,
    val_main_v44_apply, val_main_cst_9_apply]
  rfl

theorem v55_at (n : Fin 100000) (j : Fin 128) :
    val_main_v55 (F := Ideal) x0 x1 x3 x4 x5 x6 x7 x8 (ix2 n j) = h2R x0 x1 x3 x4 x5 x6 x7 x8 n j := by
  have hl49 : ∀ k : Fin 128, lidx_main_v49 (ix2 n j) k = ix2 n k := fun k =>
    funext fun a => Fin.ext (by match a with | ⟨0, _⟩ => rfl | ⟨1, _⟩ => rfl)
  have hr49 : ∀ k : Fin 128, ridx_main_v49 (ix2 n j) k = ix2 k j := fun k =>
    funext fun a => Fin.ext (by match a with | ⟨0, _⟩ => rfl | ⟨1, _⟩ => rfl)
  have hl53 : ∀ k : Fin 128, lidx_main_v53 (ix2 n j) k = ix2 n k := fun k =>
    funext fun a => Fin.ext (by match a with | ⟨0, _⟩ => rfl | ⟨1, _⟩ => rfl)
  have hr53 : ∀ k : Fin 128, ridx_main_v53 (ix2 n j) k = ix2 k j := fun k =>
    funext fun a => Fin.ext (by match a with | ⟨0, _⟩ => rfl | ⟨1, _⟩ => rfl)
  have h51 : idx_main_v51 (ix2 n j) = ix2 (0 : Fin 1) j :=
    funext fun a => Fin.ext (by match a with | ⟨0, _⟩ => rfl | ⟨1, _⟩ => rfl)
  have h50 : idx_main_v50 (ix2 (0 : Fin 1) j) = ix1 j := funext fun a => Fin.ext (by match a with | ⟨0, _⟩ => rfl)
  rw [val_main_v55_apply, val_main_v54_apply, val_main_v52_apply, val_main_v49_apply, val_main_v51_apply, h51,
    val_main_v50_apply, h50, val_main_v53_apply, val_main_call1_v0_apply, val_main_call1_cst_apply]
  simp only [hl49, hr49, hl53, hr53, v48_at, v29_at]
  rfl

/-! ### The logits and the pool -/

theorem v59_at (n : Fin 100000) (j : Fin 10) :
    val_main_v59 (F := Ideal) x0 x1 x3 x4 x5 x6 x7 x8 x9 x10 (ix2 n j) = logitR x0 x1 x3 x4 x5 x6 x7 x8 x9 x10 n j := by
  have hl56 : ∀ k : Fin 128, lidx_main_v56 (ix2 n j) k = ix2 n k := fun k =>
    funext fun a => Fin.ext (by match a with | ⟨0, _⟩ => rfl | ⟨1, _⟩ => rfl)
  have hr56 : ∀ k : Fin 128, ridx_main_v56 (ix2 n j) k = ix2 k j := fun k =>
    funext fun a => Fin.ext (by match a with | ⟨0, _⟩ => rfl | ⟨1, _⟩ => rfl)
  have h58 : idx_main_v58 (ix2 n j) = ix2 (0 : Fin 1) j :=
    funext fun a => Fin.ext (by match a with | ⟨0, _⟩ => rfl | ⟨1, _⟩ => rfl)
  have h57 : idx_main_v57 (ix2 (0 : Fin 1) j) = ix1 j := funext fun a => Fin.ext (by match a with | ⟨0, _⟩ => rfl)
  rw [val_main_v59_apply, val_main_v56_apply, val_main_v58_apply, h58, val_main_v57_apply, h57]
  simp only [hl56, hr56, v55_at]
  rfl

theorem v62_at (g : Fin 64) (j : Fin 10) :
    val_main_v62 (F := Ideal) x0 x1 x2 x3 x4 x5 x6 x7 x8 x9 x10 (ix2 g j)
      = Cert.Sage.segSum Cert.Sage.z (fun n : Fin 100000 => (x2 (ix1 n)).toInt)
          (fun n => logitR x0 x1 x3 x4 x5 x6 x7 x8 x9 x10 n j) g.val := by
  unfold val_main_v62 Cert.Sage.segSum
  rw [pool_at, val_main_v60_apply, val_main_cst_10_apply]
  simp only [v61_at, v59_at]
  rfl

theorem v66_at (g : Fin 64) :
    val_main_v66 (F := Ideal) x2 (ix1 g)
      = Cert.Sage.segSum Cert.Sage.z (fun n : Fin 100000 => (x2 (ix1 n)).toInt) (fun _ => Cert.Sage.one) g.val := by
  unfold val_main_v66 Cert.Sage.segSum
  rw [pool1_at, val_main_v64_apply, val_main_cst_12_apply]
  simp only [v65_at, val_main_v63_apply, val_main_cst_11_apply]
  rfl

/-- THE REFERENCE'S RESULT at `(g, j)`: the mean of logit `j` over the nodes whose graph number is `g`. -/
theorem ref_out (g : Fin 64) (j : Fin 10) :
    val_main_v71 (F := Ideal) x0 x1 x2 x3 x4 x5 x6 x7 x8 x9 x10 (ix2 g j)
      = Cert.Sage.meanAt Cert.Sage.z Cert.Sage.one (fun n : Fin 100000 => (x2 (ix1 n)).toInt)
          (fun n => logitR x0 x1 x3 x4 x5 x6 x7 x8 x9 x10 n j) g.val := by
  have h70 : idx_main_v70 (ix2 g j) = ix2 g (0 : Fin 1) :=
    funext fun a => Fin.ext (by match a with | ⟨0, _⟩ => rfl | ⟨1, _⟩ => rfl)
  have h69 : idx_main_v69 (ix2 g (0 : Fin 1)) = ix1 g := funext fun a => Fin.ext (by match a with | ⟨0, _⟩ => rfl)
  rw [val_main_v71_apply, v62_at, val_main_v70_apply, h70, val_main_v69_apply, h69, val_main_v68_apply, v66_at,
    val_main_v67_apply, val_main_cst_13_apply]
  rfl

end Cert.RefVal

end
-- ==== Proof.BridgeMath.lean ====
/-
  The bridge between the two programs' mathematics, over the extended reals.

  * The one word of both programs denotes `1`.
  * A layer over a table of 102400 rows agrees, on the first 100000 rows, with the same layer over the table of
    100000 rows, when every source reads the same row in both and the longer table extends the shorter one;
    hence so do two layers in succession.
  * A pool accumulated over 25 blocks of 4096 rows with a one-hot weight — one on a row below 100000 whose
    graph number is `g`, zero elsewhere — divided by the accumulated count floored at one, is the mean over
    the nodes of graph `g`: the reference's result.
-/
import proofs.«421121_j36687610642889_1_alg».proof.Proof.Spec
import proofs.«421121_j36687610642889_1_alg».proof.Proof.RefVal
import proofs.«421121_j36687610642889_1_alg».proof.Proof.PoolMath

noncomputable section

open scoped BigOperators

namespace Cert.BridgeMath

open Cert.ReferenceIdeal Idealize.ShloMosaic Idealize.ShloMosaic.ValueIdx
open Cert.Sage Cert.RefVal

/-- The one word denotes `1`. -/
theorem one_eq : Cert.Sage.one = (1 : EReal) := by
  show Ideal.ieee 8 23 (0x3F800000#32 : BitVec 32) = 1
  unfold Ideal.ieee
  have hn : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  simp only [hn, he, hf]
  norm_num

/-! ## The longer tables' layers and logits -/

/-- The first layer over a table `xp` of 102400 rows whose sources read the rows `srowK`. -/
def h1K (x1 : IVec S2x1600000 32) (x3 : FVec Ideal S128x128 .f32) (x4 : FVec Ideal S128 .f32)
    (x5 : FVec Ideal S128x128 .f32) (srowK : Fin 1600000 → Fin 102400) (xp : Fin 102400 → Fin 128 → EReal) :
    Fin 102400 → Fin 128 → EReal :=
  Cert.Sage.layerRows Cert.Sage.z Cert.Sage.one (Cert.Sage.dstInt x1) srowK xp (Cert.Sage.tab x3) (Cert.Sage.tab x5)
    (Cert.Sage.vec x4)

/-- The second layer over the first. -/
def h2K (x1 : IVec S2x1600000 32) (x3 : FVec Ideal S128x128 .f32) (x4 : FVec Ideal S128 .f32)
    (x5 x6 : FVec Ideal S128x128 .f32) (x7 : FVec Ideal S128 .f32) (x8 : FVec Ideal S128x128 .f32)
    (srowK : Fin 1600000 → Fin 102400) (xp : Fin 102400 → Fin 128 → EReal) : Fin 102400 → Fin 128 → EReal :=
  Cert.Sage.layerRows Cert.Sage.z Cert.Sage.one (Cert.Sage.dstInt x1) srowK (h1K x1 x3 x4 x5 srowK xp) (Cert.Sage.tab x6)
    (Cert.Sage.tab x8) (Cert.Sage.vec x7)

/-- Row `n`'s logit `j` over the longer tables. -/
def logitK (x1 : IVec S2x1600000 32) (x3 : FVec Ideal S128x128 .f32) (x4 : FVec Ideal S128 .f32)
    (x5 x6 : FVec Ideal S128x128 .f32) (x7 : FVec Ideal S128 .f32) (x8 : FVec Ideal S128x128 .f32)
    (x9 : FVec Ideal S128x10 .f32) (x10 : FVec Ideal S10 .f32)
    (srowK : Fin 1600000 → Fin 102400) (xp : Fin 102400 → Fin 128 → EReal) (n : Fin 102400) (j : Fin 10) : EReal :=
  (∑ k : Fin 128, h2K x1 x3 x4 x5 x6 x7 x8 srowK xp n k * x9 (ix2 k j)) + x10 (ix1 j)

variable (x0 : FVec Ideal S100000x128 .f32) (x1 : IVec S2x1600000 32) (x2 : IVec S100000 32)
  (x3 : FVec Ideal S128x128 .f32) (x4 : FVec Ideal S128 .f32) (x5 x6 : FVec Ideal S128x128 .f32)
  (x7 : FVec Ideal S128 .f32) (x8 : FVec Ideal S128x128 .f32) (x9 : FVec Ideal S128x10 .f32) (x10 : FVec Ideal S10 .f32)

/-- With every source number inside the shorter table, both layers over the longer table agree with the layers over
    the shorter one on the shorter one's rows. -/
theorem layers_agree (hsrc : ∀ e, 0 ≤ Cert.Sage.srcInt x1 e ∧ Cert.Sage.srcInt x1 e < 100000)
    (srowK : Fin 1600000 → Fin 102400) (hsK : ∀ e, (srowK e).val = (Cert.Sage.srcInt x1 e).toNat)
    (xp : Fin 102400 → Fin 128 → EReal)
    (hxp : ∀ (a : Fin 102400) (a' : Fin 100000), a.val = a'.val → xp a = Cert.Sage.tab x0 a') :
    (∀ (a : Fin 102400) (a' : Fin 100000), a.val = a'.val → h1K x1 x3 x4 x5 srowK xp a = h1R x0 x1 x3 x4 x5 a')
      ∧ (∀ (a : Fin 102400) (a' : Fin 100000), a.val = a'.val →
          h2K x1 x3 x4 x5 x6 x7 x8 srowK xp a = h2R x0 x1 x3 x4 x5 x6 x7 x8 a') := by
  have hs : ∀ e, (srowK e).val = (srcRowR x1 e).val := fun e => by rw [hsK e, srcRowR_val x1 e (hsrc e)]
  have h1 : ∀ (a : Fin 102400) (a' : Fin 100000), a.val = a'.val →
      h1K x1 x3 x4 x5 srowK xp a = h1R x0 x1 x3 x4 x5 a' := fun a a' ha => funext fun j =>
    Cert.Sage.layerRows_eq_of_agree Cert.Sage.z Cert.Sage.one (Cert.Sage.dstInt x1) srowK (srcRowR x1) xp (Cert.Sage.tab x0)
      (Cert.Sage.tab x3) (Cert.Sage.tab x5) (Cert.Sage.vec x4) hs hxp a a' ha j
  exact ⟨h1, fun a a' ha => funext fun j =>
    Cert.Sage.layerRows_eq_of_agree Cert.Sage.z Cert.Sage.one (Cert.Sage.dstInt x1) srowK (srcRowR x1)
      (h1K x1 x3 x4 x5 srowK xp) (h1R x0 x1 x3 x4 x5) (Cert.Sage.tab x6) (Cert.Sage.tab x8) (Cert.Sage.vec x7) hs h1 a a' ha j⟩

/-! ## The pool -/

/-- The block-accumulated one-hot pool over the longer tables is the reference's result. -/
theorem pool_bridge (hsrc : ∀ e, 0 ≤ Cert.Sage.srcInt x1 e ∧ Cert.Sage.srcInt x1 e < 100000)
    (srowK : Fin 1600000 → Fin 102400) (hsK : ∀ e, (srowK e).val = (Cert.Sage.srcInt x1 e).toNat)
    (xp : Fin 102400 → Fin 128 → EReal)
    (hxp : ∀ (a : Fin 102400) (a' : Fin 100000), a.val = a'.val → xp a = Cert.Sage.tab x0 a')
    (ind : Fin 102400 → Fin 64 → EReal)
    (hind1 : ∀ (n : Fin 102400) (h : n.val < 100000) (g : Fin 64),
      (x2 (ix1 (⟨n.val, h⟩ : Fin 100000))).toInt = (g.val : ℤ) → ind n g = 1)
    (hind0 : ∀ (n : Fin 102400) (g : Fin 64),
      (∀ h : n.val < 100000, (x2 (ix1 (⟨n.val, h⟩ : Fin 100000))).toInt ≠ (g.val : ℤ)) → ind n g = 0)
    (g : Fin 64) (j : Fin 10) :
    Ideal.div
        (Cert.Sage.blockAcc 4096 Cert.Sage.z
          (fun n => if h : n < 102400 then ind ⟨n, h⟩ g * logitK x1 x3 x4 x5 x6 x7 x8 x9 x10 srowK xp ⟨n, h⟩ j else 0) 24)
        (max (Cert.Sage.blockAcc 4096 Cert.Sage.z (fun n => if h : n < 102400 then ind ⟨n, h⟩ g else 0) 24) Cert.Sage.one)
      = Cert.ReferenceIdeal.Read.val_main_v71 (F := Ideal) x0 x1 x2 x3 x4 x5 x6 x7 x8 x9 x10 (ix2 g j) := by
  have hnum : ∑ i : Fin 102400,
        (if h : i.val < 102400 then ind ⟨i.val, h⟩ g * logitK x1 x3 x4 x5 x6 x7 x8 x9 x10 srowK xp ⟨i.val, h⟩ j else 0)
      = ∑ n ∈ Finset.univ.filter (fun n : Fin 100000 => (x2 (ix1 n)).toInt = (g.val : ℤ)),
          logitR x0 x1 x3 x4 x5 x6 x7 x8 x9 x10 n j := by
    have e1 : ∀ i : Fin 102400,
        (if h : i.val < 102400 then ind ⟨i.val, h⟩ g * logitK x1 x3 x4 x5 x6 x7 x8 x9 x10 srowK xp ⟨i.val, h⟩ j else 0)
          = ind i g * logitK x1 x3 x4 x5 x6 x7 x8 x9 x10 srowK xp i j := fun i => by rw [dif_pos i.isLt]
    rw [Finset.sum_congr rfl (fun i _ => e1 i)]
    refine Cert.Sage.sum_ind_mul_eq_filter (by decide) (fun n => ind n g)
      (fun n => logitK x1 x3 x4 x5 x6 x7 x8 x9 x10 srowK xp n j)
      (fun n : Fin 100000 => (x2 (ix1 n)).toInt = (g.val : ℤ))
      (fun n => logitR x0 x1 x3 x4 x5 x6 x7 x8 x9 x10 n j)
      (fun n h hp => hind1 n h g hp) (fun n hn => hind0 n g hn) (fun n h _ => ?_)
    show logitK x1 x3 x4 x5 x6 x7 x8 x9 x10 srowK xp n j = logitR x0 x1 x3 x4 x5 x6 x7 x8 x9 x10 ⟨n.val, h⟩ j
    unfold logitK logitR
    rw [(layers_agree x0 x1 x3 x4 x5 x6 x7 x8 hsrc srowK hsK xp hxp).2 n ⟨n.val, h⟩ rfl]
  have hcnt : ∑ i : Fin 102400, (if h : i.val < 102400 then ind ⟨i.val, h⟩ g else 0)
      = ∑ n ∈ Finset.univ.filter (fun n : Fin 100000 => (x2 (ix1 n)).toInt = (g.val : ℤ)), Cert.Sage.one := by
    have e1 : ∀ i : Fin 102400, (if h : i.val < 102400 then ind ⟨i.val, h⟩ g else 0) = ind i g :=
      fun i => by rw [dif_pos i.isLt]
    rw [Finset.sum_congr rfl (fun i _ => e1 i), one_eq]
    exact Cert.Sage.sum_ind_eq_filter (by decide) (fun n => ind n g)
      (fun n : Fin 100000 => (x2 (ix1 n)).toInt = (g.val : ℤ))
      (fun n h hp => hind1 n h g hp) (fun n hn => hind0 n g hn)
  rw [ref_out, Cert.Sage.blockAcc_25, Cert.Sage.blockAcc_25, hnum, hcnt]
  rfl

end Cert.BridgeMath

end
-- ==== Proof.PreSrc.lean ====
/-
  The precondition decoded at the source row of the edge list. The printed predicate is a conjunction of ten
  one-bit words: nine say an input array holds no infinity or NaN, and the tenth says every entry `s` of row 0 of
  the `[2, 1600000]` edge list satisfies `0 ≤ s` and `s < 100000`, both signed. From "the predicate is 1" this
  module reads off the tenth: `0 ≤ s_e < 100000` for every edge `e`.

  * `srcRow_read`: row 0 cut out of the `[2, 1600000]` list and flattened to `[1600000]`, read at `e`, is the
    list at `(0, e)`;
  * `sge_zero_iff`, `slt_bound_iff`: the two signed word comparisons against `0` and `100000` say what they say
    of the signed values;
  * `part3_all`: the last conjunct — a conjunction over all edges of the and of two masks — being 1 makes both
    masks 1 at every edge;
  * `src_inrange`: the range of every source entry.
-/
import proofs.«421121_j36687610642889_1_alg».proof.Pre_finite_inputs
import Idealize.ShloMosaic.Lib.ValueIdx
import Idealize.ShloMosaic.Lib.ReduceAll
import Idealize.ShloMosaic.Lib.StableHlo.Predicate

noncomputable section

namespace Cert.Proof.PreSrc

open Idealize.ShloMosaic
open Cert.Pre_finite_inputs

/-- The rank-0 shape has one index. -/
instance subsingleton_S_ : Subsingleton S_.Idx := ⟨fun a b => funext fun d => d.elim0⟩

variable [hF : Facts]

/-- Row 0 of the `[2, 1600000]` list, cut out as a `[1, 1600000]` block and flattened to `[1600000]`, read at `e`
    is the list at `(0, e)`. -/
theorem srcRow_read (main_arg1 : IVec S2x1600000 32) (e : Fin 1600000) :
    shapeCast S1600000 (extractStridedSlice S1x1600000 ![0, 0] main_arg1 Facts.slices_S2x1600000_S1x1600000_0_0)
        Facts.shapeCasts_S1x1600000_S1600000 (ValueIdx.ix1 e)
      = main_arg1 (ValueIdx.ix2 (0 : Fin 2) e) := by
  unfold shapeCast
  rw [Shape.reshapeEquiv_cons_one]
  unfold extractStridedSlice
  congr 1
  funext a
  refine Fin.ext ?_
  match a with
  | ⟨0, _⟩ => rfl
  | ⟨1, _⟩ =>
    show 0 + e.val = e.val
    omega

/-- A word is at least `0`, signed, exactly when its signed value is non-negative. -/
theorem sge_zero_iff (w : BitVec 32) : IntOp.cmpi .sge w 0#32 = 1#1 ↔ 0 ≤ w.toInt := by
  show BitVec.ofBool ((0#32 : BitVec 32).sle w) = 1#1 ↔ _
  rw [StableHlo.Predicate.ofBool_eq_one_iff]
  simp only [BitVec.sle, decide_eq_true_eq]
  rw [show (0#32 : BitVec 32).toInt = 0 from by decide]

/-- A word is below `100000`, signed, exactly when its signed value is. -/
theorem slt_bound_iff (w : BitVec 32) : IntOp.cmpi .slt w 100000#32 = 1#1 ↔ w.toInt < 100000 := by
  show BitVec.ofBool (w.slt (100000#32 : BitVec 32)) = 1#1 ↔ _
  rw [StableHlo.Predicate.ofBool_eq_one_iff]
  simp only [BitVec.slt, decide_eq_true_eq]
  rw [show (100000#32 : BitVec 32).toInt = ((100000 : ℕ) : ℤ) from
    StableHlo.Predicate.toInt_ofNat_small 100000 (by norm_num)]
  norm_num

/-- The last conjunct is 1 only if both masks are 1 at every edge. -/
theorem part3_all {F : FTy → Type} [FloatOps F] (v43 : IVec S_ 1) (v47 v51 : IVec S1600000 1)
    (h : fn_part3 (F := F) v43 v47 v51 ValueIdx.ix0 = 1#1) (i : S1600000.Idx) :
    v47 i = 1#1 ∧ v51 i = 1#1 := by
  unfold fn_part3 at h
  dsimp only at h
  have h' : IntOp.andi (v43 ValueIdx.ix0)
      (Host.reduce IntOp.andi (andi v47 v51) (constantI S_ 1 1#1) Facts.reducesTo_S1600000_S_d0 Facts.h_S_ ValueIdx.ix0)
      = 1#1 := h
  have h2 := (IntOp.andi_eq_one.1 h').2
  have h3 : IntOp.andi (v47 i) (v51 i) = 1#1 :=
    Host.reduce_andi_all (andi v47 v51) (constantI S_ 1 1#1) Facts.reducesTo_S1600000_S_d0 Facts.h_S_ ValueIdx.ix0 h2 i
  exact IntOp.andi_eq_one.1 h3

/-- THE PRECONDITION DECODED: every entry of the edge list's source row lies in `[0, 100000)`, signed. -/
theorem src_inrange {F : FTy → Type} [FloatOps F]
    (main_arg0 : FVec F S100000x128 .f32) (main_arg1 : IVec S2x1600000 32) (main_arg2 : IVec S100000 32)
    (main_arg3 : FVec F S128x128 .f32) (main_arg4 : FVec F S128 .f32) (main_arg5 : FVec F S128x128 .f32)
    (main_arg6 : FVec F S128x128 .f32) (main_arg7 : FVec F S128 .f32) (main_arg8 : FVec F S128x128 .f32)
    (main_arg9 : FVec F S128x10 .f32) (main_arg10 : FVec F S10 .f32)
    (h : fn (F := F) main_arg0 main_arg1 main_arg2 main_arg3 main_arg4 main_arg5 main_arg6 main_arg7 main_arg8
      main_arg9 main_arg10 = (fun _ => 1#1)) :
    ∀ e : Fin 1600000, 0 ≤ (main_arg1 (ValueIdx.ix2 (0 : Fin 2) e)).toInt
      ∧ (main_arg1 (ValueIdx.ix2 (0 : Fin 2) e)).toInt < 100000 := by
  intro e
  have h0 : fn (F := F) main_arg0 main_arg1 main_arg2 main_arg3 main_arg4 main_arg5 main_arg6 main_arg7 main_arg8
      main_arg9 main_arg10 ValueIdx.ix0 = 1#1 := congrFun h ValueIdx.ix0
  dsimp only [fn, fn_part1, fn_part2] at h0
  obtain ⟨hge, hlt⟩ := part3_all (F := F) _ _ _ h0 (ValueIdx.ix1 e)
  have hge' : IntOp.cmpi .sge (main_arg1 (ValueIdx.ix2 (0 : Fin 2) e)) 0#32 = 1#1 := by
    rw [← srcRow_read main_arg1 e]; exact hge
  have hlt' : IntOp.cmpi .slt (main_arg1 (ValueIdx.ix2 (0 : Fin 2) e)) 100000#32 = 1#1 := by
    rw [← srcRow_read main_arg1 e]; exact hlt
  exact ⟨(sge_zero_iff _).1 hge', (slt_bound_iff _).1 hlt'⟩

end Cert.Proof.PreSrc

end
-- ==== Proof.Bridge.lean ====
/-
  The two programs end with equal results at the ideal values.

  The kernel's result array is what its third call leaves: at graph `g`, column `j`, the sum over 25 blocks of 4096
  rows of a one-hot weight times the row's logit, divided by the accumulated weight floored at one. The rows are the
  102400 rows of the padded node table; a row's weight for `g` is one exactly when its graph number, a 32-bit word,
  is the word of `g`, and the padding rows carry the word 64, the word of no graph. The logits are those of two
  layers over the padded table, which agree with the reference's on the first 100000 rows because every edge's
  source lies there (the precondition). So the kernel's result is the reference's mean pool.

  * words: a word whose signed value is `g < 64` is the word of `g`, and the word 64 is the word of no such `g`;
  * `result_eq`: the kernel's result array is the reference's result as a function of the eleven arguments;
  * `algebraic`: the claim, from the two runs.
-/
import proofs.«421121_j36687610642889_1_alg».proof.Defs
import proofs.«421121_j36687610642889_1_alg».proof.Proof.KI.Run
import proofs.«421121_j36687610642889_1_alg».proof.Proof.KI.Val2
import proofs.«421121_j36687610642889_1_alg».proof.Proof.KI.Chain
import proofs.«421121_j36687610642889_1_alg».proof.Proof.BridgeMath
import proofs.«421121_j36687610642889_1_alg».proof.Proof.PreSrc
import proofs.«421121_j36687610642889_1_alg».proof.Proof.Gen.ReferenceIdeal.Read
import proofs.«421121_j36687610642889_1_alg».proof.Proof.Gen.Pre_finite_inputs
import Idealize.ShloMosaic.Lib.StableHlo.Predicate

noncomputable section

open scoped BigOperators

namespace Cert.Proof.Bridge

open Cert.KernelIdeal Cert.KernelIdeal.Gen Cert.KernelIdeal.Hand
open Idealize.ShloMosaic Idealize.ShloMosaic.TcCoe Idealize.SL.Sem
open Idealize.ShloMosaic.ValueIdx

/-! ## Words -/

/-- The word of a number below 64 has that number as its signed value. -/
theorem toInt_word (g : Fin 64) : (BitVec.ofNat 32 g.val).toInt = (g.val : ℤ) :=
  StableHlo.Predicate.toInt_ofNat_small g.val (by have := g.isLt; omega)

/-- A word whose signed value is a number below 64 is that number's word. -/
theorem word_of_toInt (w : BitVec 32) (g : Fin 64) (h : w.toInt = (g.val : ℤ)) : w = BitVec.ofNat 32 g.val :=
  BitVec.eq_of_toInt_eq (h.trans (toInt_word g).symm)

/-- The word 64 is the word of no number below 64. -/
theorem pad_word_ne (g : Fin 64) : (64#32 : BitVec 32) ≠ BitVec.ofNat 32 g.val := by
  intro h
  have h64 : (64#32 : BitVec 32).toInt = 64 := by decide
  have hg := toInt_word g
  rw [← h, h64] at hg
  have := g.isLt
  omega

/-! ## The kernel's result is the reference's -/

variable (m : (ℓ : Loc nD τ sig) → Buf (Elt Ideal) ℓ) (ρ : Dev nD → PrngReg)

/-- A row's weight for graph `g` is one when the row is a node whose graph number is `g`. -/
theorem ind_one (c : Dev nD) (n : Fin 102400) (h : n.val < 100000) (g : Fin 64)
    (hg : ((m ((c.tc : Thread nD τ).loc main_arg2) : S100000.Idx → BitVec 32) (ix1 (⟨n.val, h⟩ : Fin 100000))).toInt = (g.val : ℤ)) :
    ind2 (VW8 m ρ) c n g = 1 := by
  refine ind2_one (VW8 m ρ) c n g ?_
  show (W8 m ρ c main_v6 : S102400x1.Idx → BitVec 32) (ix2 n (0 : Fin 1)) = _
  rw [bcol8, dif_pos h]
  exact word_of_toInt _ g hg

/-- A row's weight for graph `g` is zero when the row is padding or a node of another graph. -/
theorem ind_zero (c : Dev nD) (n : Fin 102400) (g : Fin 64)
    (hg : ∀ h : n.val < 100000,
      ((m ((c.tc : Thread nD τ).loc main_arg2) : S100000.Idx → BitVec 32) (ix1 (⟨n.val, h⟩ : Fin 100000))).toInt ≠ (g.val : ℤ)) :
    ind2 (VW8 m ρ) c n g = 0 := by
  refine ind2_zero (VW8 m ρ) c n g ?_
  show (W8 m ρ c main_v6 : S102400x1.Idx → BitVec 32) (ix2 n (0 : Fin 1)) ≠ _
  rw [bcol8]
  by_cases h : n.val < 100000
  · rw [dif_pos h]
    intro e
    exact hg h (by rw [e]; exact toInt_word g)
  · rw [dif_neg h]
    exact pad_word_ne g

/-- A row's logit over what the second call leaves is the logit of two layers over the padded table. -/
theorem logit_eq (c : Dev nD) (n : Fin 102400) (j : Fin 10) :
    logit2 (VW8 m ρ) c n j
      = Cert.BridgeMath.logitK (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (srK m ρ c) (xpK m ρ c) n j := by
  have e46 : ∀ k : Fin 128, (VW8 m ρ c main_v46 : S102400x128.Idx → EReal) (ix2 n k)
      = Cert.BridgeMath.h2K (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (srK m ρ c) (xpK m ρ c) n k :=
    fun k => h2K_eq m ρ c n k
  have e9 : (VW8 m ρ c main_arg9 : S128x10.Idx → EReal) = m ((c.tc : Thread nD τ).loc main_arg9) := W8_arg9 m ρ c
  have e10 : (VW8 m ρ c main_arg10 : S10.Idx → EReal) = m ((c.tc : Thread nD τ).loc main_arg10) := W8_arg10 m ρ c
  unfold logit2 logitRow Cert.BridgeMath.logitK
  rw [e9, e10]
  simp only [e46]

/-- THE KERNEL'S RESULT ARRAY, under the precondition, is the reference's result of the same arguments. -/
theorem result_eq (c : Dev nD)
    (hp : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      = (fun _ => 1#1)) :
    (dat2 (F := Ideal) (VW8 m ρ) c).arrAt 4 cfg2.N
      = Cert.ReferenceIdeal.Read.val_main_v71 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  have hsrc := Cert.Proof.PreSrc.src_inrange (F := Ideal) _ _ _ _ _ _ _ _ _ _ _ hp
  rw [arr2_4]
  funext i
  obtain ⟨g, j, rfl⟩ : ∃ (g : Fin 64) (j : Fin 10), i = ix2 g j := ⟨i 0, i 1, eq_ix2 i⟩
  rw [out2_apply]
  simp only [logit_eq]
  exact Cert.BridgeMath.pool_bridge _ _ _ _ _ _ _ _ _ _ _ hsrc (srK m ρ c) (fun e => srK_val m ρ c e (hsrc e))
    (xpK m ρ c) (xpK_agree m ρ c) (ind2 (VW8 m ρ) c) (ind_one m ρ c) (ind_zero m ρ c) g j

/-- `Cert.algebraic_KernelIdeal_ReferenceIdeal`: both programs run, the arguments end unchanged, and the results are
    equal element by element. -/
theorem algebraic : Cert.algebraic_KernelIdeal_ReferenceIdeal := by
  intro m ρ m' ρ' hpre hagree
  refine ⟨fun c => (dat2 (F := Ideal) (VW8 m ρ) c).arrAt 4 cfg2.N, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq]
  obtain ⟨a0, a1, a2, a3, a4, a5, a6, a7, a8, a9, a10⟩ := hagree c
  rw [a0, a1, a2, a3, a4, a5, a6, a7, a8, a9, a10]
  exact (result_eq m ρ c (hpre c)).symm

end Cert.Proof.Bridge

end
-- ==== Proof.lean ====
/-
  A two-layer graph convolution with mean aggregation and a mean pool over the graphs of a batch, computed by a
  program of three Pallas calls among host operations (the kernel) and by plain array operations (the reference):
  the two agree over the extended reals wherever every edge's source is a node number, `0 ≤ src < 100000`.

  The kernel pads the node table from 100000 to 102400 rows. Per layer it gathers the source rows, scatter-adds
  them at the destination rows and divides by the in-degree (floored at one) on the host, then one Pallas call
  walks 25 blocks of 4096 rows computing `max (mean · Wl + bl + h · Wr) 0`. A third call computes the logits
  `h₂ · Wf + bf` block by block and accumulates, through a one-hot matrix of the graph ids, their per-graph sums
  and counts in two buffers it keeps across the 25 blocks; at the last block it stores sum / max (count, 1). The
  reference does the same on 100000 rows with scatter-adds for the pool.

  Why they agree: an edge whose source is a node number reads the same row in both tables, and the tables agree
  on the first 100000 rows (the padding rows are never read: no source points at them, and their graph id 64 is
  no graph, so their one-hot rows are zero); a destination beyond 100000 only feeds padding rows. A one-hot
  product `Σ_n [id n = g] · v n` is the sum of `v` over the rows of graph `g`, and a sum accumulated block by
  block is the whole sum, addition on the extended reals being associative and commutative. No law that needs
  finiteness is used.

  The frames of the two kernel programs come from one run of the nine segments of @main (`Hand.run`), the
  reference's from its run; the one rewrite of the idealization, a float kept through a narrower format and back,
  is the identity on the extended reals.
-/
import proofs.«421121_j36687610642889_1_alg».proof.Defs
import proofs.«421121_j36687610642889_1_alg».proof.Proof.Gen.Kernel
import proofs.«421121_j36687610642889_1_alg».proof.Proof.Gen.KernelIdeal
import proofs.«421121_j36687610642889_1_alg».proof.Proof.Gen.ReferenceIdeal
import proofs.«421121_j36687610642889_1_alg».proof.Proof.Gen.ReferenceIdeal.Run
import proofs.«421121_j36687610642889_1_alg».proof.Proof.Gen.Pre_finite_inputs
import proofs.«421121_j36687610642889_1_alg».proof.Proof.KB.Run
import proofs.«421121_j36687610642889_1_alg».proof.Proof.KI.Run
import proofs.«421121_j36687610642889_1_alg».proof.Proof.Bridge
import Idealize.ShloMosaic.Adequacy
import Idealize.ShloMosaic.Init

noncomputable section

namespace Cert.Proof

open Idealize.ShloMosaic Idealize.SL.Sem

/-- The kernel as printed runs to the end and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing a float and widening it back is the identity on the extended reals. -/
theorem preserves : Cert.preserves_Kernel_KernelIdeal :=
  IdealRules.truncf_extf.statement _ .f32 .bf16

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Bridge.algebraic⟩

end Cert.Proof

end
